-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S2x160000 : S_.BroadcastsInDim S2x160000 (![] : Fin 0 → Fin S2x160000.rank)
  reducesTo_S2x160000_S_d0_1 : S2x160000.ReducesTo [0, 1] S_

variable [Facts]

def fn_part1 {F : FTy → Type} [FloatOps F] (main_arg1 : IVec S2x160000 32) (main_v13 : IVec S_ 1) (main_v15 : IVec S2x160000 1) (main_c_5 : IVec S_ 32) : IVec S_ 1 :=
  let main_v16 : IVec S2x160000 32 := broadcastInDim S2x160000 ![] bcast_S_S2x160000 main_c_5
  let main_v17 : IVec S2x160000 1 := cmpi .slt main_arg1 main_v16
  let main_v18 : IVec S2x160000 1 := andi main_v15 main_v17
  let main_c_6 : IVec S_ 1 := constantI S_ 1 1#1
  let main_v19 : IVec S_ 1 := (fun x v => Host.reduce IntOp.andi x v reducesTo_S2x160000_S_d0_1 h_S_) main_v18 main_c_6
  let main_v20 : IVec S_ 1 := andi main_v13 main_v19
  main_v20

def fn {F : FTy → Type} [FloatOps F] (main_arg0 : FVec F S10000x512 .f32) (main_arg1 : IVec S2x160000 32) (main_arg2 : FVec F S512x512 .f32) (main_arg3 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_c_4 : IVec S_ 32 := constantI S_ 32 0#32
  let main_v14 : IVec S2x160000 32 := broadcastInDim S2x160000 ![] bcast_S_S2x160000 main_c_4
  let main_v15 : IVec S2x160000 1 := cmpi .sge main_arg1 main_v14
  let main_c_5 : IVec S_ 32 := constantI S_ 32 10000#32
  fn_part1 (F := F) main_arg1 main_v13 main_v15 main_c_5
-- ==== Kernel.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S10240x10240 : Shape := ⟨2, ![10240, 10240]⟩
abbrev S170000x2 : Shape := ⟨2, ![170000, 2]⟩
abbrev S10000x1 : Shape := ⟨2, ![10000, 1]⟩
abbrev S1000x512 : Shape := ⟨2, ![1000, 512]⟩
abbrev S1000x1 : Shape := ⟨2, ![1000, 1]⟩
abbrev S10240x512 : Shape := ⟨2, ![10240, 512]⟩
abbrev S10240x1 : Shape := ⟨2, ![10240, 1]⟩
abbrev S1x512 : Shape := ⟨2, ![1, 512]⟩
abbrev S1280x2560 : Shape := ⟨2, ![1280, 2560]⟩
abbrev S2560x512 : Shape := ⟨2, ![2560, 512]⟩
abbrev S1280x1 : Shape := ⟨2, ![1280, 1]⟩
abbrev S1280x512 : Shape := ⟨2, ![1280, 512]⟩

abbrev nBuf : Space → Nat
  | .hbm => 60
  | .vmem => 17
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S10000, .i32⟩
  | .hbm, ⟨5, _⟩ => ⟨S1x160000, .i32⟩
  | .hbm, ⟨6, _⟩ => ⟨S160000, .i32⟩
  | .hbm, ⟨7, _⟩ => ⟨S170000, .i32⟩
  | .hbm, ⟨8, _⟩ => ⟨S1x160000, .i32⟩
  | .hbm, ⟨9, _⟩ => ⟨S160000, .i32⟩
  | .hbm, ⟨10, _⟩ => ⟨S170000, .i32⟩
  | .hbm, ⟨11, _⟩ => ⟨S_, .f32⟩
  | .hbm, ⟨12, _⟩ => ⟨S170000, .f32⟩
  | .hbm, ⟨13, _⟩ => ⟨S_, .f32⟩
  | .hbm, ⟨14, _⟩ => ⟨S10000, .f32⟩
  | .hbm, ⟨15, _⟩ => ⟨S170000x1, .i32⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S10000, .i1⟩
  | .hbm, ⟨20, _⟩ => ⟨S10000, .f32⟩
  | .hbm, ⟨21, _⟩ => ⟨S_, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S_, .f32⟩
  | .hbm, ⟨26, _⟩ => ⟨S10240x10240, .f32⟩
  | .hbm, ⟨27, _⟩ => ⟨S_, .i32⟩
  | .hbm, ⟨28, _⟩ => ⟨S170000, .i32⟩
  | .hbm, ⟨29, _⟩ => ⟨S170000, .i1⟩
  | .hbm, ⟨30, _⟩ => ⟨S_, .i32⟩
  | .hbm, ⟨31, _⟩ => ⟨S170000, .i32⟩
  | .hbm, ⟨32, _⟩ => ⟨S170000, .i32⟩
  | .hbm, ⟨33, _⟩ => ⟨S170000, .i32⟩
  | .hbm, ⟨34, _⟩ => ⟨S_, .i32⟩
  | .hbm, ⟨35, _⟩ => ⟨S170000, .i32⟩
  | .hbm, ⟨36, _⟩ => ⟨S170000, .i1⟩
  | .hbm, ⟨37, _⟩ => ⟨S_, .i32⟩
  | .hbm, ⟨38, _⟩ => ⟨S170000, .i32⟩
  | .hbm, ⟨39, _⟩ => ⟨S170000, .i32⟩
  | .hbm, ⟨40, _⟩ => ⟨S170000, .i32⟩
  | .hbm, ⟨41, _⟩ => ⟨S170000x1, .i32⟩
  | .hbm, ⟨42, _⟩ => ⟨S170000x1, .i32⟩
  | .hbm, ⟨43, _⟩ => ⟨S170000x2, .i32⟩
  | .hbm, ⟨44, _⟩ => ⟨S_, .f32⟩
  | .hbm, ⟨45, _⟩ => ⟨S170000, .f32⟩
  | .hbm, ⟨46, _⟩ => ⟨S10240x10240, .f32⟩
  | .hbm, ⟨47, _⟩ => ⟨S10240x10240, .bf16⟩
  | .hbm, ⟨48, _⟩ => ⟨S10000x1, .f32⟩
  | .hbm, ⟨49, _⟩ => ⟨S10000x512, .bf16⟩
  | .hbm, ⟨50, _⟩ => ⟨S_, .i32⟩
  | .hbm, ⟨51, _⟩ => ⟨S_, .bf16⟩
  | .hbm, ⟨52, _⟩ => ⟨S10240x512, .bf16⟩
  | .hbm, ⟨53, _⟩ => ⟨S10000x1, .f32⟩
  | .hbm, ⟨54, _⟩ => ⟨S_, .i32⟩
  | .hbm, ⟨55, _⟩ => ⟨S_, .f32⟩
  | .hbm, ⟨56, _⟩ => ⟨S10240x1, .f32⟩
  | .hbm, ⟨57, _⟩ => ⟨S1x512, .f32⟩
  | .hbm, ⟨58, _⟩ => ⟨S10240x512, .f32⟩
  | .hbm, ⟨59, _⟩ => ⟨S10000x512, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1000x1, .f32⟩
  | .local _ .vmem, ⟨4, _⟩ => ⟨S1000x1, .f32⟩
  | .local _ .vmem, ⟨5, _⟩ => ⟨S1000x512, .bf16⟩
  | .local _ .vmem, ⟨6, _⟩ => ⟨S1000x512, .bf16⟩
  | .local _ .vmem, ⟨7, _⟩ => ⟨S1280x2560, .bf16⟩
  | .local _ .vmem, ⟨8, _⟩ => ⟨S1280x2560, .bf16⟩
  | .local _ .vmem, ⟨9, _⟩ => ⟨S2560x512, .bf16⟩
  | .local _ .vmem, ⟨10, _⟩ => ⟨S2560x512, .bf16⟩
  | .local _ .vmem, ⟨11, _⟩ => ⟨S1280x1, .f32⟩
  | .local _ .vmem, ⟨12, _⟩ => ⟨S1280x1, .f32⟩
  | .local _ .vmem, ⟨13, _⟩ => ⟨S1x512, .f32⟩
  | .local _ .vmem, ⟨14, _⟩ => ⟨S1280x512, .f32⟩
  | .local _ .vmem, ⟨15, _⟩ => ⟨S1280x512, .f32⟩
  | .local _ .vmem, ⟨16, _⟩ => ⟨S1280x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_call1_v0 : Ref sig .tc := ⟨.hbm, 51, rfl⟩
abbrev main_v34 : Ref sig .tc := ⟨.hbm, 52, rfl⟩
abbrev main_v35 : Ref sig .tc := ⟨.hbm, 53, rfl⟩
abbrev main_c_9 : Ref sig .tc := ⟨.hbm, 54, rfl⟩
abbrev main_call2_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1280x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2560x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1280x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1280x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S_S10240x10240 : S_.BroadcastsInDim S10240x10240 (![] : Fin 0 → Fin S10240x10240.rank)
  concatenates_S170000x1_S170000x1_S170000x2_d1 : Shape.Concatenates [S170000x1, S170000x1] S170000x2 1
  bitsLt_bf16_f32 : FTy.bits .bf16 < FTy.bits .f32
  shapeCasts_S10000_S10000x1 : S10000.ShapeCasts S10000x1
  inb_S1000x512_S1000x512_0_0 : ∀ a, (![0, 0] : Fin 2 → Nat) a + S1000x512.size a ≤ S1000x512.size a
  h_S1000x512 : 0 < S1000x512.numel
  inb_S512x512_S512x512_0_0 : ∀ a, (![0, 0] : Fin 2 → Nat) a + S512x512.size a ≤ S512x512.size a
  h_S512x512 : 0 < S512x512.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  packedbf16_S1000x512_S1000x512_0_0 : (Rect.unit (s := S1000x512) ![0, 0] S1000x512.size inb_S1000x512_S1000x512_0_0).PackedRows (EltTy.packing .bf16)
  pads_S10000x512_S10240x512_02400_000 : S10000x512.Pads (![0, 0] : Fin 2 → Nat) ![240, 0] ![0, 0] S10240x512
  h_S_ : 0 < S_.numel
  pads_S10000x1_S10240x1_02400_000 : S10000x1.Pads (![0, 0] : Fin 2 → Nat) ![240, 0] ![0, 0] S10240x1
  shapeCasts_S512_S1x512 : S512.ShapeCasts S1x512
  inb_S1280x512_S1280x512_0_0 : ∀ a, (![0, 0] : Fin 2 → Nat) a + S1280x512.size a ≤ S1280x512.size a
  h_S1280x512 : 0 < S1280x512.numel
  shapeCasts_S1280x512_S1280x512 : S1280x512.ShapeCasts S1280x512
  inb_S1280x2560_S1280x2560_0_0 : ∀ a, (![0, 0] : Fin 2 → Nat) a + S1280x2560.size a ≤ S1280x2560.size a
  h_S1280x2560 : 0 < S1280x2560.numel
  shapeCasts_S1280x2560_S1280x2560 : S1280x2560.ShapeCasts S1280x2560
  inb_S2560x512_S2560x512_0_0 : ∀ a, (![0, 0] : Fin 2 → Nat) a + S2560x512.size a ≤ S2560x512.size a
  h_S2560x512 : 0 < S2560x512.numel
  shapeCasts_S2560x512_S2560x512 : S2560x512.ShapeCasts S2560x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1280x512 : S1x512.Broadcasts S1280x512
  inb_S1280x1_S1280x1_0_0 : ∀ a, (![0, 0] : Fin 2 → Nat) a + S1280x1.size a ≤ S1280x1.size a
  h_S1280x1 : 0 < S1280x1.numel
  shapeCasts_S1280x1_S1280x1 : S1280x1.ShapeCasts S1280x1
  broadcasts_S1280x1_S1280x512 : S1280x1.Broadcasts S1280x512
  slices_S10240x512_S10000x512_0_0 : S10240x512.Slices ![0, 0] S10000x512
  scatter_S10000_S170000x1_S170000_n_0_0_1_wf : ScatterDims.WF S10000 S170000x1 S170000 [] [0] [0] 1
  scatter_S10240x10240_S170000x2_S170000_n_01_01_1_wf : ScatterDims.WF S10240x10240 S170000x2 S170000 [] [0, 1] [0, 1] 1
  dot_S1000x512_S512x512_S1000x512_1_0_0_1_n_n_wf : DotDims.WF S1000x512 S512x512 S1000x512 [1] [0] [0] [1] [] []
  dot_S1280x2560_S2560x512_S1280x512_1_0_0_1_n_n_wf : DotDims.WF S1280x2560 S2560x512 S1280x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S10000x1.size a
  hwx0_2 : ∀ i : grid0.Coords, EltTy.bits .f32 = 32 ∨ (Rect.block (s := S10000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S10000x512.size a
  hwx0_3 : ∀ i : grid0.Coords, EltTy.bits .bf16 = 32 ∨ (Rect.block (s := S10000x512) S1000x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x2560.size a ≤ S10240x10240.size a
  hwx1_0 : ∀ i : grid1.Coords, EltTy.bits .bf16 = 32 ∨ (Rect.block (s := S10240x10240) S1280x2560.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x512.size a ≤ S10240x512.size a
  hwx1_1 : ∀ i : grid1.Coords, EltTy.bits .bf16 = 32 ∨ (Rect.block (s := S10240x512) S2560x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1280x1.size a ≤ S10240x1.size a
  hwx1_2 : ∀ i : grid1.Coords, EltTy.bits .f32 = 32 ∨ (Rect.block (s := S10240x1) S1280x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1280x512.size a ≤ S10240x512.size a
  hwx1_4 : ∀ i : grid1.Coords, EltTy.bits .f32 = 32 ∨ (Rect.block (s := S10240x512) S1280x512.size (cc1_transform_4 i) (hinb1_4 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def scatter_S10240x10240_S170000x2_S170000_n_01_01_1 : ScatterDims S10240x10240 S170000x2 S170000 where
  updateWindowDims := []
  insertedWindowDims := [0, 1]
  scatterDimsToOperandDims := [0, 1]
  indexVectorDim := 1
  wf := scatter_S10240x10240_S170000x2_S170000_n_01_01_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1280x2560_S2560x512_S1280x512_1_0_0_1_n_n : DotDims S1280x2560 S2560x512 S1280x512 where
  lhsContracting := [1]
  rhsContracting := [0]
  lhsNonContracting := [0]
  rhsNonContracting := [1]
  lhsBatch := []
  rhsBatch := []
  wf := dot_S1280x2560_S2560x512_S1280x512_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S1280x2560.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2560x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1280x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1280x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S170000x512 : Shape := ⟨2, ![170000, 512]⟩
abbrev S1x512 : Shape := ⟨2, ![1, 512]⟩

abbrev nBuf : Space → Nat
  | .hbm => 64
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S10000, .i32⟩
  | .hbm, ⟨5, _⟩ => ⟨S1x160000, .i32⟩
  | .hbm, ⟨6, _⟩ => ⟨S160000, .i32⟩
  | .hbm, ⟨7, _⟩ => ⟨S170000, .i32⟩
  | .hbm, ⟨8, _⟩ => ⟨S1x160000, .i32⟩
  | .hbm, ⟨9, _⟩ => ⟨S160000, .i32⟩
  | .hbm, ⟨10, _⟩ => ⟨S170000, .i32⟩
  | .hbm, ⟨11, _⟩ => ⟨S_, .f32⟩
  | .hbm, ⟨12, _⟩ => ⟨S170000, .f32⟩
  | .hbm, ⟨13, _⟩ => ⟨S_, .f32⟩
  | .hbm, ⟨14, _⟩ => ⟨S10000, .f32⟩
  | .hbm, ⟨15, _⟩ => ⟨S170000x1, .i32⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S10000, .i1⟩
  | .hbm, ⟨20, _⟩ => ⟨S10000, .f32⟩
  | .hbm, ⟨21, _⟩ => ⟨S_, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S_, .i32⟩
  | .hbm, ⟨26, _⟩ => ⟨S170000, .i32⟩
  | .hbm, ⟨27, _⟩ => ⟨S170000, .i1⟩
  | .hbm, ⟨28, _⟩ => ⟨S_, .i32⟩
  | .hbm, ⟨29, _⟩ => ⟨S170000, .i32⟩
  | .hbm, ⟨30, _⟩ => ⟨S170000, .i32⟩
  | .hbm, ⟨31, _⟩ => ⟨S170000, .i32⟩
  | .hbm, ⟨32, _⟩ => ⟨S170000x1, .i32⟩
  | .hbm, ⟨33, _⟩ => ⟨S170000, .f32⟩
  | .hbm, ⟨34, _⟩ => ⟨S_, .i32⟩
  | .hbm, ⟨35, _⟩ => ⟨S170000, .i32⟩
  | .hbm, ⟨36, _⟩ => ⟨S170000, .i1⟩
  | .hbm, ⟨37, _⟩ => ⟨S_, .i32⟩
  | .hbm, ⟨38, _⟩ => ⟨S170000, .i32⟩
  | .hbm, ⟨39, _⟩ => ⟨S170000, .i32⟩
  | .hbm, ⟨40, _⟩ => ⟨S170000, .i32⟩
  | .hbm, ⟨41, _⟩ => ⟨S170000x1, .i32⟩
  | .hbm, ⟨42, _⟩ => ⟨S170000, .f32⟩
  | .hbm, ⟨43, _⟩ => ⟨S170000, .f32⟩
  | .hbm, ⟨44, _⟩ => ⟨S10000x512, .f32⟩
  | .hbm, ⟨45, _⟩ => ⟨S_, .i32⟩
  | .hbm, ⟨46, _⟩ => ⟨S170000, .i32⟩
  | .hbm, ⟨47, _⟩ => ⟨S170000, .i1⟩
  | .hbm, ⟨48, _⟩ => ⟨S_, .i32⟩
  | .hbm, ⟨49, _⟩ => ⟨S170000, .i32⟩
  | .hbm, ⟨50, _⟩ => ⟨S170000, .i32⟩
  | .hbm, ⟨51, _⟩ => ⟨S170000, .i32⟩
  | .hbm, ⟨52, _⟩ => ⟨S170000x1, .i32⟩
  | .hbm, ⟨53, _⟩ => ⟨S170000x512, .f32⟩
  | .hbm, ⟨54, _⟩ => ⟨S170000x1, .f32⟩
  | .hbm, ⟨55, _⟩ => ⟨S170000x512, .f32⟩
  | .hbm, ⟨56, _⟩ => ⟨S170000x512, .f32⟩
  | .hbm, ⟨57, _⟩ => ⟨S_, .f32⟩
  | .hbm, ⟨58, _⟩ => ⟨S10000x512, .f32⟩
  | .hbm, ⟨59, _⟩ => ⟨S170000x1, .i32⟩
  | .hbm, ⟨60, _⟩ => ⟨S10000x512, .f32⟩
  | .hbm, ⟨61, _⟩ => ⟨S1x512, .f32⟩
  | .hbm, ⟨62, _⟩ => ⟨S10000x512, .f32⟩
  | .hbm, ⟨63, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S10000x512_S512x512_S10000x512_1_0_0_1_n_n_wf : DotDims.WF S10000x512 S512x512 S10000x512 [1] [0] [0] [1] [] []
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf

class Facts : Prop extends Facts₀ where

variable [Facts]
-- ==== Proof.K.RunCond.lean ====
/- THE CONDITIONAL RUN of @main. From one segment record per kernel region, entered from "every unscoped buffer at the
   valuation before the region, beside a rest" and left at "every unscoped buffer at the valuation after it, beside
   the next rest", every weakly fair execution of @main terminates and EVERY unscoped TensorCore buffer of the final
   memory holds the last valuation `V11`: the arguments and the result buffer alike. The host stretches, the chaining
   of the thread states and the launch's first thread state are as in the conditional frame; what differs is the
   final reading, which keeps the whole pointwise equation between the final memory and `V11` instead of
   projecting it to the four arguments. -/
import proofs.«418382_j13529146982751_3_alg».proof.Proof.Gen.Kernel.Regions

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
/-- THE CONDITIONAL RUN. For any user algebra, level assignment, launch dues and ghost resources, any rest states `E`
    the launch makes on every core at once (`hE0`) and that end owing nothing (`hE2`), any contents the regions leave
    (`outs`) and any proof data: GIVEN, per region K, a segment record entered from the thread state before it and left
    at the one after it (`RK`, `hpreK`, `hpostK`), every weakly fair execution of @main from memory `m` with zero
    counters terminates, and in every final memory each unscoped TensorCore buffer `b` of each core `c` holds
    `V11 m outs c b`: the eleven items' valuations composed, host stretches by `StableHlo.after` and regions by the
    update at their output array. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c)) :
    θ_run defs (onTc (τ := τ) (main (F := F))) ⟨m, fun _ => 0, ρ⟩ (fun r => ∀ c : Dev nD, ∀ b ∈ Pipeline.ucRefs τ sig,
      r.2.mem ((c : Thread nD τ).1, b) = V11 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m outs c))
    (hch := fun c => ⟨.rfl, .rfl, .rfl, hpre0 c, hpost0 c, .rfl, .rfl, .rfl, .rfl, hpre1 c, hpost1 c, sep_mono .rfl (hE2 c)⟩)
    (hinit := ?_) (QY := fun c s => ∀ b ∈ Pipeline.ucRefs τ sig, s.mem ((c : Thread nD τ).1, b) = V11 m outs c b)
    (hfin := fun c s' => ?_) (hQ := fun _ h => h)
  · -- the launch: the unscoped buffers are held at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the last thread state holds every unscoped buffer at `V11`, and a held buffer agrees with the memory
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact h
    · iexact HSI

end Cert.Kernel.Gen

end
-- ==== Proof.K.Region0.lean ====
/- Pipeline 0 of the program, at the TensorCore's buffer contents `V` when the region is entered: each window's
   block at a grid point, the block the body leaves in the output window's buffer, the body's triple, the proof data
   of the pipeline and its body obligation at every point. Generic in the float instance. -/
import proofs.«418382_j13529146982751_3_alg».proof.Proof.Gen.Kernel.Launch
import proofs.«418382_j13529146982751_3_alg».proof.Proof.Gen.Kernel.Skeleton
import proofs.«418382_j13529146982751_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- a rectangle of 1000 rows: membership in it recurses once per coordinate of the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the rectangle of the window's array that the point's block index selects,
    read off the array's contents at region entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each staging buffer whole, as the unit-stride rectangle at offset zero -/

abbrev rA0 : Rect S1000x512 := Rect.unit (s := S1000x512) ![0, 0] S1000x512.size inb_S1000x512_S1000x512_0_0
abbrev rB0 : Rect S512x512 := Rect.unit (s := S512x512) ![0, 0] S512x512.size inb_S512x512_S512x512_0_0
abbrev rS0 : Rect S1000x1 := Rect.unit (s := S1000x1) ![0, 0] S1000x1.size inb_S1000x1_S1000x1_0_0

/-- The offset vector of those rectangles is zero on both axes. -/
theorem zero_off2 : (![0, 0] : Fin 2 → Nat) = fun _ => 0 := funext fun a => by fin_cases a <;> rfl

/-! ## What the body leaves in the output window's buffer -/

/-- The output window's staging buffer after the body, from the three input blocks: the body's one store as a
    one-piece list, its rectangle the whole buffer, its payload the scaled product of what the three loads read. -/
def out0_3 (x0 : Vec F S1000x512 .f32) (x1 : Vec F S512x512 .f32) (x2 : Vec F S1000x1 .f32) : Vec F S1000x512 .bf16 :=
  View.canon [⟨rA0, k0_pay1 (View.ld x0 rA0) (View.ld x1 rB0) (View.ld x2 rS0)⟩]

/-- One piece at offset zero covering the block leaves its payload; each of the three loads through the whole-buffer
    rectangle at offset zero reads the buffer itself. So the output block is the payload at the three input blocks. -/
theorem out0_3_eq (x0 : Vec F S1000x512 .f32) (x1 : Vec F S512x512 .f32) (x2 : Vec F S1000x1 .f32) :
    out0_3 x0 x1 x2 = k0_pay1 x0 x1 x2 := by
  unfold out0_3
  rw [View.canon_unit_zero (S := S1000x512) zero_off2 inb_S1000x512_S1000x512_0_0,
    View.ld_unit_zero (S := S1000x512) zero_off2 inb_S1000x512_S1000x512_0_0,
    View.ld_unit_zero (S := S512x512) zero_off2 inb_S512x512_S512x512_0_0,
    View.ld_unit_zero (S := S1000x1) zero_off2 inb_S1000x1_S1000x1_0_0]

/-- The one store's rectangle is the whole buffer, so it covers every index. -/
theorem cover0_3 (p0 : Vec F S1000x512 .bf16) (y : S1000x512.Idx) :
    ∃ pc ∈ ([⟨rA0, p0⟩] : List (View.Piece (Elt F) S1000x512 .bf16)), y ∈ pc.1.set :=
  ⟨_, List.mem_singleton_self _, View.mem_set_unit_zero (S := S1000x512) zero_off2 inb_S1000x512_S1000x512_0_0 y⟩

/-! ## The pipeline's proof data -/

/-- The proof data of pipeline 0 on core `c`: the arrays at their region-entry contents; after the body at point
    `t` each input window's buffer still at its block and the output window's at `out0_3` of the three input blocks;
    the invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## What the body finds in each input window's buffer -/

/-- An input window's current staging buffer holds the window's block at every point, whether the block was fetched
    there or not: a point that does not fetch the window has the block index of the point before, and the body
    leaves an input buffer as it found it. The window is uncut and never idle. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body's triple -/

set_option maxHeartbeats 1000000 in
/-- The kernel body on whole staging memrefs — the three inputs' at contents `x0`, `x1`, `x2`, the output's at
    anything — runs to the continuation with the inputs' as they were and the output's at `out0_3 x0 x1 x2`. The body
    is its skeleton: three whole-buffer loads, a fourth load (of the output buffer) whose value nothing reads, and
    one store of the payload over the whole output buffer; what a buffer reads after a covering list of writes is
    the list's canonical contents. -/
theorem sound_kernel0 (c : Dev nD) (E : Set ℕ) (i : grid0.Coords)
    (arg1 : Memref sig .tc .vmem S1000x512 .f32) (harg1 : arg1.IsWhole)
    (arg2 : Memref sig .tc .vmem S512x512 .f32) (harg2 : arg2.IsWhole)
    (arg3 : Memref sig .tc .vmem S1000x1 .f32) (harg3 : arg3.IsWhole)
    (arg4 : Memref sig .tc .vmem S1000x512 .bf16) (harg4 : arg4.IsWhole)
    (x0 : Vec F S1000x512 .f32) (x1 : Vec F S512x512 .f32) (x2 : Vec F S1000x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E
          (cc0__linear_scaled_kernel i arg1 harg1 arg2 harg2 arg3 harg3 arg4 harg4) K := by
  simp only [cc0__linear_scaled_kernel_eq_skeleton]; unfold cc0__linear_scaled_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is handed at point `t`: the invariant, what the core owes, and each window's current staging
    buffer at what it then holds. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back: the invariant and the debt at the next point, each buffer at what the body leaves. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input buffers hold their blocks (`before0_0`, `before0_1`, `before0_2`), the
    output buffer holds something, so the body's triple applies at the three blocks; the invariant and the debt do
    not depend on the point and pass through unread. -/
theorem sound_body0 (c : Dev nD) (t : Fin cfg0.N) :
    handed0 V c t ⊢ wp frame (wpE (defs₀ (F := F)) Variants.none c none) Set.univ (bodyAt0 t) (fun _ => returned0 V c t) := by
  unfold handed0 returned0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point: its two products over the four windows written out. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.K.Region1.lean ====
/- Pipeline 1 (the aggregation matmul) of the program: its proof data and its body obligation, at the
   contents `V` the TensorCore's buffers hold when the region is entered.

   The kernel keeps a running sum in a scratch buffer that it carries from one grid point to the next.  With
   `k = t % 4` the inner grid coordinate of point `t`: at `k = 0` it first overwrites the scratch with zeros; at
   every point it then replaces the scratch `s` by `s + A_t · h_t` (`k1_pay2 s A_t h_t`, the blocks of windows 0 and
   1 at the point); at `k = 3` it moreover stores `s' * scale + bias` (`k1_pay3 bias s' scale`, `s'` the new sum)
   over the whole output block, which the pipeline writes back at exactly those points and leaves alone elsewhere.
   So the scratch after point `t` is a recursion on `t` (`accAt1`), restarted at every `t ≡ 0 (mod 4)`, and the
   output block written back at `t ≡ 3 (mod 4)` is a function of that sum and of two input blocks. -/
import proofs.«418382_j13529146982751_3_alg».proof.Proof.Gen.Kernel.Launch
import proofs.«418382_j13529146982751_3_alg».proof.Proof.Gen.Kernel.Skeleton
import proofs.«418382_j13529146982751_3_alg».proof.Proof.Gen.Kernel.Points
import Idealize.ShloMosaic.Lib.Pipeline.FrameBody
import Idealize.ShloMosaic.Lib.Pipeline.Value
import Idealize.ShloMosaic.Lib.Pipeline.Kit
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The running sum -/

/-- The scratch after the body at point `n`: the sum restarted from zero at the points `≡ 0 (mod 4)`, else the
    sum the point before left, plus the product of the point's blocks of windows 0 and 1. -/
def accAt1 (c : Dev nD) : (n : ℕ) → n < cfg1.N → Vec F S1280x512 .f32
  | 0, hn => k1_pay2 (k1_pay1 (F := F)) (iblk1 V c 0 ⟨0, hn⟩) (iblk1 V c 1 ⟨0, hn⟩)
  | n + 1, hn =>
    if (n + 1) % 4 = 0 then k1_pay2 (k1_pay1 (F := F)) (iblk1 V c 0 ⟨n + 1, hn⟩) (iblk1 V c 1 ⟨n + 1, hn⟩)
    else k1_pay2 (accAt1 c n (Nat.lt_of_succ_lt hn)) (iblk1 V c 0 ⟨n + 1, hn⟩) (iblk1 V c 1 ⟨n + 1, hn⟩)

/-- At a point `≡ 0 (mod 4)` the sum restarts: zero plus the point's product. -/
theorem accAt1_reset (c : Dev nD) (t : Fin cfg1.N) (h : t.val % 4 = 0) :
    accAt1 V c t.val t.isLt = k1_pay2 (k1_pay1 (F := F)) (iblk1 V c 0 t) (iblk1 V c 1 t) := by
  obtain ⟨n, hn⟩ := t
  cases n with
  | zero => rfl
  | succ n => exact if_pos h

/-- At any other point it continues: the sum the point before left plus the point's product. -/
theorem accAt1_step (c : Dev nD) (t : Fin cfg1.N) (h : ¬ t.val % 4 = 0) :
    accAt1 V c t.val t.isLt = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact if_neg h

/-! ## The invariant -/

/-- The scratch operand as a memref: the whole scoped buffer the kernel keeps its sum in. -/
abbrev scM1 : Memref sig .tc .vmem S1280x512 .f32 := Memref.whole cc1_scratch0

/-- The core's scoped buffers that are neither a staging buffer of this pipeline nor the scratch, each at some
    contents: carried through the region unopened. -/
abbrev Rest1 (c : Dev nD) : sProp 𝕄 :=
  Pipeline.scopedRestBut (Ix := Unit) (Name := ℕ) (U := UR sig nD τ) (Lvl := ℕ) (Val := Elt F) spec1 c [cc1_scratch0]

/-- What the launch hands the region, with the scratch set apart from the other scoped buffers. -/
theorem PhiA1_eq (c : Dev nD) :
    (Pipeline.ΦA spec1 c : sProp 𝕄)
      = iprop(iprop((∃ d, owns (c : Thread nD τ) scM1 fullShare d) ∗ Rest1 (F := F) c) ∗ (∃ r, prngReg c r)) := by
  unfold Pipeline.ΦA
  rw [Pipeline.scopedRest_split_of_list spec1 c [cc1_scratch0] (by decide) (by decide)]
  simp only [bigSepL_singleton, scM1, owns_whole]
  try rfl

/-- The region invariant before position `n`: before the first point what the launch hands the region; afterwards
    the scratch at the sum the point before left, the other scoped buffers at anything, the generator register at
    some state. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (accAt1 V c n hn) ∗ Rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare (accAt1 V c (n - 1) (by omega)) ∗ Rest1 (F := F) c) ∗ (∃ r, prngReg c r)) := by
  cases n with
  | zero => exact absurd rfl hz
  | succ n => rfl

/-! ## The proof data -/

/-- The proof data of pipeline 1 on core `c`: the arrays as the region finds them; after the body each input's
    buffer at its block, the output's at the scaled sum plus bias (which the pipeline reads only at the points that
    write the block back, `≡ 3 (mod 4)`: elsewhere the buffer is handed back as found and this value is not
    consulted); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (iblk1 V c 3 t) (accAt1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

/-- The output's buffer after the body, at the points that write it back: the new sum scaled row by row, plus the bias. -/
theorem after1_4 (c : Dev nD) (t : Fin cfg1.N) (h : t.val % 4 = 3) :
    (dat1 V c).after 4 t = k1_pay3 (iblk1 V c 3 t) (accAt1 V c t.val t.isLt) (iblk1 V c 2 t) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the sum's value is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS, HR⟩, Hg⟩
  isplitl [HS HR]
  · isplitl [HS]
    · iexists _; iexact HS
    iexact HR
  iexact Hg

/-! ## The inputs' buffers hold their blocks -/

/-- Each input window's current staging buffer holds the window's block at every point, fetched there or not: an
    unfetched window's block index has not moved since the point before, whose body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body's two conditions, over the grid -/

/-- The first conditional's condition (is the inner coordinate 0?), from the grid coordinates. -/
abbrev cond1_0 (i : grid1.Coords) : Prop := (Scalar.cmpi .ne (Scalar.extui (Scalar.cmpi .eq (BitVec.ofNat 32 (i 1).val) 0#32)) 0#32) = 1#1
/-- It holds at the points `≡ 0 (mod 4)`. -/
theorem hcond1_0 : ∀ t : Fin cfg1.N, cond1_0 (grid1.coords t) ↔ t.val % 4 = 0 :=
  (by decide +kernel : ∀ t : Fin grid1.N, cond1_0 (grid1.coords t) ↔ t.val % 4 = 0)
/-- The second conditional's condition (is the inner coordinate 3?). -/
abbrev cond1_1 (i : grid1.Coords) : Prop := k1_cond2 i = 1#1
/-- It holds at the points `≡ 3 (mod 4)`. -/
theorem hcond1_1 : ∀ t : Fin cfg1.N, cond1_1 (grid1.coords t) ↔ t.val % 4 = 3 :=
  (by decide +kernel : ∀ t : Fin grid1.N, cond1_1 (grid1.coords t) ↔ t.val % 4 = 3)

/-- Off the points `≡ 3 (mod 4)` the output window is idle (the body stores nothing into it) -/
theorem idleAt1_4 : ∀ t : Fin cfg1.N, ¬ t.val % 4 = 3 → cfg1.idle 4 (grid1.coords t) = true :=
  (by decide +kernel : ∀ t : Fin grid1.N, ¬ t.val % 4 = 3 → idle1 4 (grid1.coords t) = true)
/-- and is not written back; -/
theorem noFlush1_4 : ∀ t : Fin cfg1.N, ¬ t.val % 4 = 3 → (cfg1.win 4).flush t = false :=
  (by decide +kernel : ∀ t : Fin grid1.N, ¬ t.val % 4 = 3 → win1_4.flush t = false)
/-- at those points it is live. -/
theorem liveAt1_4 : ∀ t : Fin cfg1.N, t.val % 4 = 3 → cfg1.idle 4 (grid1.coords t) = false :=
  (by decide +kernel : ∀ t : Fin grid1.N, t.val % 4 = 3 → idle1 4 (grid1.coords t) = false)

/-! ## Whole-buffer accesses of a rank-2 buffer

The kernel loads and stores each of its buffers whole: through the rectangle at offsets (0, 0) of the buffer's own
extents.  Such a load reads the contents; such a store, made last, leaves its payload whatever was stored before;
and such a load after such a store reads that store's payload. -/

/-- The zero offsets of a rank-2 rectangle. -/
theorem off00 : (![0, 0] : Fin 2 → ℕ) = fun _ => 0 := by
  funext a; fin_cases a <;> rfl

section WholeRect

variable {κ : Kind} {sp : Space} {a b : ℕ} {e : EltTy}

/-- A load through the whole rectangle reads the contents. -/
theorem readAt_whole2 (v : View sig κ sp ⟨2, ![a, b]⟩ e) (f : v.ty.Contents (Elt F))
    (inb : ∀ k, (![0, 0] : Fin 2 → ℕ) k + (⟨2, ![a, b]⟩ : Shape).size k ≤ (⟨2, ![a, b]⟩ : Shape).size k) :
    v.readAt (Elt F) (Rect.unit (s := ⟨2, ![a, b]⟩) ![0, 0] (⟨2, ![a, b]⟩ : Shape).size inb).toLoadRect f = v.read (Elt F) f :=
  View.ld_unit_zero off00 inb _

/-- A store through the whole rectangle, made last, leaves its payload. -/
theorem read_writes_whole2 (v : View sig κ sp ⟨2, ![a, b]⟩ e) (f : v.ty.Contents (Elt F))
    (inb : ∀ k, (![0, 0] : Fin 2 → ℕ) k + (⟨2, ![a, b]⟩ : Shape).size k ≤ (⟨2, ![a, b]⟩ : Shape).size k)
    (w : (⟨2, ![a, b]⟩ : Shape).Idx → Elt F e) (L : List (View.Piece (Elt F) ⟨2, ![a, b]⟩ e)) :
    v.read (Elt F) (v.writes (Elt F) f ((⟨Rect.unit (s := ⟨2, ![a, b]⟩) ![0, 0] (⟨2, ![a, b]⟩ : Shape).size inb, w⟩ : View.Piece (Elt F) ⟨2, ![a, b]⟩ e) :: L)) = w := by
  rw [View.read_writes_eq_canon _ _ _ (fun y => ⟨_, List.mem_cons_self .., View.mem_set_unit_zero off00 inb y⟩)]
  exact View.canon_cons_unit_zero off00 inb w L

/-- A load through the whole rectangle after a store through it reads that store's payload. -/
theorem readCov_whole2 (v : View sig κ sp ⟨2, ![a, b]⟩ e)
    (inb : ∀ k, (![0, 0] : Fin 2 → ℕ) k + (⟨2, ![a, b]⟩ : Shape).size k ≤ (⟨2, ![a, b]⟩ : Shape).size k)
    (w : (⟨2, ![a, b]⟩ : Shape).Idx → Elt F e) (L : List (View.Piece (Elt F) ⟨2, ![a, b]⟩ e)) :
    v.readCov ((⟨Rect.unit (s := ⟨2, ![a, b]⟩) ![0, 0] (⟨2, ![a, b]⟩ : Shape).size inb, w⟩ : View.Piece (Elt F) ⟨2, ![a, b]⟩ e) :: L)
      (Rect.unit (s := ⟨2, ![a, b]⟩) ![0, 0] (⟨2, ![a, b]⟩ : Shape).size inb).toLoadRect = w :=
  View.readCov_cons_toLoadRect v (Rect.unit (s := ⟨2, ![a, b]⟩) ![0, 0] (⟨2, ![a, b]⟩ : Shape).size inb) w L

end WholeRect

/-! ## The body's run, case by case -/

/-- CASE B (inner coordinate 1 or 2: neither conditional taken).  On whole memrefs, the two matrix blocks at `x0`,
    `x1` and the scratch at `xs`, the body runs to the continuation holding the blocks as they were and the scratch
    at `xs + x0 · x1`; the other operands are not touched. -/
theorem sound_kernel1_B (c : Dev nD) (E : Set ℕ) (i : grid1.Coords)
    (arg2 : Memref sig .tc .vmem S1280x2560 .bf16) (harg2 : arg2.IsWhole) (arg3 : Memref sig .tc .vmem S2560x512 .bf16) (harg3 : arg3.IsWhole)
    (arg4 : Memref sig .tc .vmem S1280x1 .f32) (harg4 : arg4.IsWhole) (arg5 : Memref sig .tc .vmem S1x512 .f32) (harg5 : arg5.IsWhole)
    (arg6 : Memref sig .tc .vmem S1280x512 .f32) (harg6 : arg6.IsWhole) (arg7 : Memref sig .tc .vmem S1280x512 .f32) (harg7 : arg7.IsWhole)
    (hc0 : ¬cond1_0 i) (hc1 : ¬cond1_1 i)
    (x0 : Vec F S1280x2560 .bf16) (x1 : Vec F S2560x512 .bf16) (xs : Vec F S1280x512 .f32) (K : PUnit → sProp 𝕄) :
    iprop(owns (c : Thread nD τ) arg2 fullShare x0 ∗ owns (c : Thread nD τ) arg3 fullShare x1 ∗ owns (c : Thread nD τ) arg7 fullShare xs
        ∗ (iprop(owns (c : Thread nD τ) arg2 fullShare x0 ∗ owns (c : Thread nD τ) arg3 fullShare x1
            ∗ owns (c : Thread nD τ) arg7 fullShare (k1_pay2 xs x0 x1)) -∗ K ⟨⟩))
      ⊢ wp frame (wpE (defs₀ (F := F)) Variants.none c none) E (cc1__agg_matmul_kernel i arg2 harg2 arg3 harg3 arg4 harg4 arg5 harg5 arg6 harg6 arg7 harg7) K := by
  simp only [cc1__agg_matmul_kernel_eq_skeleton]; unfold cc1__agg_matmul_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  refine (read_writes_whole2 arg7.view fs _ _ _).trans ?_
  refine congr (congr (congrArg k1_pay2 ?_) ?_) ?_
  · exact readAt_whole2 arg7.view fs _
  · exact readAt_whole2 arg2.view f0 _
  · exact readAt_whole2 arg3.view f1 _

/-- CASE A (inner coordinate 0: the first conditional taken, the second not).  The scratch, at anything, is first
    overwritten with zeros; the body then runs as in case B from those zeros: the scratch ends at `0 + x0 · x1`. -/
theorem sound_kernel1_A (c : Dev nD) (E : Set ℕ) (i : grid1.Coords)
    (arg2 : Memref sig .tc .vmem S1280x2560 .bf16) (harg2 : arg2.IsWhole) (arg3 : Memref sig .tc .vmem S2560x512 .bf16) (harg3 : arg3.IsWhole)
    (arg4 : Memref sig .tc .vmem S1280x1 .f32) (harg4 : arg4.IsWhole) (arg5 : Memref sig .tc .vmem S1x512 .f32) (harg5 : arg5.IsWhole)
    (arg6 : Memref sig .tc .vmem S1280x512 .f32) (harg6 : arg6.IsWhole) (arg7 : Memref sig .tc .vmem S1280x512 .f32) (harg7 : arg7.IsWhole)
    (hc0 : cond1_0 i) (hc1 : ¬cond1_1 i)
    (x0 : Vec F S1280x2560 .bf16) (x1 : Vec F S2560x512 .bf16) (K : PUnit → sProp 𝕄) :
    iprop(owns (c : Thread nD τ) arg2 fullShare x0 ∗ owns (c : Thread nD τ) arg3 fullShare x1 ∗ (∃ d, owns (c : Thread nD τ) arg7 fullShare d)
        ∗ (iprop(owns (c : Thread nD τ) arg2 fullShare x0 ∗ owns (c : Thread nD τ) arg3 fullShare x1
            ∗ owns (c : Thread nD τ) arg7 fullShare (k1_pay2 (k1_pay1 (F := F)) x0 x1)) -∗ K ⟨⟩))
      ⊢ wp frame (wpE (defs₀ (F := F)) Variants.none c none) E (cc1__agg_matmul_kernel i arg2 harg2 arg3 harg3 arg4 harg4 arg5 harg5 arg6 harg6 arg7 harg7) K := by
  simp only [cc1__agg_matmul_kernel_eq_skeleton]; unfold cc1__agg_matmul_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  refine (read_writes_whole2 arg7.view fs _ _ _).trans ?_
  refine congr (congr (congrArg k1_pay2 ?_) ?_) ?_
  · exact readCov_whole2 arg7.view _ _ _
  · exact readAt_whole2 arg2.view f0 _
  · exact readAt_whole2 arg3.view f1 _

/-- CASE C (inner coordinate 3: the second conditional taken, the first not).  The scratch goes from `xs` to the
    new sum `s' = xs + x0 · x1` as in case B; then the output's buffer, at anything, is stored whole with
    `s' * x2 + x3` (the scale block `x2` broadcast along the rows' entries, the bias row `x3` down the rows). -/
theorem sound_kernel1_C (c : Dev nD) (E : Set ℕ) (i : grid1.Coords)
    (arg2 : Memref sig .tc .vmem S1280x2560 .bf16) (harg2 : arg2.IsWhole) (arg3 : Memref sig .tc .vmem S2560x512 .bf16) (harg3 : arg3.IsWhole)
    (arg4 : Memref sig .tc .vmem S1280x1 .f32) (harg4 : arg4.IsWhole) (arg5 : Memref sig .tc .vmem S1x512 .f32) (harg5 : arg5.IsWhole)
    (arg6 : Memref sig .tc .vmem S1280x512 .f32) (harg6 : arg6.IsWhole) (arg7 : Memref sig .tc .vmem S1280x512 .f32) (harg7 : arg7.IsWhole)
    (hc0 : ¬cond1_0 i) (hc1 : cond1_1 i)
    (x0 : Vec F S1280x2560 .bf16) (x1 : Vec F S2560x512 .bf16) (x2 : Vec F S1280x1 .f32) (x3 : Vec F S1x512 .f32) (xs : Vec F S1280x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay3 x3 (k1_pay2 xs x0 x1) x2)
            ∗ owns (c : Thread nD τ) arg7 fullShare (k1_pay2 xs x0 x1)) -∗ K ⟨⟩))
      ⊢ wp frame (wpE (defs₀ (F := F)) Variants.none c none) E (cc1__agg_matmul_kernel i arg2 harg2 arg3 harg3 arg4 harg4 arg5 harg5 arg6 harg6 arg7 harg7) K := by
  simp only [cc1__agg_matmul_kernel_eq_skeleton]; unfold cc1__agg_matmul_kernel_skel
  unfold owns
  iintro ⟨⟨%f0, %hf0, H0⟩, ⟨%f1, %hf1, H1⟩, ⟨%f2, %hf2, H2⟩, ⟨%f3, %hf3, H3⟩, ⟨%d6, %f6, -, H6⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    sl_unfold_run_names
    refine (read_writes_whole2 arg6.view f6 _ _ _).trans ?_
    refine congr (congr (congrArg k1_pay3 ?_) ?_) ?_
    · exact readAt_whole2 arg5.view f3 _
    · refine (readCov_whole2 arg7.view _ _ _).trans ?_
      refine congr (congr (congrArg k1_pay2 ?_) ?_) ?_
      · exact readAt_whole2 arg7.view fs _
      · exact readAt_whole2 arg2.view f0 _
      · exact readAt_whole2 arg3.view f1 _
    · exact readAt_whole2 arg4.view f2 _
  iexists _; isplitr
  swap; · iexact HS
  ipureintro
  sl_unfold_run_names
  refine (read_writes_whole2 arg7.view fs _ _ _).trans ?_
  refine congr (congr (congrArg k1_pay2 ?_) ?_) ?_
  · exact readAt_whole2 arg7.view fs _
  · exact readAt_whole2 arg2.view f0 _
  · exact readAt_whole2 arg3.view f1 _

/-! ## The body obligation, at a generic point -/

/-- No input window is ever idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

/-- What the body is called with at point `t`: the invariant, what the core owes, each window's current staging
    buffer at what it then holds; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- The body at any point.  The inputs' buffers hold their blocks; `t % 4` says which case the point is in.  The
    invariant hands the body the scratch at the sum the point before left (at anything before the first point, which
    restarts the sum) and takes it back at this point's sum, by the recursion's two equations; where the output is
    not stored (`t % 4 ≠ 3`) its buffer goes back as it came; the other scoped buffers, the generator register and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
        unfold Dat.leavesExact; rw [liveAt1_0 t], after1_0,
      show (dat1 V c).leavesExact 1 t = owns (c : Thread nD τ) (st1_1 t) fullShare ((dat1 V c).after 1 t) from by
        unfold Dat.leavesExact; rw [liveAt1_1 t], after1_1,
      show (dat1 V c).leavesExact 2 t = owns (c : Thread nD τ) (st1_2 t) fullShare ((dat1 V c).after 2 t) from by
        unfold Dat.leavesExact; rw [liveAt1_2 t], after1_2,
      show (dat1 V c).leavesExact 3 t = owns (c : Thread nD τ) (st1_3 t) fullShare ((dat1 V c).after 3 t) from by
        unfold Dat.leavesExact; rw [liveAt1_3 t], after1_3]
  have hN : t.val < 32 := lt_of_lt_of_eq t.isLt (show cfg1.N = 32 from N_1)
  by_cases h3 : t.val % 4 = 3
  · have h0 : ¬ t.val % 4 = 0 := by omega
    have hz : t.val ≠ 0 := by omega
    rw [show (dat1 V c).leavesExact 4 t = owns (c : Thread nD τ) (st1_4 t) fullShare ((dat1 V c).after 4 t) from by
        unfold Dat.leavesExact; rw [liveAt1_4 t h3], after1_4 V c t h3, accAt1_step V c t h0]
    rw [PhiS1_castSucc V c t, PhiS1_pos V c _ _ hz]
    iintro ⟨⟨⟨HS, HR⟩, Hg⟩, Ho, ⟨%d0, H0⟩, ⟨%d1, H1⟩, ⟨%d2, H2⟩, ⟨%d3, H3⟩, ⟨%d4, H4⟩⟩
    iapply (sound_kernel1_C c Set.univ (grid1.coords t) _ _ _ _ _ _ _ _ _ _ _ _ (fun h => h0 ((hcond1_0 t).mp h)) ((hcond1_1 t).mpr h3)
      (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt1_4 t h3) (noFlush1_4 t h3)]
    by_cases h0 : t.val % 4 = 0
    · rw [accAt1_reset V c t h0]
      by_cases hz : t.val = 0
      · rw [PhiS1_castSucc V c t, PhiS1_zero V c _ _ hz, PhiA1_eq]
        iintro ⟨⟨⟨HS, HR⟩, Hg⟩, Ho, ⟨%d0, H0⟩, ⟨%d1, H1⟩, ⟨%d2, H2⟩, ⟨%d3, H3⟩, ⟨%d4, H4⟩⟩
        iapply (sound_kernel1_A c Set.univ (grid1.coords t) _ _ _ _ _ _ _ _ _ _ _ _ ((hcond1_0 t).mpr h0) (fun h => h3 ((hcond1_1 t).mp h))
          (iblk1 V c 0 t) (iblk1 V c 1 t) _)
        isplitl [H0]; · iexact H0
        isplitl [H1]; · iexact H1
        isplitl [HS]; · iexact HS
        iintro ⟨H0, H1, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS, HR⟩, Hg⟩, Ho, ⟨%d0, H0⟩, ⟨%d1, H1⟩, ⟨%d2, H2⟩, ⟨%d3, H3⟩, ⟨%d4, H4⟩⟩
        iapply (sound_kernel1_A c Set.univ (grid1.coords t) _ _ _ _ _ _ _ _ _ _ _ _ ((hcond1_0 t).mpr h0) (fun h => h3 ((hcond1_1 t).mp h))
          (iblk1 V c 0 t) (iblk1 V c 1 t) _)
        isplitl [H0]; · iexact H0
        isplitl [H1]; · iexact H1
        isplitl [HS]; · iexists _; iexact HS
        iintro ⟨H0, H1, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := fun e => h0 (by rw [e])
      rw [accAt1_step V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ (fun h => h0 ((hcond1_0 t).mp h)) (fun h => h3 ((hcond1_1 t).mp h))
        (iblk1 V c 0 t) (iblk1 V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.K.Run.lean ====
/- THE RUN of @main, unconditional. The contents the two kernel regions leave are CHOSEN here: region 0 leaves its
   arrays at what pipeline 0's write-backs fold to from the region's entry contents `V3`, region 1 the same from its
   entry contents `V9` (which read region 0's output through the host stretches between). At that choice each region is
   a segment record entered from "every unscoped buffer at the valuation before it, the generator register at some
   state, nothing owed" and left at the same over the valuation after it; the conditional run then gives: every weakly
   fair execution of @main terminates with every unscoped buffer at the last valuation `V11`. The frame claim (the
   four arguments end as launched) and the result buffer's contents are read off that. -/
import proofs.«418382_j13529146982751_3_alg».proof.Proof.K.RunCond
import proofs.«418382_j13529146982751_3_alg».proof.Proof.K.Region0
import proofs.«418382_j13529146982751_3_alg».proof.Proof.K.Region1
import Idealize.ShloMosaic.Lib.Pipeline.Kit
import Idealize.ShloMosaic.Lib.Pipeline.Regions
import Idealize.ShloMosaic.Lib.Pipeline.RegionsLoop
import Idealize.ShloMosaic.Lib.Pipeline.FrameSuffix

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions leave -/

/-- Region 0's entry contents, read at the TensorCore's references: what pipeline 0's proof data take. -/
abbrev V3' : (c : Dev nD) → (b : Ref sig .tc) → Buf (Elt F) ((c : Thread nD τ).loc b) := fun c b => V3 m c b

/-- Core `c`'s buffers at region 0's exit: the pipeline's arrays at what its write-backs fold to over the whole
    grid (an input's array as entered, the output's with every block written), every other buffer as entered. -/
def X4 (c : Dev nD) : Valuation τ sig (Elt F) :=
  Pipeline.withArrays spec0 c (V3 m c) fun w => (dat0 (V3' m) c).arrAt w cfg0.N

/-- Region 0's exit contents as a family of region outputs, the same at every item index: all that the valuations
    up to region 1's entry read of the unknowns. -/
def outs0 : Outs (F := F) := fun _ r c => X4 m c r

/-- Region 1's entry contents over region 0's exit contents alone. -/
abbrev V9e : (c : Dev nD) → (b : Ref sig .tc) → Buf (Elt F) ((c : Thread nD τ).loc b) := fun c b => V9 m (outs0 m) c b

/-- Core `c`'s buffers at region 1's exit: pipeline 1's arrays at what its write-backs fold to, the rest as entered. -/
def X10 (c : Dev nD) : Valuation τ sig (Elt F) :=
  Pipeline.withArrays spec1 c (V9 m (outs0 m) c) fun w => (dat1 (V9e m) c).arrAt w cfg1.N

/-- THE CHOICE of the unknowns: after item 3 (region 0) a buffer holds region 0's exit contents, after any later
    item region 1's. -/
def outsK : Outs (F := F) := fun J r c => if J = 4 then X4 m c r else X10 m c r

/-- Region 1's entry contents at the choice, read at the TensorCore's references: what pipeline 1's proof data take. -/
abbrev V9' : (c : Dev nD) → (b : Ref sig .tc) → Buf (Elt F) ((c : Thread nD τ).loc b) := fun c b => V9 m (outsK m) c b

/-! ## The choice read back -/

/-- After item 3 the choice is region 0's exit contents, -/
theorem outsK_four (r : Ref sig .tc) (c : Dev nD) : outsK m 4 r c = X4 m c r := if_pos rfl
/-- after item 9 region 1's. -/
theorem outsK_ten (r : Ref sig .tc) (c : Dev nD) : outsK m 10 r c = X10 m c r := if_neg (by decide)

/-- Region 0's exit contents at one of its arrays: what the pipeline's write-backs fold to. -/
theorem X4_arr (c : Dev nD) (w : Fin cfg0.W) :
    X4 m c (Proc.devRef .tc (Pipeline.arrRef spec0 w)) = (dat0 (V3' m) c).arrAt w cfg0.N := by
  unfold X4; exact Pipeline.withArrays_arr spec0 launch0.win.arr_inj c _ _ w

/-- The valuations from region 0's exit to region 1's entry read the unknowns only after item 3, where the choice
    IS region 0's exit contents: the update at region 0's output array takes the same value, and the five host
    stretches that follow are applied to equal valuations. -/
theorem V4_outsK (c : Dev nD) : V4 m (outsK m) c = V4 m (outs0 m) c := by
  show Function.update (V3 m c) _ (outsK m 4 main_v33 c) = Function.update (V3 m c) _ (outs0 m 4 main_v33 c)
  rw [outsK_four]; rfl
theorem V9_outsK (c : Dev nD) : V9 m (outsK m) c = V9 m (outs0 m) c :=
  congrArg (fun W => StableHlo.after hostOps1_4 (StableHlo.after hostOps1_3 (StableHlo.after hostOps1_2
    (StableHlo.after hostOps1_1 (StableHlo.after hostOps1 W))))) (V4_outsK m c)
/-- So region 1's entry contents at the choice are those over region 0's exit alone. -/
theorem V9'_eq : V9' m = V9e m := funext fun c => funext fun b => congrFun (V9_outsK m c) (Proc.devRef .tc b)

/-- Region 1's exit contents at one of its arrays. -/
theorem X10_arr (c : Dev nD) (w : Fin cfg1.W) :
    X10 m c (Proc.devRef .tc (Pipeline.arrRef spec1 w)) = (dat1 (V9' m) c).arrAt w cfg1.N := by
  rw [V9'_eq]; unfold X10; exact Pipeline.withArrays_arr spec1 launch1.win.arr_inj c _ _ w

/-- What the choice puts in region 0's output array `main_v33` (window 3 of pipeline 0) after item 3: the fold of
    the pipeline's write-backs over the whole grid. -/
theorem outs4_eq (c : Dev nD) : outsK m 4 main_v33 c = (dat0 (V3' m) c).arrAt 3 cfg0.N :=
  (outsK_four m main_v33 c).trans (X4_arr m c 3)

/-- What the choice puts in region 1's output array `main_v38` (window 4 of pipeline 1) after item 9. -/
theorem outs10_eq (c : Dev nD) : outsK m 10 main_v38 c = (dat1 (V9' m) c).arrAt 4 cfg1.N :=
  (outsK_ten m main_v38 c).trans (X10_arr m c 4)

/-! ## Each region's exit: its arrays at the next valuation, every other buffer unchanged -/

/-- The valuation after region 0 at the choice, read at the TensorCore's references. -/
abbrev V4' : (c : Dev nD) → (b : Ref sig .tc) → Buf (Elt F) ((c : Thread nD τ).loc b) := fun c b => V4 m (outsK m) c b
/-- The valuation after region 1 at the choice, read at the TensorCore's references. -/
abbrev V10' : (c : Dev nD) → (b : Ref sig .tc) → Buf (Elt F) ((c : Thread nD τ).loc b) := fun c b => V10 m (outsK m) c b

/-- The valuation after region 0 at its output array is the value the update put there: the choice. -/
theorem V4'_out (c : Dev nD) : V4' m c main_v33 = outsK m 4 main_v33 c := by
  simp only [V4, Function.update_self]
/-- The valuation after region 1 at its output array is the choice. -/
theorem V10'_out (c : Dev nD) : V10' m c main_v38 = outsK m 10 main_v38 c := by
  simp only [V10, Function.update_self]

/-- An input window's array of pipeline 0 is never written back, so it ends at its entry contents `V3`, which the
    update at `main_v33` does not touch. -/
theorem hF0_in (c : Dev nD) (w : Fin cfg0.W) (hin : (cfg0.win w).isOut = false)
    (hne : Pipeline.arrRef spec0 w ∉ ([main_v33] : List (Ref sig .tc))) :
    (dat0 (V3' m) c).arrAt w cfg0.N = V4' m c (Pipeline.arrRef spec0 w) :=
  (((dat0 (V3' m) c).arrAt_in w hin _).trans (A_eq0 (V3' m) c w)).trans (V4_of m (outsK m) c _ hne).symm

/-- Every array of pipeline 0 ends at the valuation after region 0: the three inputs as entered, the output
    `main_v33` at the updated value, which is the choice. -/
theorem hF0 (c : Dev nD) : ∀ w : Fin 4, (dat0 (V3' m) c).arrAt w cfg0.N = V4' m c (Pipeline.arrRef spec0 w)
  | 0 => hF0_in m c 0 rfl (by decide)
  | 1 => hF0_in m c 1 rfl (by decide)
  | 2 => hF0_in m c 2 rfl (by decide)
  | 3 => (outs4_eq m c).symm.trans (V4'_out m c).symm
  | ⟨_ + 4, h⟩ => absurd h (Nat.not_lt.2 (Nat.le_add_left _ _))

/-- Off pipeline 0's arrays the valuation after region 0 is the one before it: the one updated buffer is an array. -/
theorem hrest0 (c : Dev nD) : ∀ b, b ∉ Finset.univ.image (Pipeline.arrRef spec0) → V4' m c b = V3' m c b :=
  fun b hb => V4_of m (outsK m) c b fun h =>
    hb (Finset.mem_image.mpr ⟨3, Finset.mem_univ _, (List.mem_singleton.mp h).symm⟩)

/-- An input window's array of pipeline 1 ends at its entry contents `V9`, which the update at `main_v38` does not touch. -/
theorem hF1_in (c : Dev nD) (w : Fin cfg1.W) (hin : (cfg1.win w).isOut = false)
    (hne : Pipeline.arrRef spec1 w ∉ ([main_v38] : List (Ref sig .tc))) :
    (dat1 (V9' m) c).arrAt w cfg1.N = V10' m c (Pipeline.arrRef spec1 w) :=
  (((dat1 (V9' m) c).arrAt_in w hin _).trans (A_eq1 (V9' m) c w)).trans (V10_of m (outsK m) c _ hne).symm

/-- Every array of pipeline 1 ends at the valuation after region 1. -/
theorem hF1 (c : Dev nD) : ∀ w : Fin 5, (dat1 (V9' m) c).arrAt w cfg1.N = V10' m c (Pipeline.arrRef spec1 w)
  | 0 => hF1_in m c 0 rfl (by decide)
  | 1 => hF1_in m c 1 rfl (by decide)
  | 2 => hF1_in m c 2 rfl (by decide)
  | 3 => hF1_in m c 3 rfl (by decide)
  | 4 => (outs10_eq m c).symm.trans (V10'_out m c).symm
  | ⟨_ + 5, h⟩ => absurd h (Nat.not_lt.2 (Nat.le_add_left _ _))

/-- Off pipeline 1's arrays the valuation after region 1 is the one before it. -/
theorem hrest1 (c : Dev nD) : ∀ b, b ∉ Finset.univ.image (Pipeline.arrRef spec1) → V10' m c b = V9' m c b :=
  fun b hb => V10_of m (outsK m) c b fun h =>
    hb (Finset.mem_image.mpr ⟨4, Finset.mem_univ _, (List.mem_singleton.mp h).symm⟩)

/-! ## The proof data family and the thread state -/

/-- Every pipeline's proof data, each at its region's entry contents at the choice: a literal match on the
    pipeline, so that the family at a numeral reduces to that pipeline's data. -/
def pdats : (p : Fin 2) → (c : Dev nD) → Dat τ (Elt F) Unit ℕ (UR sig nD τ) ℕ (cfgs p) c
  | ⟨0, _⟩ => fun c => dat0 (V3' m) c
  | ⟨1, _⟩ => fun c => dat1 (V9' m) c

abbrev noVariants : Variants := Variants.none
/-- No core owes another anything: no pair of cells is assigned a level. -/
abbrev noPairs : GSem nD τ sig → Finset Unit := fun _ => ∅
abbrev level0 : GSem nD τ sig → Unit → ℕ := fun _ _ => 0
/-- What rides beside the buffers through every item: the core's generator register at some state (a region's
    invariant takes it in and gives it back) and the core owing nothing. -/
abbrev coreRest (c : Dev nD) : sProp 𝕄 :=
  iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- the library's lemmas are stated over the pinned configuration of a pipeline, which unifies with the printed one only
-- when unification may unfold plain definitions in a metavariable's type
set_option backward.isDefEq.respectTransparency.types false in
/-- REGION 0 over the thread state: entered from every unscoped buffer at `V3 m`, left at `V4 m (outsK m)` at the choice. Its
    arrays are split out of the unscoped buffers at entry and put back at the exit contents (the two exit facts
    above); the generator register goes into the pipeline's invariant and comes back; nothing is owed; the kernel has
    no semaphore of its own. -/
def reg0 : Pipeline.RegionSeg (pcfgs (F := F)) adm (pdats m) () defs₀ noVariants noPairs level0 0 where
  win := launch0.win.to₀
  block_pos := launch0.block_pos
  stage_whole := launch0.stage_whole
  K := PEmpty
  osem k := k.elim
  ho := Pipeline.OwnSemFacts.none _
  hbody c := (body_obligation0 (V3' m) c).loose
  hwaits := Pipeline.hwaits_of_owed_zero _ _ _ _ noPairs level0 0 fun _ _ => rfl
  pre c := iprop(StableHlo.held (c : Thread nD τ) (Pipeline.ucRefs τ sig) (V3 m c) ∗ coreRest c)
  post c := iprop(StableHlo.held (c : Thread nD τ) (Pipeline.ucRefs τ sig) (V4 m (outsK m) c) ∗ coreRest c)
  X c := iprop(∃ r, prngReg c r)
  Y c := iprop(∃ r, prngReg c r)
  Z c := Pipeline.unscopedRest (Ix := Unit) (Name := ℕ) (U := UR sig nD τ) (Lvl := ℕ) spec0 c (V3' m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3' m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3' m c) (V4' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration of a pipeline, which unifies with the printed one only
-- when unification may unfold plain definitions in a metavariable's type
set_option backward.isDefEq.respectTransparency.types false in
/-- REGION 1 over the thread state: entered from every unscoped buffer at `V9 m (outsK m)`, left at `V10 m (outsK m)` at the choice. Its
    arrays are split out of the unscoped buffers at entry and put back at the exit contents (the two exit facts
    above); the generator register goes into the pipeline's invariant and comes back; nothing is owed; the kernel has
    no semaphore of its own. -/
def reg1 : Pipeline.RegionSeg (pcfgs (F := F)) adm (pdats m) () defs₀ noVariants noPairs level0 1 where
  win := launch1.win.to₀
  block_pos := launch1.block_pos
  stage_whole := launch1.stage_whole
  K := PEmpty
  osem k := k.elim
  ho := Pipeline.OwnSemFacts.none _
  hbody c := (body_obligation1 (V9' m) c).loose
  hwaits := Pipeline.hwaits_of_owed_zero _ _ _ _ noPairs level0 1 fun _ _ => rfl
  pre c := iprop(StableHlo.held (c : Thread nD τ) (Pipeline.ucRefs τ sig) (V9 m (outsK m) c) ∗ coreRest c)
  post c := iprop(StableHlo.held (c : Thread nD τ) (Pipeline.ucRefs τ sig) (V10 m (outsK m) c) ∗ coreRest c)
  X c := iprop(∃ r, prngReg c r)
  Y c := iprop(∃ r, prngReg c r)
  Z c := Pipeline.unscopedRest (Ix := Unit) (Name := ℕ) (U := UR sig nD τ) (Lvl := ℕ) spec1 c (V9' m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V9' m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the scoped rest and the generator register make the class invariant, which gives the tracking invariant's first point
    rw [show (pdats m 1 c).Φ 0 = (dat1 (V9' m) c).Φ 0 from rfl]
    iintro ⟨Hp, -, Hr⟩
    iapply (hin1 (V9' m) c)
    unfold Pipeline.ΦA
    isplitl [Hr]; · iexact Hr
    iexact Hp
  hout c := by
    -- the tracking invariant's last point gives the class invariant back, which opens into the register and the scoped rest
    rw [Pipeline.ownSems0_none, show (pdats m 1 c).Φ (Fin.last _) = (dat1 (V9' m) c).Φ (Fin.last cfg1.N) from rfl]
    iintro H
    ihave H' := (hout1 (V9' m) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V9' m c) (V10' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the conditional run's implicit arguments are found by unifying its hypotheses with the records above, which takes
-- unfolding plain definitions in a metavariable's type
set_option backward.isDefEq.respectTransparency.types false in
/-- THE RUN: from any memory `m` with zero counters every weakly fair execution of @main terminates, and every unscoped
    TensorCore buffer of the final memory holds the last valuation at the choice. The conditional run at: the
    pipeline library's own cell algebra, no levels, nothing owed at launch, no ghost resource beside the cells; the
    rest state "generator register at some state, nothing owed" between all items; the two records above, whose
    entry and exit states ARE the conditional run's. The launch deals each core its register at the launched state and
    its debt at nothing, which is the first rest state; the last rest state forgets the register. -/
theorem run_all : θ_run defs (onTc (τ := τ) (main (F := F))) ⟨m, fun _ => 0, ρ⟩ (fun r => ∀ c : Dev nD, ∀ b ∈ Pipeline.ucRefs τ sig,
      r.2.mem ((c : Thread nD τ).1, b) = V11 m (outsK m) c b) :=
  run_cond m emb₁ () noVariants noPairs level0 (fun _ _ => rfl) ρ (outsK m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => coreRest)
    (hE0 := by
      refine Pipeline.initEach noPairs level0 fun c => ?_
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)

/-! ## The readings -/

/-- THE FRAME: every argument array ends as launched. Each argument is an unscoped buffer, so the run gives it at the
    last valuation, and no item writes an argument: the last valuation at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (V11_main_arg0 m (outsK m) c),
      (h c _ (mem_uc main_arg1 (by decide))).trans (V11_main_arg1 m (outsK m) c),
      (h c _ (mem_uc main_arg2 (by decide))).trans (V11_main_arg2 m (outsK m) c),
      (h c _ (mem_uc main_arg3 (by decide))).trans (V11_main_arg3 m (outsK m) c)⟩) (run_all m ρ)

/-- THE RESULT: the result buffer `main_v39` ends at the last valuation at the choice, beside the arguments as launched. -/
theorem run_result : θ_run defs (onTc (τ := τ) (main (F := F))) ⟨m, fun _ => 0, ρ⟩ (fun r => ∀ c : Dev nD,
      r.2.mem ((c.tc : Thread nD τ).loc main_v39) = V11 m (outsK m) c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v39 (by decide)),
      (h c _ (mem_uc main_arg0 (by decide))).trans (V11_main_arg0 m (outsK m) c),
      (h c _ (mem_uc main_arg1 (by decide))).trans (V11_main_arg1 m (outsK m) c),
      (h c _ (mem_uc main_arg2 (by decide))).trans (V11_main_arg2 m (outsK m) c),
      (h c _ (mem_uc main_arg3 (by decide))).trans (V11_main_arg3 m (outsK m) c)⟩) (run_all m ρ)

end Cert.Kernel.Gen

end
-- ==== Proof.KI.RunCond.lean ====
/- THE CONDITIONAL RUN of @main. From one segment record per kernel region, entered from "every unscoped buffer at the
   valuation before the region, beside a rest" and left at "every unscoped buffer at the valuation after it, beside
   the next rest", every weakly fair execution of @main terminates and EVERY unscoped TensorCore buffer of the final
   memory holds the last valuation `V11`: the arguments and the result buffer alike. The host stretches, the chaining
   of the thread states and the launch's first thread state are as in the conditional frame; what differs is the
   final reading, which keeps the whole pointwise equation between the final memory and `V11` instead of
   projecting it to the four arguments. -/
import proofs.«418382_j13529146982751_3_alg».proof.Proof.Gen.KernelIdeal.Regions

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
/-- THE CONDITIONAL RUN. For any user algebra, level assignment, launch dues and ghost resources, any rest states `E`
    the launch makes on every core at once (`hE0`) and that end owing nothing (`hE2`), any contents the regions leave
    (`outs`) and any proof data: GIVEN, per region K, a segment record entered from the thread state before it and left
    at the one after it (`RK`, `hpreK`, `hpostK`), every weakly fair execution of @main from memory `m` with zero
    counters terminates, and in every final memory each unscoped TensorCore buffer `b` of each core `c` holds
    `V11 m outs c b`: the eleven items' valuations composed, host stretches by `StableHlo.after` and regions by the
    update at their output array. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c)) :
    θ_run defs (onTc (τ := τ) (main (F := F))) ⟨m, fun _ => 0, ρ⟩ (fun r => ∀ c : Dev nD, ∀ b ∈ Pipeline.ucRefs τ sig,
      r.2.mem ((c : Thread nD τ).1, b) = V11 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m outs c))
    (hch := fun c => ⟨.rfl, .rfl, .rfl, hpre0 c, hpost0 c, .rfl, .rfl, .rfl, .rfl, hpre1 c, hpost1 c, sep_mono .rfl (hE2 c)⟩)
    (hinit := ?_) (QY := fun c s => ∀ b ∈ Pipeline.ucRefs τ sig, s.mem ((c : Thread nD τ).1, b) = V11 m outs c b)
    (hfin := fun c s' => ?_) (hQ := fun _ h => h)
  · -- the launch: the unscoped buffers are held at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the last thread state holds every unscoped buffer at `V11`, and a held buffer agrees with the memory
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact h
    · iexact HSI

end Cert.KernelIdeal.Gen

end
-- ==== Proof.KI.Region0.lean ====
/- Pipeline 0 of the program, at the TensorCore's buffer contents `V` when the region is entered: each window's
   block at a grid point, the block the body leaves in the output window's buffer, the body's triple, the proof data
   of the pipeline and its body obligation at every point. Generic in the float instance. -/
import proofs.«418382_j13529146982751_3_alg».proof.Proof.Gen.KernelIdeal.Launch
import proofs.«418382_j13529146982751_3_alg».proof.Proof.Gen.KernelIdeal.Skeleton
import proofs.«418382_j13529146982751_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- a rectangle of 1000 rows: membership in it recurses once per coordinate of the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`: the rectangle of the window's array that the point's block index selects,
    read off the array's contents at region entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each staging buffer whole, as the unit-stride rectangle at offset zero -/

abbrev rA0 : Rect S1000x512 := Rect.unit (s := S1000x512) ![0, 0] S1000x512.size inb_S1000x512_S1000x512_0_0
abbrev rB0 : Rect S512x512 := Rect.unit (s := S512x512) ![0, 0] S512x512.size inb_S512x512_S512x512_0_0
abbrev rS0 : Rect S1000x1 := Rect.unit (s := S1000x1) ![0, 0] S1000x1.size inb_S1000x1_S1000x1_0_0

/-- The offset vector of those rectangles is zero on both axes. -/
theorem zero_off2 : (![0, 0] : Fin 2 → Nat) = fun _ => 0 := funext fun a => by fin_cases a <;> rfl

/-! ## What the body leaves in the output window's buffer -/

/-- The output window's staging buffer after the body, from the three input blocks: the body's one store as a
    one-piece list, its rectangle the whole buffer, its payload the scaled product of what the three loads read. -/
def out0_3 (x0 : Vec F S1000x512 .f32) (x1 : Vec F S512x512 .f32) (x2 : Vec F S1000x1 .f32) : Vec F S1000x512 .bf16 :=
  View.canon [⟨rA0, k0_pay1 (View.ld x0 rA0) (View.ld x1 rB0) (View.ld x2 rS0)⟩]

/-- One piece at offset zero covering the block leaves its payload; each of the three loads through the whole-buffer
    rectangle at offset zero reads the buffer itself. So the output block is the payload at the three input blocks. -/
theorem out0_3_eq (x0 : Vec F S1000x512 .f32) (x1 : Vec F S512x512 .f32) (x2 : Vec F S1000x1 .f32) :
    out0_3 x0 x1 x2 = k0_pay1 x0 x1 x2 := by
  unfold out0_3
  rw [View.canon_unit_zero (S := S1000x512) zero_off2 inb_S1000x512_S1000x512_0_0,
    View.ld_unit_zero (S := S1000x512) zero_off2 inb_S1000x512_S1000x512_0_0,
    View.ld_unit_zero (S := S512x512) zero_off2 inb_S512x512_S512x512_0_0,
    View.ld_unit_zero (S := S1000x1) zero_off2 inb_S1000x1_S1000x1_0_0]

/-- The one store's rectangle is the whole buffer, so it covers every index. -/
theorem cover0_3 (p0 : Vec F S1000x512 .bf16) (y : S1000x512.Idx) :
    ∃ pc ∈ ([⟨rA0, p0⟩] : List (View.Piece (Elt F) S1000x512 .bf16)), y ∈ pc.1.set :=
  ⟨_, List.mem_singleton_self _, View.mem_set_unit_zero (S := S1000x512) zero_off2 inb_S1000x512_S1000x512_0_0 y⟩

/-! ## The pipeline's proof data -/

/-- The proof data of pipeline 0 on core `c`: the arrays at their region-entry contents; after the body at point
    `t` each input window's buffer still at its block and the output window's at `out0_3` of the three input blocks;
    the invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## What the body finds in each input window's buffer -/

/-- An input window's current staging buffer holds the window's block at every point, whether the block was fetched
    there or not: a point that does not fetch the window has the block index of the point before, and the body
    leaves an input buffer as it found it. The window is uncut and never idle. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body's triple -/

set_option maxHeartbeats 1000000 in
/-- The kernel body on whole staging memrefs — the three inputs' at contents `x0`, `x1`, `x2`, the output's at
    anything — runs to the continuation with the inputs' as they were and the output's at `out0_3 x0 x1 x2`. The body
    is its skeleton: three whole-buffer loads, a fourth load (of the output buffer) whose value nothing reads, and
    one store of the payload over the whole output buffer; what a buffer reads after a covering list of writes is
    the list's canonical contents. -/
theorem sound_kernel0 (c : Dev nD) (E : Set ℕ) (i : grid0.Coords)
    (arg1 : Memref sig .tc .vmem S1000x512 .f32) (harg1 : arg1.IsWhole)
    (arg2 : Memref sig .tc .vmem S512x512 .f32) (harg2 : arg2.IsWhole)
    (arg3 : Memref sig .tc .vmem S1000x1 .f32) (harg3 : arg3.IsWhole)
    (arg4 : Memref sig .tc .vmem S1000x512 .bf16) (harg4 : arg4.IsWhole)
    (x0 : Vec F S1000x512 .f32) (x1 : Vec F S512x512 .f32) (x2 : Vec F S1000x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E
          (cc0__linear_scaled_kernel i arg1 harg1 arg2 harg2 arg3 harg3 arg4 harg4) K := by
  simp only [cc0__linear_scaled_kernel_eq_skeleton]; unfold cc0__linear_scaled_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is handed at point `t`: the invariant, what the core owes, and each window's current staging
    buffer at what it then holds. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back: the invariant and the debt at the next point, each buffer at what the body leaves. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input buffers hold their blocks (`before0_0`, `before0_1`, `before0_2`), the
    output buffer holds something, so the body's triple applies at the three blocks; the invariant and the debt do
    not depend on the point and pass through unread. -/
theorem sound_body0 (c : Dev nD) (t : Fin cfg0.N) :
    handed0 V c t ⊢ wp frame (wpE (defs₀ (F := F)) Variants.none c none) Set.univ (bodyAt0 t) (fun _ => returned0 V c t) := by
  unfold handed0 returned0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point: its two products over the four windows written out. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.Region1.lean ====
/- Pipeline 1 (the aggregation matmul) of the program: its proof data and its body obligation, at the
   contents `V` the TensorCore's buffers hold when the region is entered.

   The kernel keeps a running sum in a scratch buffer that it carries from one grid point to the next.  With
   `k = t % 4` the inner grid coordinate of point `t`: at `k = 0` it first overwrites the scratch with zeros; at
   every point it then replaces the scratch `s` by `s + A_t · h_t` (`k1_pay2 s A_t h_t`, the blocks of windows 0 and
   1 at the point); at `k = 3` it moreover stores `s' * scale + bias` (`k1_pay3 bias s' scale`, `s'` the new sum)
   over the whole output block, which the pipeline writes back at exactly those points and leaves alone elsewhere.
   So the scratch after point `t` is a recursion on `t` (`accAt1`), restarted at every `t ≡ 0 (mod 4)`, and the
   output block written back at `t ≡ 3 (mod 4)` is a function of that sum and of two input blocks. -/
import proofs.«418382_j13529146982751_3_alg».proof.Proof.Gen.KernelIdeal.Launch
import proofs.«418382_j13529146982751_3_alg».proof.Proof.Gen.KernelIdeal.Skeleton
import proofs.«418382_j13529146982751_3_alg».proof.Proof.Gen.KernelIdeal.Points
import Idealize.ShloMosaic.Lib.Pipeline.FrameBody
import Idealize.ShloMosaic.Lib.Pipeline.Value
import Idealize.ShloMosaic.Lib.Pipeline.Kit
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The running sum -/

/-- The scratch after the body at point `n`: the sum restarted from zero at the points `≡ 0 (mod 4)`, else the
    sum the point before left, plus the product of the point's blocks of windows 0 and 1. -/
def accAt1 (c : Dev nD) : (n : ℕ) → n < cfg1.N → Vec F S1280x512 .f32
  | 0, hn => k1_pay2 (k1_pay1 (F := F)) (iblk1 V c 0 ⟨0, hn⟩) (iblk1 V c 1 ⟨0, hn⟩)
  | n + 1, hn =>
    if (n + 1) % 4 = 0 then k1_pay2 (k1_pay1 (F := F)) (iblk1 V c 0 ⟨n + 1, hn⟩) (iblk1 V c 1 ⟨n + 1, hn⟩)
    else k1_pay2 (accAt1 c n (Nat.lt_of_succ_lt hn)) (iblk1 V c 0 ⟨n + 1, hn⟩) (iblk1 V c 1 ⟨n + 1, hn⟩)

/-- At a point `≡ 0 (mod 4)` the sum restarts: zero plus the point's product. -/
theorem accAt1_reset (c : Dev nD) (t : Fin cfg1.N) (h : t.val % 4 = 0) :
    accAt1 V c t.val t.isLt = k1_pay2 (k1_pay1 (F := F)) (iblk1 V c 0 t) (iblk1 V c 1 t) := by
  obtain ⟨n, hn⟩ := t
  cases n with
  | zero => rfl
  | succ n => exact if_pos h

/-- At any other point it continues: the sum the point before left plus the point's product. -/
theorem accAt1_step (c : Dev nD) (t : Fin cfg1.N) (h : ¬ t.val % 4 = 0) :
    accAt1 V c t.val t.isLt = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact if_neg h

/-! ## The invariant -/

/-- The scratch operand as a memref: the whole scoped buffer the kernel keeps its sum in. -/
abbrev scM1 : Memref sig .tc .vmem S1280x512 .f32 := Memref.whole cc1_scratch0

/-- The core's scoped buffers that are neither a staging buffer of this pipeline nor the scratch, each at some
    contents: carried through the region unopened. -/
abbrev Rest1 (c : Dev nD) : sProp 𝕄 :=
  Pipeline.scopedRestBut (Ix := Unit) (Name := ℕ) (U := UR sig nD τ) (Lvl := ℕ) (Val := Elt F) spec1 c [cc1_scratch0]

/-- What the launch hands the region, with the scratch set apart from the other scoped buffers. -/
theorem PhiA1_eq (c : Dev nD) :
    (Pipeline.ΦA spec1 c : sProp 𝕄)
      = iprop(iprop((∃ d, owns (c : Thread nD τ) scM1 fullShare d) ∗ Rest1 (F := F) c) ∗ (∃ r, prngReg c r)) := by
  unfold Pipeline.ΦA
  rw [Pipeline.scopedRest_split_of_list spec1 c [cc1_scratch0] (by decide) (by decide)]
  simp only [bigSepL_singleton, scM1, owns_whole]
  try rfl

/-- The region invariant before position `n`: before the first point what the launch hands the region; afterwards
    the scratch at the sum the point before left, the other scoped buffers at anything, the generator register at
    some state. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (accAt1 V c n hn) ∗ Rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare (accAt1 V c (n - 1) (by omega)) ∗ Rest1 (F := F) c) ∗ (∃ r, prngReg c r)) := by
  cases n with
  | zero => exact absurd rfl hz
  | succ n => rfl

/-! ## The proof data -/

/-- The proof data of pipeline 1 on core `c`: the arrays as the region finds them; after the body each input's
    buffer at its block, the output's at the scaled sum plus bias (which the pipeline reads only at the points that
    write the block back, `≡ 3 (mod 4)`: elsewhere the buffer is handed back as found and this value is not
    consulted); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (iblk1 V c 3 t) (accAt1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

/-- The output's buffer after the body, at the points that write it back: the new sum scaled row by row, plus the bias. -/
theorem after1_4 (c : Dev nD) (t : Fin cfg1.N) (h : t.val % 4 = 3) :
    (dat1 V c).after 4 t = k1_pay3 (iblk1 V c 3 t) (accAt1 V c t.val t.isLt) (iblk1 V c 2 t) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the sum's value is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS, HR⟩, Hg⟩
  isplitl [HS HR]
  · isplitl [HS]
    · iexists _; iexact HS
    iexact HR
  iexact Hg

/-! ## The inputs' buffers hold their blocks -/

/-- Each input window's current staging buffer holds the window's block at every point, fetched there or not: an
    unfetched window's block index has not moved since the point before, whose body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body's two conditions, over the grid -/

/-- The first conditional's condition (is the inner coordinate 0?), from the grid coordinates. -/
abbrev cond1_0 (i : grid1.Coords) : Prop := (Scalar.cmpi .ne (Scalar.extui (Scalar.cmpi .eq (BitVec.ofNat 32 (i 1).val) 0#32)) 0#32) = 1#1
/-- It holds at the points `≡ 0 (mod 4)`. -/
theorem hcond1_0 : ∀ t : Fin cfg1.N, cond1_0 (grid1.coords t) ↔ t.val % 4 = 0 :=
  (by decide +kernel : ∀ t : Fin grid1.N, cond1_0 (grid1.coords t) ↔ t.val % 4 = 0)
/-- The second conditional's condition (is the inner coordinate 3?). -/
abbrev cond1_1 (i : grid1.Coords) : Prop := k1_cond2 i = 1#1
/-- It holds at the points `≡ 3 (mod 4)`. -/
theorem hcond1_1 : ∀ t : Fin cfg1.N, cond1_1 (grid1.coords t) ↔ t.val % 4 = 3 :=
  (by decide +kernel : ∀ t : Fin grid1.N, cond1_1 (grid1.coords t) ↔ t.val % 4 = 3)

/-- Off the points `≡ 3 (mod 4)` the output window is idle (the body stores nothing into it) -/
theorem idleAt1_4 : ∀ t : Fin cfg1.N, ¬ t.val % 4 = 3 → cfg1.idle 4 (grid1.coords t) = true :=
  (by decide +kernel : ∀ t : Fin grid1.N, ¬ t.val % 4 = 3 → idle1 4 (grid1.coords t) = true)
/-- and is not written back; -/
theorem noFlush1_4 : ∀ t : Fin cfg1.N, ¬ t.val % 4 = 3 → (cfg1.win 4).flush t = false :=
  (by decide +kernel : ∀ t : Fin grid1.N, ¬ t.val % 4 = 3 → win1_4.flush t = false)
/-- at those points it is live. -/
theorem liveAt1_4 : ∀ t : Fin cfg1.N, t.val % 4 = 3 → cfg1.idle 4 (grid1.coords t) = false :=
  (by decide +kernel : ∀ t : Fin grid1.N, t.val % 4 = 3 → idle1 4 (grid1.coords t) = false)

/-! ## Whole-buffer accesses of a rank-2 buffer

The kernel loads and stores each of its buffers whole: through the rectangle at offsets (0, 0) of the buffer's own
extents.  Such a load reads the contents; such a store, made last, leaves its payload whatever was stored before;
and such a load after such a store reads that store's payload. -/

/-- The zero offsets of a rank-2 rectangle. -/
theorem off00 : (![0, 0] : Fin 2 → ℕ) = fun _ => 0 := by
  funext a; fin_cases a <;> rfl

section WholeRect

variable {κ : Kind} {sp : Space} {a b : ℕ} {e : EltTy}

/-- A load through the whole rectangle reads the contents. -/
theorem readAt_whole2 (v : View sig κ sp ⟨2, ![a, b]⟩ e) (f : v.ty.Contents (Elt F))
    (inb : ∀ k, (![0, 0] : Fin 2 → ℕ) k + (⟨2, ![a, b]⟩ : Shape).size k ≤ (⟨2, ![a, b]⟩ : Shape).size k) :
    v.readAt (Elt F) (Rect.unit (s := ⟨2, ![a, b]⟩) ![0, 0] (⟨2, ![a, b]⟩ : Shape).size inb).toLoadRect f = v.read (Elt F) f :=
  View.ld_unit_zero off00 inb _

/-- A store through the whole rectangle, made last, leaves its payload. -/
theorem read_writes_whole2 (v : View sig κ sp ⟨2, ![a, b]⟩ e) (f : v.ty.Contents (Elt F))
    (inb : ∀ k, (![0, 0] : Fin 2 → ℕ) k + (⟨2, ![a, b]⟩ : Shape).size k ≤ (⟨2, ![a, b]⟩ : Shape).size k)
    (w : (⟨2, ![a, b]⟩ : Shape).Idx → Elt F e) (L : List (View.Piece (Elt F) ⟨2, ![a, b]⟩ e)) :
    v.read (Elt F) (v.writes (Elt F) f ((⟨Rect.unit (s := ⟨2, ![a, b]⟩) ![0, 0] (⟨2, ![a, b]⟩ : Shape).size inb, w⟩ : View.Piece (Elt F) ⟨2, ![a, b]⟩ e) :: L)) = w := by
  rw [View.read_writes_eq_canon _ _ _ (fun y => ⟨_, List.mem_cons_self .., View.mem_set_unit_zero off00 inb y⟩)]
  exact View.canon_cons_unit_zero off00 inb w L

/-- A load through the whole rectangle after a store through it reads that store's payload. -/
theorem readCov_whole2 (v : View sig κ sp ⟨2, ![a, b]⟩ e)
    (inb : ∀ k, (![0, 0] : Fin 2 → ℕ) k + (⟨2, ![a, b]⟩ : Shape).size k ≤ (⟨2, ![a, b]⟩ : Shape).size k)
    (w : (⟨2, ![a, b]⟩ : Shape).Idx → Elt F e) (L : List (View.Piece (Elt F) ⟨2, ![a, b]⟩ e)) :
    v.readCov ((⟨Rect.unit (s := ⟨2, ![a, b]⟩) ![0, 0] (⟨2, ![a, b]⟩ : Shape).size inb, w⟩ : View.Piece (Elt F) ⟨2, ![a, b]⟩ e) :: L)
      (Rect.unit (s := ⟨2, ![a, b]⟩) ![0, 0] (⟨2, ![a, b]⟩ : Shape).size inb).toLoadRect = w :=
  View.readCov_cons_toLoadRect v (Rect.unit (s := ⟨2, ![a, b]⟩) ![0, 0] (⟨2, ![a, b]⟩ : Shape).size inb) w L

end WholeRect

/-! ## The body's run, case by case -/

/-- CASE B (inner coordinate 1 or 2: neither conditional taken).  On whole memrefs, the two matrix blocks at `x0`,
    `x1` and the scratch at `xs`, the body runs to the continuation holding the blocks as they were and the scratch
    at `xs + x0 · x1`; the other operands are not touched. -/
theorem sound_kernel1_B (c : Dev nD) (E : Set ℕ) (i : grid1.Coords)
    (arg2 : Memref sig .tc .vmem S1280x2560 .bf16) (harg2 : arg2.IsWhole) (arg3 : Memref sig .tc .vmem S2560x512 .bf16) (harg3 : arg3.IsWhole)
    (arg4 : Memref sig .tc .vmem S1280x1 .f32) (harg4 : arg4.IsWhole) (arg5 : Memref sig .tc .vmem S1x512 .f32) (harg5 : arg5.IsWhole)
    (arg6 : Memref sig .tc .vmem S1280x512 .f32) (harg6 : arg6.IsWhole) (arg7 : Memref sig .tc .vmem S1280x512 .f32) (harg7 : arg7.IsWhole)
    (hc0 : ¬cond1_0 i) (hc1 : ¬cond1_1 i)
    (x0 : Vec F S1280x2560 .bf16) (x1 : Vec F S2560x512 .bf16) (xs : Vec F S1280x512 .f32) (K : PUnit → sProp 𝕄) :
    iprop(owns (c : Thread nD τ) arg2 fullShare x0 ∗ owns (c : Thread nD τ) arg3 fullShare x1 ∗ owns (c : Thread nD τ) arg7 fullShare xs
        ∗ (iprop(owns (c : Thread nD τ) arg2 fullShare x0 ∗ owns (c : Thread nD τ) arg3 fullShare x1
            ∗ owns (c : Thread nD τ) arg7 fullShare (k1_pay2 xs x0 x1)) -∗ K ⟨⟩))
      ⊢ wp frame (wpE (defs₀ (F := F)) Variants.none c none) E (cc1__agg_matmul_kernel i arg2 harg2 arg3 harg3 arg4 harg4 arg5 harg5 arg6 harg6 arg7 harg7) K := by
  simp only [cc1__agg_matmul_kernel_eq_skeleton]; unfold cc1__agg_matmul_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  refine (read_writes_whole2 arg7.view fs _ _ _).trans ?_
  refine congr (congr (congrArg k1_pay2 ?_) ?_) ?_
  · exact readAt_whole2 arg7.view fs _
  · exact readAt_whole2 arg2.view f0 _
  · exact readAt_whole2 arg3.view f1 _

/-- CASE A (inner coordinate 0: the first conditional taken, the second not).  The scratch, at anything, is first
    overwritten with zeros; the body then runs as in case B from those zeros: the scratch ends at `0 + x0 · x1`. -/
theorem sound_kernel1_A (c : Dev nD) (E : Set ℕ) (i : grid1.Coords)
    (arg2 : Memref sig .tc .vmem S1280x2560 .bf16) (harg2 : arg2.IsWhole) (arg3 : Memref sig .tc .vmem S2560x512 .bf16) (harg3 : arg3.IsWhole)
    (arg4 : Memref sig .tc .vmem S1280x1 .f32) (harg4 : arg4.IsWhole) (arg5 : Memref sig .tc .vmem S1x512 .f32) (harg5 : arg5.IsWhole)
    (arg6 : Memref sig .tc .vmem S1280x512 .f32) (harg6 : arg6.IsWhole) (arg7 : Memref sig .tc .vmem S1280x512 .f32) (harg7 : arg7.IsWhole)
    (hc0 : cond1_0 i) (hc1 : ¬cond1_1 i)
    (x0 : Vec F S1280x2560 .bf16) (x1 : Vec F S2560x512 .bf16) (K : PUnit → sProp 𝕄) :
    iprop(owns (c : Thread nD τ) arg2 fullShare x0 ∗ owns (c : Thread nD τ) arg3 fullShare x1 ∗ (∃ d, owns (c : Thread nD τ) arg7 fullShare d)
        ∗ (iprop(owns (c : Thread nD τ) arg2 fullShare x0 ∗ owns (c : Thread nD τ) arg3 fullShare x1
            ∗ owns (c : Thread nD τ) arg7 fullShare (k1_pay2 (k1_pay1 (F := F)) x0 x1)) -∗ K ⟨⟩))
      ⊢ wp frame (wpE (defs₀ (F := F)) Variants.none c none) E (cc1__agg_matmul_kernel i arg2 harg2 arg3 harg3 arg4 harg4 arg5 harg5 arg6 harg6 arg7 harg7) K := by
  simp only [cc1__agg_matmul_kernel_eq_skeleton]; unfold cc1__agg_matmul_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  refine (read_writes_whole2 arg7.view fs _ _ _).trans ?_
  refine congr (congr (congrArg k1_pay2 ?_) ?_) ?_
  · exact readCov_whole2 arg7.view _ _ _
  · exact readAt_whole2 arg2.view f0 _
  · exact readAt_whole2 arg3.view f1 _

/-- CASE C (inner coordinate 3: the second conditional taken, the first not).  The scratch goes from `xs` to the
    new sum `s' = xs + x0 · x1` as in case B; then the output's buffer, at anything, is stored whole with
    `s' * x2 + x3` (the scale block `x2` broadcast along the rows' entries, the bias row `x3` down the rows). -/
theorem sound_kernel1_C (c : Dev nD) (E : Set ℕ) (i : grid1.Coords)
    (arg2 : Memref sig .tc .vmem S1280x2560 .bf16) (harg2 : arg2.IsWhole) (arg3 : Memref sig .tc .vmem S2560x512 .bf16) (harg3 : arg3.IsWhole)
    (arg4 : Memref sig .tc .vmem S1280x1 .f32) (harg4 : arg4.IsWhole) (arg5 : Memref sig .tc .vmem S1x512 .f32) (harg5 : arg5.IsWhole)
    (arg6 : Memref sig .tc .vmem S1280x512 .f32) (harg6 : arg6.IsWhole) (arg7 : Memref sig .tc .vmem S1280x512 .f32) (harg7 : arg7.IsWhole)
    (hc0 : ¬cond1_0 i) (hc1 : cond1_1 i)
    (x0 : Vec F S1280x2560 .bf16) (x1 : Vec F S2560x512 .bf16) (x2 : Vec F S1280x1 .f32) (x3 : Vec F S1x512 .f32) (xs : Vec F S1280x512 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay3 x3 (k1_pay2 xs x0 x1) x2)
            ∗ owns (c : Thread nD τ) arg7 fullShare (k1_pay2 xs x0 x1)) -∗ K ⟨⟩))
      ⊢ wp frame (wpE (defs₀ (F := F)) Variants.none c none) E (cc1__agg_matmul_kernel i arg2 harg2 arg3 harg3 arg4 harg4 arg5 harg5 arg6 harg6 arg7 harg7) K := by
  simp only [cc1__agg_matmul_kernel_eq_skeleton]; unfold cc1__agg_matmul_kernel_skel
  unfold owns
  iintro ⟨⟨%f0, %hf0, H0⟩, ⟨%f1, %hf1, H1⟩, ⟨%f2, %hf2, H2⟩, ⟨%f3, %hf3, H3⟩, ⟨%d6, %f6, -, H6⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    sl_unfold_run_names
    refine (read_writes_whole2 arg6.view f6 _ _ _).trans ?_
    refine congr (congr (congrArg k1_pay3 ?_) ?_) ?_
    · exact readAt_whole2 arg5.view f3 _
    · refine (readCov_whole2 arg7.view _ _ _).trans ?_
      refine congr (congr (congrArg k1_pay2 ?_) ?_) ?_
      · exact readAt_whole2 arg7.view fs _
      · exact readAt_whole2 arg2.view f0 _
      · exact readAt_whole2 arg3.view f1 _
    · exact readAt_whole2 arg4.view f2 _
  iexists _; isplitr
  swap; · iexact HS
  ipureintro
  sl_unfold_run_names
  refine (read_writes_whole2 arg7.view fs _ _ _).trans ?_
  refine congr (congr (congrArg k1_pay2 ?_) ?_) ?_
  · exact readAt_whole2 arg7.view fs _
  · exact readAt_whole2 arg2.view f0 _
  · exact readAt_whole2 arg3.view f1 _

/-! ## The body obligation, at a generic point -/

/-- No input window is ever idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

/-- What the body is called with at point `t`: the invariant, what the core owes, each window's current staging
    buffer at what it then holds; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- The body at any point.  The inputs' buffers hold their blocks; `t % 4` says which case the point is in.  The
    invariant hands the body the scratch at the sum the point before left (at anything before the first point, which
    restarts the sum) and takes it back at this point's sum, by the recursion's two equations; where the output is
    not stored (`t % 4 ≠ 3`) its buffer goes back as it came; the other scoped buffers, the generator register and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
        unfold Dat.leavesExact; rw [liveAt1_0 t], after1_0,
      show (dat1 V c).leavesExact 1 t = owns (c : Thread nD τ) (st1_1 t) fullShare ((dat1 V c).after 1 t) from by
        unfold Dat.leavesExact; rw [liveAt1_1 t], after1_1,
      show (dat1 V c).leavesExact 2 t = owns (c : Thread nD τ) (st1_2 t) fullShare ((dat1 V c).after 2 t) from by
        unfold Dat.leavesExact; rw [liveAt1_2 t], after1_2,
      show (dat1 V c).leavesExact 3 t = owns (c : Thread nD τ) (st1_3 t) fullShare ((dat1 V c).after 3 t) from by
        unfold Dat.leavesExact; rw [liveAt1_3 t], after1_3]
  have hN : t.val < 32 := lt_of_lt_of_eq t.isLt (show cfg1.N = 32 from N_1)
  by_cases h3 : t.val % 4 = 3
  · have h0 : ¬ t.val % 4 = 0 := by omega
    have hz : t.val ≠ 0 := by omega
    rw [show (dat1 V c).leavesExact 4 t = owns (c : Thread nD τ) (st1_4 t) fullShare ((dat1 V c).after 4 t) from by
        unfold Dat.leavesExact; rw [liveAt1_4 t h3], after1_4 V c t h3, accAt1_step V c t h0]
    rw [PhiS1_castSucc V c t, PhiS1_pos V c _ _ hz]
    iintro ⟨⟨⟨HS, HR⟩, Hg⟩, Ho, ⟨%d0, H0⟩, ⟨%d1, H1⟩, ⟨%d2, H2⟩, ⟨%d3, H3⟩, ⟨%d4, H4⟩⟩
    iapply (sound_kernel1_C c Set.univ (grid1.coords t) _ _ _ _ _ _ _ _ _ _ _ _ (fun h => h0 ((hcond1_0 t).mp h)) ((hcond1_1 t).mpr h3)
      (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt1_4 t h3) (noFlush1_4 t h3)]
    by_cases h0 : t.val % 4 = 0
    · rw [accAt1_reset V c t h0]
      by_cases hz : t.val = 0
      · rw [PhiS1_castSucc V c t, PhiS1_zero V c _ _ hz, PhiA1_eq]
        iintro ⟨⟨⟨HS, HR⟩, Hg⟩, Ho, ⟨%d0, H0⟩, ⟨%d1, H1⟩, ⟨%d2, H2⟩, ⟨%d3, H3⟩, ⟨%d4, H4⟩⟩
        iapply (sound_kernel1_A c Set.univ (grid1.coords t) _ _ _ _ _ _ _ _ _ _ _ _ ((hcond1_0 t).mpr h0) (fun h => h3 ((hcond1_1 t).mp h))
          (iblk1 V c 0 t) (iblk1 V c 1 t) _)
        isplitl [H0]; · iexact H0
        isplitl [H1]; · iexact H1
        isplitl [HS]; · iexact HS
        iintro ⟨H0, H1, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS, HR⟩, Hg⟩, Ho, ⟨%d0, H0⟩, ⟨%d1, H1⟩, ⟨%d2, H2⟩, ⟨%d3, H3⟩, ⟨%d4, H4⟩⟩
        iapply (sound_kernel1_A c Set.univ (grid1.coords t) _ _ _ _ _ _ _ _ _ _ _ _ ((hcond1_0 t).mpr h0) (fun h => h3 ((hcond1_1 t).mp h))
          (iblk1 V c 0 t) (iblk1 V c 1 t) _)
        isplitl [H0]; · iexact H0
        isplitl [H1]; · iexact H1
        isplitl [HS]; · iexists _; iexact HS
        iintro ⟨H0, H1, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := fun e => h0 (by rw [e])
      rw [accAt1_step V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ (fun h => h0 ((hcond1_0 t).mp h)) (fun h => h3 ((hcond1_1 t).mp h))
        (iblk1 V c 0 t) (iblk1 V c 1 t) _ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.Run.lean ====
/- THE RUN of @main, unconditional. The contents the two kernel regions leave are CHOSEN here: region 0 leaves its
   arrays at what pipeline 0's write-backs fold to from the region's entry contents `V3`, region 1 the same from its
   entry contents `V9` (which read region 0's output through the host stretches between). At that choice each region is
   a segment record entered from "every unscoped buffer at the valuation before it, the generator register at some
   state, nothing owed" and left at the same over the valuation after it; the conditional run then gives: every weakly
   fair execution of @main terminates with every unscoped buffer at the last valuation `V11`. The frame claim (the
   four arguments end as launched) and the result buffer's contents are read off that. -/
import proofs.«418382_j13529146982751_3_alg».proof.Proof.KI.RunCond
import proofs.«418382_j13529146982751_3_alg».proof.Proof.KI.Region0
import proofs.«418382_j13529146982751_3_alg».proof.Proof.KI.Region1
import Idealize.ShloMosaic.Lib.Pipeline.Kit
import Idealize.ShloMosaic.Lib.Pipeline.Regions
import Idealize.ShloMosaic.Lib.Pipeline.RegionsLoop
import Idealize.ShloMosaic.Lib.Pipeline.FrameSuffix

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions leave -/

/-- Region 0's entry contents, read at the TensorCore's references: what pipeline 0's proof data take. -/
abbrev V3' : (c : Dev nD) → (b : Ref sig .tc) → Buf (Elt F) ((c : Thread nD τ).loc b) := fun c b => V3 m c b

/-- Core `c`'s buffers at region 0's exit: the pipeline's arrays at what its write-backs fold to over the whole
    grid (an input's array as entered, the output's with every block written), every other buffer as entered. -/
def X4 (c : Dev nD) : Valuation τ sig (Elt F) :=
  Pipeline.withArrays spec0 c (V3 m c) fun w => (dat0 (V3' m) c).arrAt w cfg0.N

/-- Region 0's exit contents as a family of region outputs, the same at every item index: all that the valuations
    up to region 1's entry read of the unknowns. -/
def outs0 : Outs (F := F) := fun _ r c => X4 m c r

/-- Region 1's entry contents over region 0's exit contents alone. -/
abbrev V9e : (c : Dev nD) → (b : Ref sig .tc) → Buf (Elt F) ((c : Thread nD τ).loc b) := fun c b => V9 m (outs0 m) c b

/-- Core `c`'s buffers at region 1's exit: pipeline 1's arrays at what its write-backs fold to, the rest as entered. -/
def X10 (c : Dev nD) : Valuation τ sig (Elt F) :=
  Pipeline.withArrays spec1 c (V9 m (outs0 m) c) fun w => (dat1 (V9e m) c).arrAt w cfg1.N

/-- THE CHOICE of the unknowns: after item 3 (region 0) a buffer holds region 0's exit contents, after any later
    item region 1's. -/
def outsK : Outs (F := F) := fun J r c => if J = 4 then X4 m c r else X10 m c r

/-- Region 1's entry contents at the choice, read at the TensorCore's references: what pipeline 1's proof data take. -/
abbrev V9' : (c : Dev nD) → (b : Ref sig .tc) → Buf (Elt F) ((c : Thread nD τ).loc b) := fun c b => V9 m (outsK m) c b

/-! ## The choice read back -/

/-- After item 3 the choice is region 0's exit contents, -/
theorem outsK_four (r : Ref sig .tc) (c : Dev nD) : outsK m 4 r c = X4 m c r := if_pos rfl
/-- after item 9 region 1's. -/
theorem outsK_ten (r : Ref sig .tc) (c : Dev nD) : outsK m 10 r c = X10 m c r := if_neg (by decide)

/-- Region 0's exit contents at one of its arrays: what the pipeline's write-backs fold to. -/
theorem X4_arr (c : Dev nD) (w : Fin cfg0.W) :
    X4 m c (Proc.devRef .tc (Pipeline.arrRef spec0 w)) = (dat0 (V3' m) c).arrAt w cfg0.N := by
  unfold X4; exact Pipeline.withArrays_arr spec0 launch0.win.arr_inj c _ _ w

/-- The valuations from region 0's exit to region 1's entry read the unknowns only after item 3, where the choice
    IS region 0's exit contents: the update at region 0's output array takes the same value, and the five host
    stretches that follow are applied to equal valuations. -/
theorem V4_outsK (c : Dev nD) : V4 m (outsK m) c = V4 m (outs0 m) c := by
  show Function.update (V3 m c) _ (outsK m 4 main_v33 c) = Function.update (V3 m c) _ (outs0 m 4 main_v33 c)
  rw [outsK_four]; rfl
theorem V9_outsK (c : Dev nD) : V9 m (outsK m) c = V9 m (outs0 m) c :=
  congrArg (fun W => StableHlo.after hostOps1_4 (StableHlo.after hostOps1_3 (StableHlo.after hostOps1_2
    (StableHlo.after hostOps1_1 (StableHlo.after hostOps1 W))))) (V4_outsK m c)
/-- So region 1's entry contents at the choice are those over region 0's exit alone. -/
theorem V9'_eq : V9' m = V9e m := funext fun c => funext fun b => congrFun (V9_outsK m c) (Proc.devRef .tc b)

/-- Region 1's exit contents at one of its arrays. -/
theorem X10_arr (c : Dev nD) (w : Fin cfg1.W) :
    X10 m c (Proc.devRef .tc (Pipeline.arrRef spec1 w)) = (dat1 (V9' m) c).arrAt w cfg1.N := by
  rw [V9'_eq]; unfold X10; exact Pipeline.withArrays_arr spec1 launch1.win.arr_inj c _ _ w

/-- What the choice puts in region 0's output array `main_v33` (window 3 of pipeline 0) after item 3: the fold of
    the pipeline's write-backs over the whole grid. -/
theorem outs4_eq (c : Dev nD) : outsK m 4 main_v33 c = (dat0 (V3' m) c).arrAt 3 cfg0.N :=
  (outsK_four m main_v33 c).trans (X4_arr m c 3)

/-- What the choice puts in region 1's output array `main_v38` (window 4 of pipeline 1) after item 9. -/
theorem outs10_eq (c : Dev nD) : outsK m 10 main_v38 c = (dat1 (V9' m) c).arrAt 4 cfg1.N :=
  (outsK_ten m main_v38 c).trans (X10_arr m c 4)

/-! ## Each region's exit: its arrays at the next valuation, every other buffer unchanged -/

/-- The valuation after region 0 at the choice, read at the TensorCore's references. -/
abbrev V4' : (c : Dev nD) → (b : Ref sig .tc) → Buf (Elt F) ((c : Thread nD τ).loc b) := fun c b => V4 m (outsK m) c b
/-- The valuation after region 1 at the choice, read at the TensorCore's references. -/
abbrev V10' : (c : Dev nD) → (b : Ref sig .tc) → Buf (Elt F) ((c : Thread nD τ).loc b) := fun c b => V10 m (outsK m) c b

/-- The valuation after region 0 at its output array is the value the update put there: the choice. -/
theorem V4'_out (c : Dev nD) : V4' m c main_v33 = outsK m 4 main_v33 c := by
  simp only [V4, Function.update_self]
/-- The valuation after region 1 at its output array is the choice. -/
theorem V10'_out (c : Dev nD) : V10' m c main_v38 = outsK m 10 main_v38 c := by
  simp only [V10, Function.update_self]

/-- An input window's array of pipeline 0 is never written back, so it ends at its entry contents `V3`, which the
    update at `main_v33` does not touch. -/
theorem hF0_in (c : Dev nD) (w : Fin cfg0.W) (hin : (cfg0.win w).isOut = false)
    (hne : Pipeline.arrRef spec0 w ∉ ([main_v33] : List (Ref sig .tc))) :
    (dat0 (V3' m) c).arrAt w cfg0.N = V4' m c (Pipeline.arrRef spec0 w) :=
  (((dat0 (V3' m) c).arrAt_in w hin _).trans (A_eq0 (V3' m) c w)).trans (V4_of m (outsK m) c _ hne).symm

/-- Every array of pipeline 0 ends at the valuation after region 0: the three inputs as entered, the output
    `main_v33` at the updated value, which is the choice. -/
theorem hF0 (c : Dev nD) : ∀ w : Fin 4, (dat0 (V3' m) c).arrAt w cfg0.N = V4' m c (Pipeline.arrRef spec0 w)
  | 0 => hF0_in m c 0 rfl (by decide)
  | 1 => hF0_in m c 1 rfl (by decide)
  | 2 => hF0_in m c 2 rfl (by decide)
  | 3 => (outs4_eq m c).symm.trans (V4'_out m c).symm
  | ⟨_ + 4, h⟩ => absurd h (Nat.not_lt.2 (Nat.le_add_left _ _))

/-- Off pipeline 0's arrays the valuation after region 0 is the one before it: the one updated buffer is an array. -/
theorem hrest0 (c : Dev nD) : ∀ b, b ∉ Finset.univ.image (Pipeline.arrRef spec0) → V4' m c b = V3' m c b :=
  fun b hb => V4_of m (outsK m) c b fun h =>
    hb (Finset.mem_image.mpr ⟨3, Finset.mem_univ _, (List.mem_singleton.mp h).symm⟩)

/-- An input window's array of pipeline 1 ends at its entry contents `V9`, which the update at `main_v38` does not touch. -/
theorem hF1_in (c : Dev nD) (w : Fin cfg1.W) (hin : (cfg1.win w).isOut = false)
    (hne : Pipeline.arrRef spec1 w ∉ ([main_v38] : List (Ref sig .tc))) :
    (dat1 (V9' m) c).arrAt w cfg1.N = V10' m c (Pipeline.arrRef spec1 w) :=
  (((dat1 (V9' m) c).arrAt_in w hin _).trans (A_eq1 (V9' m) c w)).trans (V10_of m (outsK m) c _ hne).symm

/-- Every array of pipeline 1 ends at the valuation after region 1. -/
theorem hF1 (c : Dev nD) : ∀ w : Fin 5, (dat1 (V9' m) c).arrAt w cfg1.N = V10' m c (Pipeline.arrRef spec1 w)
  | 0 => hF1_in m c 0 rfl (by decide)
  | 1 => hF1_in m c 1 rfl (by decide)
  | 2 => hF1_in m c 2 rfl (by decide)
  | 3 => hF1_in m c 3 rfl (by decide)
  | 4 => (outs10_eq m c).symm.trans (V10'_out m c).symm
  | ⟨_ + 5, h⟩ => absurd h (Nat.not_lt.2 (Nat.le_add_left _ _))

/-- Off pipeline 1's arrays the valuation after region 1 is the one before it. -/
theorem hrest1 (c : Dev nD) : ∀ b, b ∉ Finset.univ.image (Pipeline.arrRef spec1) → V10' m c b = V9' m c b :=
  fun b hb => V10_of m (outsK m) c b fun h =>
    hb (Finset.mem_image.mpr ⟨4, Finset.mem_univ _, (List.mem_singleton.mp h).symm⟩)

/-! ## The proof data family and the thread state -/

/-- Every pipeline's proof data, each at its region's entry contents at the choice: a literal match on the
    pipeline, so that the family at a numeral reduces to that pipeline's data. -/
def pdats : (p : Fin 2) → (c : Dev nD) → Dat τ (Elt F) Unit ℕ (UR sig nD τ) ℕ (cfgs p) c
  | ⟨0, _⟩ => fun c => dat0 (V3' m) c
  | ⟨1, _⟩ => fun c => dat1 (V9' m) c

abbrev noVariants : Variants := Variants.none
/-- No core owes another anything: no pair of cells is assigned a level. -/
abbrev noPairs : GSem nD τ sig → Finset Unit := fun _ => ∅
abbrev level0 : GSem nD τ sig → Unit → ℕ := fun _ _ => 0
/-- What rides beside the buffers through every item: the core's generator register at some state (a region's
    invariant takes it in and gives it back) and the core owing nothing. -/
abbrev coreRest (c : Dev nD) : sProp 𝕄 :=
  iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- the library's lemmas are stated over the pinned configuration of a pipeline, which unifies with the printed one only
-- when unification may unfold plain definitions in a metavariable's type
set_option backward.isDefEq.respectTransparency.types false in
/-- REGION 0 over the thread state: entered from every unscoped buffer at `V3 m`, left at `V4 m (outsK m)` at the choice. Its
    arrays are split out of the unscoped buffers at entry and put back at the exit contents (the two exit facts
    above); the generator register goes into the pipeline's invariant and comes back; nothing is owed; the kernel has
    no semaphore of its own. -/
def reg0 : Pipeline.RegionSeg (pcfgs (F := F)) adm (pdats m) () defs₀ noVariants noPairs level0 0 where
  win := launch0.win.to₀
  block_pos := launch0.block_pos
  stage_whole := launch0.stage_whole
  K := PEmpty
  osem k := k.elim
  ho := Pipeline.OwnSemFacts.none _
  hbody c := (body_obligation0 (V3' m) c).loose
  hwaits := Pipeline.hwaits_of_owed_zero _ _ _ _ noPairs level0 0 fun _ _ => rfl
  pre c := iprop(StableHlo.held (c : Thread nD τ) (Pipeline.ucRefs τ sig) (V3 m c) ∗ coreRest c)
  post c := iprop(StableHlo.held (c : Thread nD τ) (Pipeline.ucRefs τ sig) (V4 m (outsK m) c) ∗ coreRest c)
  X c := iprop(∃ r, prngReg c r)
  Y c := iprop(∃ r, prngReg c r)
  Z c := Pipeline.unscopedRest (Ix := Unit) (Name := ℕ) (U := UR sig nD τ) (Lvl := ℕ) spec0 c (V3' m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3' m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3' m c) (V4' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration of a pipeline, which unifies with the printed one only
-- when unification may unfold plain definitions in a metavariable's type
set_option backward.isDefEq.respectTransparency.types false in
/-- REGION 1 over the thread state: entered from every unscoped buffer at `V9 m (outsK m)`, left at `V10 m (outsK m)` at the choice. Its
    arrays are split out of the unscoped buffers at entry and put back at the exit contents (the two exit facts
    above); the generator register goes into the pipeline's invariant and comes back; nothing is owed; the kernel has
    no semaphore of its own. -/
def reg1 : Pipeline.RegionSeg (pcfgs (F := F)) adm (pdats m) () defs₀ noVariants noPairs level0 1 where
  win := launch1.win.to₀
  block_pos := launch1.block_pos
  stage_whole := launch1.stage_whole
  K := PEmpty
  osem k := k.elim
  ho := Pipeline.OwnSemFacts.none _
  hbody c := (body_obligation1 (V9' m) c).loose
  hwaits := Pipeline.hwaits_of_owed_zero _ _ _ _ noPairs level0 1 fun _ _ => rfl
  pre c := iprop(StableHlo.held (c : Thread nD τ) (Pipeline.ucRefs τ sig) (V9 m (outsK m) c) ∗ coreRest c)
  post c := iprop(StableHlo.held (c : Thread nD τ) (Pipeline.ucRefs τ sig) (V10 m (outsK m) c) ∗ coreRest c)
  X c := iprop(∃ r, prngReg c r)
  Y c := iprop(∃ r, prngReg c r)
  Z c := Pipeline.unscopedRest (Ix := Unit) (Name := ℕ) (U := UR sig nD τ) (Lvl := ℕ) spec1 c (V9' m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V9' m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the scoped rest and the generator register make the class invariant, which gives the tracking invariant's first point
    rw [show (pdats m 1 c).Φ 0 = (dat1 (V9' m) c).Φ 0 from rfl]
    iintro ⟨Hp, -, Hr⟩
    iapply (hin1 (V9' m) c)
    unfold Pipeline.ΦA
    isplitl [Hr]; · iexact Hr
    iexact Hp
  hout c := by
    -- the tracking invariant's last point gives the class invariant back, which opens into the register and the scoped rest
    rw [Pipeline.ownSems0_none, show (pdats m 1 c).Φ (Fin.last _) = (dat1 (V9' m) c).Φ (Fin.last cfg1.N) from rfl]
    iintro H
    ihave H' := (hout1 (V9' m) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V9' m c) (V10' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the conditional run's implicit arguments are found by unifying its hypotheses with the records above, which takes
-- unfolding plain definitions in a metavariable's type
set_option backward.isDefEq.respectTransparency.types false in
/-- THE RUN: from any memory `m` with zero counters every weakly fair execution of @main terminates, and every unscoped
    TensorCore buffer of the final memory holds the last valuation at the choice. The conditional run at: the
    pipeline library's own cell algebra, no levels, nothing owed at launch, no ghost resource beside the cells; the
    rest state "generator register at some state, nothing owed" between all items; the two records above, whose
    entry and exit states ARE the conditional run's. The launch deals each core its register at the launched state and
    its debt at nothing, which is the first rest state; the last rest state forgets the register. -/
theorem run_all : θ_run defs (onTc (τ := τ) (main (F := F))) ⟨m, fun _ => 0, ρ⟩ (fun r => ∀ c : Dev nD, ∀ b ∈ Pipeline.ucRefs τ sig,
      r.2.mem ((c : Thread nD τ).1, b) = V11 m (outsK m) c b) :=
  run_cond m emb₁ () noVariants noPairs level0 (fun _ _ => rfl) ρ (outsK m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => coreRest)
    (hE0 := by
      refine Pipeline.initEach noPairs level0 fun c => ?_
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)

/-! ## The readings -/

/-- THE FRAME: every argument array ends as launched. Each argument is an unscoped buffer, so the run gives it at the
    last valuation, and no item writes an argument: the last valuation at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (V11_main_arg0 m (outsK m) c),
      (h c _ (mem_uc main_arg1 (by decide))).trans (V11_main_arg1 m (outsK m) c),
      (h c _ (mem_uc main_arg2 (by decide))).trans (V11_main_arg2 m (outsK m) c),
      (h c _ (mem_uc main_arg3 (by decide))).trans (V11_main_arg3 m (outsK m) c)⟩) (run_all m ρ)

/-- THE RESULT: the result buffer `main_v39` ends at the last valuation at the choice, beside the arguments as launched. -/
theorem run_result : θ_run defs (onTc (τ := τ) (main (F := F))) ⟨m, fun _ => 0, ρ⟩ (fun r => ∀ c : Dev nD,
      r.2.mem ((c.tc : Thread nD τ).loc main_v39) = V11 m (outsK m) c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v39 (by decide)),
      (h c _ (mem_uc main_arg0 (by decide))).trans (V11_main_arg0 m (outsK m) c),
      (h c _ (mem_uc main_arg1 (by decide))).trans (V11_main_arg1 m (outsK m) c),
      (h c _ (mem_uc main_arg2 (by decide))).trans (V11_main_arg2 m (outsK m) c),
      (h c _ (mem_uc main_arg3 (by decide))).trans (V11_main_arg3 m (outsK m) c)⟩) (run_all m ρ)

end Cert.KernelIdeal.Gen

end
-- ==== Proof.Spec.lean ====
/-
  The common vocabulary of this certificate: what both programs compute, as functions of the four argument
  arrays, over explicit coordinates.

  A graph on N = 10000 nodes is given by E = 160000 directed edges (row 0 of the edge table the sources, row 1
  the targets); every node also gets a self loop, so there are 170000 messages k, message k going from
  src k to dst k. With deg i the number of messages arriving at i (at least 1: the self loop) and
  s i = deg(i)^(-1/2), the layer's result at node i, feature d is

      ∑_{k : dst k = i}  h(src k, d) · (s(src k) · s(dst k))  +  b d ,        h = x · W .

  The kernel computes the same number through the dense count matrix adj i j = #{k : dst k = i, src k = j},
  padded to 10240 × 10240 with zero rows of h below row 10000:

      (∑_j adj i j · (h(j, d) · s j)) · s i  +  b d .
-/
import Idealize.ShloMosaic.PureOps.Ideal
import Idealize.ShloMosaic.Lib.ValueIdx

noncomputable section

namespace Cert.Spec

open Idealize.ShloMosaic Idealize.ShloMosaic.ValueIdx

/-- The edge table: 2 × 160000 words. -/
abbrev EdgeTab : Type := (⟨2, ![2, 160000]⟩ : Shape).Idx → BitVec 32

/-- Every word of the edge table is a node number: `0 ≤ w < 10000` read signed. -/
def InRange (e : EdgeTab) : Prop := ∀ j, 0 ≤ (e j).toInt ∧ (e j).toInt < 10000

/-- Message `k`'s source word: row 0 of the edge table for the 160000 edges, then the self loops `0, 1, …, 9999`. -/
def srcW (e : EdgeTab) (k : Fin 170000) : BitVec 32 :=
  if h : k.val < 160000 then e (ix2 (0 : Fin 2) ⟨k.val, h⟩) else BitVec.ofNat 32 (k.val - 160000)

/-- Message `k`'s target word: row 1 of the edge table, then the self loops. -/
def dstW (e : EdgeTab) (k : Fin 170000) : BitVec 32 :=
  if h : k.val < 160000 then e (ix2 (1 : Fin 2) ⟨k.val, h⟩) else BitVec.ofNat 32 (k.val - 160000)

/-- Message `k`'s source node (the word read as a node number; meaningful under `InRange`). -/
def srcF (e : EdgeTab) (k : Fin 170000) : Fin 10000 := ⟨(srcW e k).toNat % 10000, Nat.mod_lt _ (by decide)⟩

/-- Message `k`'s target node. -/
def dstF (e : EdgeTab) (k : Fin 170000) : Fin 10000 := ⟨(dstW e k).toNat % 10000, Nat.mod_lt _ (by decide)⟩

/-- The in-degree with self loops, as the extended real both programs compute: one `u` (the float `1.0`) per
    message arriving at `i`. -/
def deg (u : EReal) (dst : Fin 170000 → Fin 10000) (i : Fin 10000) : EReal :=
  ∑ k ∈ Finset.univ.filter (fun k : Fin 170000 => dst k = i), u

/-- `deg^(-1/2)` where the degree is positive, `0` elsewhere: `jnp.where(deg > 0, rsqrt(deg), 0)`. -/
def dis (u : EReal) (dst : Fin 170000 → Fin 10000) (i : Fin 10000) : EReal :=
  if 0 < deg u dst i then Ideal.rsqrt (deg u dst i) else 0

/-- The linear transform `h = x · W` at row `j`, column `d`. -/
def hlin (x : (⟨2, ![10000, 512]⟩ : Shape).Idx → EReal) (W : (⟨2, ![512, 512]⟩ : Shape).Idx → EReal)
    (j : Fin 10000) (d : Fin 512) : EReal :=
  ∑ q : Fin 512, x (ix2 j q) * W (ix2 q d)

/-- The reference's result: the messages arriving at `i`, each the source's transformed row scaled by the two
    degree factors, summed; plus the bias. -/
def refOut (x : (⟨2, ![10000, 512]⟩ : Shape).Idx → EReal) (W : (⟨2, ![512, 512]⟩ : Shape).Idx → EReal)
    (b : (⟨1, ![512]⟩ : Shape).Idx → EReal) (s : Fin 10000 → EReal) (src dst : Fin 170000 → Fin 10000)
    (i : Fin 10000) (d : Fin 512) : EReal :=
  (∑ k ∈ Finset.univ.filter (fun k : Fin 170000 => dst k = i), hlin x W (src k) d * (s (src k) * s (dst k))) + b (ix1 d)

/-- The dense count matrix on the padded node range: how many messages go from `j` to `i`, each counted as `u`. -/
def adj (u : EReal) (src dst : Fin 170000 → Fin 10000) (i j : Fin 10240) : EReal :=
  ∑ k ∈ Finset.univ.filter (fun k : Fin 170000 => (dst k).val = i.val ∧ (src k).val = j.val), u

/-- The pre-scaled transformed rows, padded with zero rows up to 10240. -/
def hpad (x : (⟨2, ![10000, 512]⟩ : Shape).Idx → EReal) (W : (⟨2, ![512, 512]⟩ : Shape).Idx → EReal)
    (s : Fin 10000 → EReal) (j : Fin 10240) (d : Fin 512) : EReal :=
  if h : j.val < 10000 then hlin x W ⟨j.val, h⟩ d * s ⟨j.val, h⟩ else 0

/-- The kernel's result at a real node `i`: row `i` of the count matrix against the padded scaled rows, scaled by
    the target's degree factor; plus the bias. -/
def kerOut (u : EReal) (x : (⟨2, ![10000, 512]⟩ : Shape).Idx → EReal) (W : (⟨2, ![512, 512]⟩ : Shape).Idx → EReal)
    (b : (⟨1, ![512]⟩ : Shape).Idx → EReal) (s : Fin 10000 → EReal) (src dst : Fin 170000 → Fin 10000)
    (i : Fin 10000) (d : Fin 512) : EReal :=
  (∑ j : Fin 10240, adj u src dst ⟨i.val, by omega⟩ j * hpad x W s j d) * s i + b (ix1 d)

end Cert.Spec

end
-- ==== Proof.KI.Val0.lean ====
/- What region 0 leaves in its output array at the ideal instance, index by index: entry (r, d) is row r of x
   against column d of W, scaled by entry r of the column s. First the body's arithmetic at one index of a block
   (format changes are identities on extended reals, the block product into the zero accumulator is a sum over the
   contracted axis, the broadcast column is read at its row); then each input block read at its place in its array;
   then the ten row blocks put together. -/
import proofs.«418382_j13529146982751_3_alg».proof.Proof.KI.Region0
import Idealize.ShloMosaic.PureOps.Ideal.Laws
import Idealize.ShloMosaic.Lib.ValueIdx
import Idealize.ShloMosaic.Lib.Pipeline.Value

noncomputable section

namespace Cert.KernelIdeal.Val0

open Cert.KernelIdeal Cert.KernelIdeal.Gen
open Idealize.ShloMosaic Idealize.ShloMosaic.TcCoe Idealize.SL.Sem
open Idealize.ShloMosaic.Pipeline (Dat)
open Idealize.ShloMosaic.ValueIdx

/-! ## The body's arithmetic at an index of the block -/

/-- A `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row coordinate is the output's row: axis 0 is free. -/
theorem lhs_axis0 (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide),
    dif_pos (show (0 : Fin S1000x512.rank) ∈ dot_S1000x512_S512x512_S1000x512_1_0_0_1_n_n.lhsNonContracting by decide)]
  rfl
/-- Its column coordinate is the contraction position: axis 1 is the contracted one. -/
theorem lhs_axis1 (i : S1000x512.Idx) (q : dot_S1000x512_S512x512_S1000x512_1_0_0_1_n_n.contr.Idx) :
    (dot_S1000x512_S512x512_S1000x512_1_0_0_1_n_n.lhsIdx i q 1).val = (q ⟨0, by decide⟩).val :=
  dot_S1000x512_S512x512_S1000x512_1_0_0_1_n_n.lhsIdx_val_of_single rfl i q
/-- The right operand's row coordinate is the contraction position: axis 0 is the contracted one. -/
theorem rhs_axis0 (i : S1000x512.Idx) (q : dot_S1000x512_S512x512_S1000x512_1_0_0_1_n_n.contr.Idx) :
    (dot_S1000x512_S512x512_S1000x512_1_0_0_1_n_n.rhsIdx i q 0).val = (q ⟨0, by decide⟩).val :=
  dot_S1000x512_S512x512_S1000x512_1_0_0_1_n_n.rhsIdx_val_of_single rfl i q
/-- Its column coordinate is the output's column: axis 1 is free. -/
theorem rhs_axis1 (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide),
    dif_pos (show (1 : Fin S512x512.rank) ∈ dot_S1000x512_S512x512_S1000x512_1_0_0_1_n_n.rhsNonContracting by decide)]
  rfl

/-- The block product into the zero accumulator, at `(p, d)`: row `p` of the left operand against column `d` of
    the right one. -/
theorem matmul_zero_ix (a : FVec Ideal S1000x512 .bf16) (b : FVec Ideal S512x512 .bf16) (p : Fin 1000) (d : Fin 512) :
    matmul dot_S1000x512_S512x512_S1000x512_1_0_0_1_n_n none a b (constant (F := Ideal) S1000x512 .f32 0x00000000#32) (ix2 p d)
      = ∑ q : Fin 512, a (ix2 p q) * b (ix2 q d) := by
  simp only [matmul]
  rw [Ideal.matmul_constant_zero_apply,
    ← Equiv.sum_comp (contrEquiv1 dot_S1000x512_S512x512_S1000x512_1_0_0_1_n_n 512 rfl rfl).symm]
  refine Finset.sum_congr rfl fun k _ => ?_
  have hk := contrEquiv1_symm_val dot_S1000x512_S512x512_S1000x512_1_0_0_1_n_n 512 rfl rfl k
  have el : dot_S1000x512_S512x512_S1000x512_1_0_0_1_n_n.lhsIdx (ix2 p d)
      ((contrEquiv1 dot_S1000x512_S512x512_S1000x512_1_0_0_1_n_n 512 rfl rfl).symm k) = ix2 p k :=
    funext fun ax => Fin.ext (by
      match ax with
      | ⟨0, _⟩ => exact lhs_axis0 _ _
      | ⟨1, _⟩ => exact (lhs_axis1 _ _).trans hk)
  have er : dot_S1000x512_S512x512_S1000x512_1_0_0_1_n_n.rhsIdx (ix2 p d)
      ((contrEquiv1 dot_S1000x512_S512x512_S1000x512_1_0_0_1_n_n 512 rfl rfl).symm k) = ix2 k d :=
    funext fun ax => Fin.ext (by
      match ax with
      | ⟨0, _⟩ => exact (rhs_axis0 _ _).trans hk
      | ⟨1, _⟩ => exact rhs_axis1 _ _)
  rw [el, er]

/-- The body's payload at `(p, d)` of the block: the format changes are identities, the product is the sum over
    the contracted axis, the column is read at its row. -/
theorem pay_ix (x0 : Vec Ideal S1000x512 .f32) (x1 : Vec Ideal S512x512 .f32) (x2 : Vec Ideal S1000x1 .f32)
    (p : Fin 1000) (d : Fin 512) :
    k0_pay1 x0 x1 x2 (ix2 p d) = (∑ q : Fin 512, x0 (ix2 p q) * x1 (ix2 q d)) * x2 (ix2 p (0 : Fin 1)) := by
  unfold k0_pay1
  rw [truncf_apply, mulf_apply, matmul_zero_ix, shapeCast_self, broadcastTo_a1_ab_apply]
  rfl

/-! ## From the blocks to the array -/

/-- What the output array ends holding, as one function of the three input arrays: at `(r, d)`, row `r` of `x`
    against column `d` of `w`, times entry `r` of the column `s`. -/
def scaledProd (x : S10000x512.Idx → EReal) (w : S512x512.Idx → EReal) (s : S10000x1.Idx → EReal) :
    S10000x512.Idx → EReal :=
  fun i => (∑ q : Fin 512, x (ix2 (i 0 : Fin 10000) q) * w (ix2 q (i 1 : Fin 512))) * s (ix2 (i 0 : Fin 10000) (0 : Fin 1))

/-- The payload at an index `j` of the block, coordinates not yet named. -/
theorem pay_at (x0 : Vec Ideal S1000x512 .f32) (x1 : Vec Ideal S512x512 .f32) (x2 : Vec Ideal S1000x1 .f32)
    (j : S1000x512.Idx) :
    k0_pay1 x0 x1 x2 j
      = (∑ q : Fin 512, x0 (ix2 (j 0 : Fin 1000) q) * x1 (ix2 q (j 1 : Fin 512))) * x2 (ix2 (j 0 : Fin 1000) (0 : Fin 1)) := by
  obtain ⟨p, d, rfl⟩ : ∃ (p : Fin 1000) (d : Fin 512), j = ix2 p d := ⟨j 0, j 1, eq_ix2 j⟩
  exact pay_ix x0 x1 x2 p d

/-- If the three blocks read, along row `j 0` and column `j 1`, what the arrays hold along row `i 0` and column
    `i 1`, the payload at `j` is the array function at `i`. -/
theorem pay_eq_scaledProd (x0 : Vec Ideal S1000x512 .f32) (x1 : Vec Ideal S512x512 .f32) (x2 : Vec Ideal S1000x1 .f32)
    (a0 : S10000x512.Idx → EReal) (a1 : S512x512.Idx → EReal) (a2 : S10000x1.Idx → EReal)
    (j : S1000x512.Idx) (i : S10000x512.Idx)
    (h0 : ∀ q : Fin 512, x0 (ix2 (j 0 : Fin 1000) q) = a0 (ix2 (i 0 : Fin 10000) q))
    (h1 : ∀ q : Fin 512, x1 (ix2 q (j 1 : Fin 512)) = a1 (ix2 q (i 1 : Fin 512)))
    (h2 : x2 (ix2 (j 0 : Fin 1000) (0 : Fin 1)) = a2 (ix2 (i 0 : Fin 10000) (0 : Fin 1))) :
    k0_pay1 x0 x1 x2 j = scaledProd a0 a1 a2 i := by
  rw [pay_at]
  unfold scaledProd
  rw [h2]
  exact congrArg (· * _) (Finset.sum_congr rfl fun q _ => by rw [h0 q, h1 q])

/-- The printed index maps, decided over the ten points: the rows of `x`, of `s` and of the output move together,
    one block per point; `W` stays whole; no window moves along the columns. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) ≤ 9 ∧ win0_3.index t (1 : Fin 2) = 0 :=
  (by decide +kernel : ∀ t : Fin grid0.N, _)

/-- Every block row of the output is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

variable (V : (c : Dev nD) → (b : Ref sig .tc) → Buf (Elt Ideal) ((c : Thread nD τ).loc b))

/-- The block of `x` at point `t` reads the array at block index × block size + the place inside the block. -/
theorem xblk_read (c : Dev nD) (t : Fin cfg0.N) (y : S1000x512.Idx) (i : S10000x512.Idx)
    (h0 : (i 0).val = win0_0.index t (0 : Fin 2) * 1000 + (y 0).val)
    (h1 : (i 1).val = win0_0.index t (1 : Fin 2) * 512 + (y 1).val) :
    iblk0 V c 0 t y = V c main_arg0 i := by
  show V c main_arg0 (((cfg0.win 0).blk t).view.emb y) = V c main_arg0 i
  refine congrArg _ (funext fun a => Fin.ext ?_)
  match a with
  | ⟨0, _⟩ => show win0_0.index t (0 : Fin 2) * 1000 + 1 * (y 0).val = (i 0).val; omega
  | ⟨1, _⟩ => show win0_0.index t (1 : Fin 2) * 512 + 1 * (y 1).val = (i 1).val; omega

/-- The block of `W` likewise. -/
theorem wblk_read (c : Dev nD) (t : Fin cfg0.N) (y : S512x512.Idx) (i : S512x512.Idx)
    (h0 : (i 0).val = win0_1.index t (0 : Fin 2) * 512 + (y 0).val)
    (h1 : (i 1).val = win0_1.index t (1 : Fin 2) * 512 + (y 1).val) :
    iblk0 V c 1 t y = V c main_arg2 i := by
  show V c main_arg2 (((cfg0.win 1).blk t).view.emb y) = V c main_arg2 i
  refine congrArg _ (funext fun a => Fin.ext ?_)
  match a with
  | ⟨0, _⟩ => show win0_1.index t (0 : Fin 2) * 512 + 1 * (y 0).val = (i 0).val; omega
  | ⟨1, _⟩ => show win0_1.index t (1 : Fin 2) * 512 + 1 * (y 1).val = (i 1).val; omega

/-- The block of the column `s` likewise. -/
theorem sblk_read (c : Dev nD) (t : Fin cfg0.N) (y : S1000x1.Idx) (i : S10000x1.Idx)
    (h0 : (i 0).val = win0_2.index t (0 : Fin 2) * 1000 + (y 0).val)
    (h1 : (i 1).val = win0_2.index t (1 : Fin 2) * 1 + (y 1).val) :
    iblk0 V c 2 t y = V c main_v32 i := by
  show V c main_v32 (((cfg0.win 2).blk t).view.emb y) = V c main_v32 i
  refine congrArg _ (funext fun a => Fin.ext ?_)
  match a with
  | ⟨0, _⟩ => show win0_2.index t (0 : Fin 2) * 1000 + 1 * (y 0).val = (i 0).val; omega
  | ⟨1, _⟩ => show win0_2.index t (1 : Fin 2) * 1 + 1 * (y 1).val = (i 1).val; omega

/-- The output block's index `j` sits in the array at block index × block size + `j`, axis by axis. -/
theorem oblk_emb (t : Fin cfg0.N) (j : S1000x512.Idx) :
    ((((cfg0.win 3).blk t).view.emb j) 0).val = win0_3.index t (0 : Fin 2) * 1000 + (j 0).val
    ∧ ((((cfg0.win 3).blk t).view.emb j) 1).val = win0_3.index t (1 : Fin 2) * 512 + (j 1).val := by
  constructor
  · show win0_3.index t (0 : Fin 2) * 1000 + 1 * (j 0).val = _; omega
  · show win0_3.index t (1 : Fin 2) * 512 + 1 * (j 1).val = _; omega

/-- What point `t` writes back is block `t` of the array function of the three arrays as the region finds them. -/
theorem flushed_eq (c : Dev nD) (t : Fin cfg0.N) :
    (dat0 (F := Ideal) V c).flushed 3 t
      = ((cfg0.win 3).blk t).view.read (Elt Ideal) (scaledProd (V c main_arg0) (V c main_arg2) (V c main_v32)) := by
  show (cfg0.win 3).cut (grid0.coords t) ((dat0 V c).after 3 t) = _
  rw [after0_3, out0_3_eq]
  obtain ⟨e0, e1, e2, e3, e4, e5, e6, e7⟩ := idx_facts t
  funext j
  obtain ⟨o0, o1⟩ := oblk_emb t j
  show k0_pay1 (iblk0 V c 0 t) (iblk0 V c 1 t) (iblk0 V c 2 t) j
    = scaledProd (V c main_arg0) (V c main_arg2) (V c main_v32) (((cfg0.win 3).blk t).view.emb j)
  refine pay_eq_scaledProd _ _ _ _ _ _ j _ (fun q => ?_) (fun q => ?_) ?_
  · refine xblk_read V c t _ _ ?_ ?_
    · show ((((cfg0.win 3).blk t).view.emb j) 0).val = win0_0.index t (0 : Fin 2) * 1000 + (j 0).val; omega
    · show q.val = win0_0.index t (1 : Fin 2) * 512 + q.val; omega
  · refine wblk_read V c t _ _ ?_ ?_
    · show q.val = win0_1.index t (0 : Fin 2) * 512 + q.val; omega
    · show ((((cfg0.win 3).blk t).view.emb j) 1).val = win0_1.index t (1 : Fin 2) * 512 + (j 1).val; omega
  · refine sblk_read V c t _ _ ?_ ?_
    · show ((((cfg0.win 3).blk t).view.emb j) 0).val = win0_2.index t (0 : Fin 2) * 1000 + (j 0).val; omega
    · show (0 : Nat) = win0_2.index t (1 : Fin 2) * 1 + 0; omega

/-- An index of the array is in point `t`'s block iff each coordinate is in the block's range on its axis. -/
theorem mem_blk (t : Fin cfg0.N) (i : S10000x512.Idx) :
    i ∈ ((cfg0.win 3).blk t).view.set ↔ ∀ a : Fin 2, win0_3.index t a * S1000x512.size a ≤ (i a).val
      ∧ (i a).val < win0_3.index t a * S1000x512.size a + S1000x512.size a := by
  show i ∈ ((View.whole main_v33).slice (win0_3.rect t)).set ↔ _
  rw [View.set_slice_whole, Rect.mem_set_unit]
  exact Iff.rfl

/-- The ten blocks of a thousand rows cover the array: row `r` is in the block of point `r / 1000`. -/
theorem covered (i : S10000x512.Idx) :
    ∃ t : Fin cfg0.N, (cfg0.win 3).flush t = true ∧ i ∈ ((cfg0.win 3).blk t).view.set := by
  have hi0 : (i 0).val < 10000 := (i 0).isLt
  have hi1 : (i 1).val < 512 := (i 1).isLt
  obtain ⟨t, ht⟩ := idx_onto ⟨(i 0).val / 1000, by omega⟩
  have q0 : win0_3.index t (0 : Fin 2) = (i 0).val / 1000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 512 ≤ (i 1).val ∧ (i 1).val < win0_3.index t (1 : Fin 2) * 512 + 512; omega

/-- The output array after the region is the array function of the three arrays as the region finds them. -/
theorem arr0_eq (c : Dev nD) :
    (dat0 (F := Ideal) V c).arrAt 3 cfg0.N = scaledProd (V c main_arg0) (V c main_arg2) (V c main_v32) :=
  (dat0 (F := Ideal) V c).arrAt_eq_of_cover 3 (scaledProd (V c main_arg0) (V c main_arg2) (V c main_v32))
    (fun t _ => flushed_eq V c t) covered

/-- After the region, entry (r, d) of the output array is row r of x against column d of W, times s r
    (x, W, s: what the three input arrays hold when the region is entered). -/
theorem arr0_apply (c : Dev nD) (r : Fin 10000) (d : Fin 512)
    (x : S10000x512.Idx → EReal) (w : S512x512.Idx → EReal) (s : S10000x1.Idx → EReal)
    (hx : V c main_arg0 = x) (hw : V c main_arg2 = w) (hs : V c main_v32 = s) :
    (dat0 (F := Ideal) V c).arrAt 3 cfg0.N (ValueIdx.ix2 r d)
      = (∑ q : Fin 512, x (ValueIdx.ix2 r q) * w (ValueIdx.ix2 q d)) * s (ValueIdx.ix2 r (0 : Fin 1)) := by
  subst hx hw hs
  rw [arr0_eq]
  rfl

end Cert.KernelIdeal.Val0

end
-- ==== Proof.KI.Val1.lean ====
/- What region 1 leaves in its output array at the ideal instance, index by index: entry (r, d) is row r of A
   against column d of H (the four column blocks of the contraction summed), scaled by entry r of the column s,
   plus entry d of the bias row b.

   The body's three values are read at an index (the reset is zero; the update adds row p of the block of A against
   column d of the block of H; the stored value is the sum times the row's scale plus the column's bias).  Each block
   is read at its place in its array: point t = 4 i + k holds rows 1280 i … of A and s, columns 2560 k … of A and the
   same rows of H.  By induction on the point, after point 4 i + k the running sum at (p, d) is row 1280 i + p of A
   against column d of H over the first 2560 (k + 1) columns; at k = 3 that is all 10240.  The points with k = 3
   write their blocks back, and those blocks cover every row. -/
import proofs.«418382_j13529146982751_3_alg».proof.Proof.KI.Region1
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val1

open Cert.KernelIdeal Cert.KernelIdeal.Gen
open Idealize.ShloMosaic Idealize.ShloMosaic.TcCoe Idealize.SL.Sem
open Idealize.ShloMosaic.Pipeline (Dat)
open Idealize.ShloMosaic.ValueIdx (ix2 eq_ix2)

/-! ## The body's three values at an index -/

/-- The reset value is zero everywhere. -/
theorem reset_apply (p : Fin 1280) (d : Fin 512) : k1_pay1 (F := Ideal) (ix2 p d) = 0 := by
  unfold k1_pay1
  refine (congrFun (shapeCast_self _ _) (ix2 p d)).trans ?_
  exact Ideal.ofBits_zero_f32

theorem lhs_row (i : S1280x512.Idx) (q : dot_S1280x2560_S2560x512_S1280x512_1_0_0_1_n_n.contr.Idx) :
    (dot_S1280x2560_S2560x512_S1280x512_1_0_0_1_n_n.lhsIdx i q 0).val = (i 0).val := by
  unfold DotDims.lhsIdx
  rw [dif_neg (show ¬(0 : Fin S1280x2560.rank) ∈ dot_S1280x2560_S2560x512_S1280x512_1_0_0_1_n_n.lhsBatch by decide), dif_pos (show (0 : Fin S1280x2560.rank) ∈ dot_S1280x2560_S2560x512_S1280x512_1_0_0_1_n_n.lhsNonContracting by decide)]
  rfl
theorem lhs_col (i : S1280x512.Idx) (q : dot_S1280x2560_S2560x512_S1280x512_1_0_0_1_n_n.contr.Idx) :
    (dot_S1280x2560_S2560x512_S1280x512_1_0_0_1_n_n.lhsIdx i q 1).val = (q ⟨0, by decide⟩).val :=
  dot_S1280x2560_S2560x512_S1280x512_1_0_0_1_n_n.lhsIdx_val_of_single rfl i q
theorem rhs_row (i : S1280x512.Idx) (q : dot_S1280x2560_S2560x512_S1280x512_1_0_0_1_n_n.contr.Idx) :
    (dot_S1280x2560_S2560x512_S1280x512_1_0_0_1_n_n.rhsIdx i q 0).val = (q ⟨0, by decide⟩).val :=
  dot_S1280x2560_S2560x512_S1280x512_1_0_0_1_n_n.rhsIdx_val_of_single rfl i q
theorem rhs_col (i : S1280x512.Idx) (q : dot_S1280x2560_S2560x512_S1280x512_1_0_0_1_n_n.contr.Idx) :
    (dot_S1280x2560_S2560x512_S1280x512_1_0_0_1_n_n.rhsIdx i q 1).val = (i 1).val := by
  unfold DotDims.rhsIdx
  rw [dif_neg (show ¬(1 : Fin S2560x512.rank) ∈ dot_S1280x2560_S2560x512_S1280x512_1_0_0_1_n_n.rhsBatch by decide), dif_pos (show (1 : Fin S2560x512.rank) ∈ dot_S1280x2560_S2560x512_S1280x512_1_0_0_1_n_n.rhsNonContracting by decide)]
  rfl

/-- The block product into the zero accumulator, at (p, d): row p of the left block against column d of the right. -/
theorem blockProduct_apply (a : FVec Ideal S1280x2560 .bf16) (h : FVec Ideal S2560x512 .bf16) (p : Fin 1280) (d : Fin 512) :
    FloatOps.matmul dot_S1280x2560_S2560x512_S1280x512_1_0_0_1_n_n none a h (constant S1280x512 .f32 0x00000000#32) (ix2 p d)
      = ∑ k : Fin 2560, a (ix2 p k) * h (ix2 k d) := by
  rw [Ideal.matmul_constant_zero_apply, ← Equiv.sum_comp (ValueIdx.contrEquiv1 dot_S1280x2560_S2560x512_S1280x512_1_0_0_1_n_n 2560 rfl rfl).symm]
  refine Finset.sum_congr rfl fun k _ => ?_
  have hk := ValueIdx.contrEquiv1_symm_val dot_S1280x2560_S2560x512_S1280x512_1_0_0_1_n_n 2560 rfl rfl k
  have el : dot_S1280x2560_S2560x512_S1280x512_1_0_0_1_n_n.lhsIdx (ix2 p d) ((ValueIdx.contrEquiv1 dot_S1280x2560_S2560x512_S1280x512_1_0_0_1_n_n 2560 rfl rfl).symm k) = ix2 p k := funext fun a => Fin.ext (by
    match a with
    | ⟨0, _⟩ => exact lhs_row _ _
    | ⟨1, _⟩ => exact (lhs_col _ _).trans hk)
  have er : dot_S1280x2560_S2560x512_S1280x512_1_0_0_1_n_n.rhsIdx (ix2 p d) ((ValueIdx.contrEquiv1 dot_S1280x2560_S2560x512_S1280x512_1_0_0_1_n_n 2560 rfl rfl).symm k) = ix2 k d := funext fun a => Fin.ext (by
    match a with
    | ⟨0, _⟩ => exact (rhs_row _ _).trans hk
    | ⟨1, _⟩ => exact rhs_col _ _)
  rw [el, er]

/-- The update at (p, d): the sum so far plus row p of the left block against column d of the right block. -/
theorem update_apply (acc : Vec Ideal S1280x512 .f32) (a : Vec Ideal S1280x2560 .bf16) (h : Vec Ideal S2560x512 .bf16)
    (p : Fin 1280) (d : Fin 512) :
    k1_pay2 acc a h (ix2 p d) = acc (ix2 p d) + ∑ k : Fin 2560, (a (ix2 p k) : EReal) * (h (ix2 k d) : EReal) := by
  unfold k1_pay2
  refine (congrFun (shapeCast_self _ _) (ix2 p d)).trans ?_
  refine (ValueIdx.addf_apply _ _ _).trans ?_
  refine congrArg (acc (ix2 p d) + ·) ?_
  have e1 : shapeCast S1280x2560 a shapeCasts_S1280x2560_S1280x2560 = a := shapeCast_self _ _
  have e2 : shapeCast S2560x512 h shapeCasts_S2560x512_S2560x512 = h := shapeCast_self _ _
  refine Eq.trans ?_ (blockProduct_apply a h p d)
  exact congrArg₂ (fun x y => FloatOps.matmul dot_S1280x2560_S2560x512_S1280x512_1_0_0_1_n_n none x y (constant S1280x512 .f32 0x00000000#32) (ix2 p d)) e1 e2

/-- The bias row spread over the rows: at (p, d) it is the row's entry d. -/
theorem biasRow_apply (b : S1x512.Idx → EReal) (p : Fin 1280) (d : Fin 512) :
    broadcastTo S1280x512 b broadcasts_S1x512_S1280x512 (ix2 p d) = b (ix2 (0 : Fin 1) d) :=
  broadcastTo_apply b _ (ix2 p d) (ix2 (0 : Fin 1) d) (fun a => by
    match a with
    | ⟨0, _⟩ => rfl
    | ⟨1, _⟩ => rfl)

/-- The column of scales spread over the columns: at (p, d) it is the column's entry p. -/
theorem scaleCol_apply (s : S1280x1.Idx → EReal) (p : Fin 1280) (d : Fin 512) :
    broadcastTo S1280x512 s broadcasts_S1280x1_S1280x512 (ix2 p d) = s (ix2 p (0 : Fin 1)) :=
  broadcastTo_apply s _ (ix2 p d) (ix2 p (0 : Fin 1)) (fun a => by
    match a with
    | ⟨0, _⟩ => rfl
    | ⟨1, _⟩ => rfl)

/-- The stored value at (p, d): the sum there times the scale of row p, plus the bias of column d. -/
theorem scaleBias_apply (b : Vec Ideal S1x512 .f32) (acc : Vec Ideal S1280x512 .f32) (s : Vec Ideal S1280x1 .f32)
    (p : Fin 1280) (d : Fin 512) :
    k1_pay3 b acc s (ix2 p d) = (acc (ix2 p d) : EReal) * (s (ix2 p (0 : Fin 1)) : EReal) + (b (ix2 (0 : Fin 1) d) : EReal) := by
  unfold k1_pay3
  refine (ValueIdx.addf_apply _ _ _).trans ?_
  refine congrArg₂ (· + ·) ?_ ?_
  · refine (ValueIdx.mulf_apply _ _ _).trans ?_
    refine congrArg (acc (ix2 p d) * ·) ?_
    exact (congrArg (fun x => broadcastTo S1280x512 x broadcasts_S1280x1_S1280x512 (ix2 p d)) (shapeCast_self s _)).trans
      (scaleCol_apply s p d)
  · exact (congrArg (fun x => broadcastTo S1280x512 x broadcasts_S1x512_S1280x512 (ix2 p d))
      ((congrArg (fun x => shapeCast S1x512 x shapeCasts_S1x512_S1x512) (shapeCast_self b _)).trans (shapeCast_self b _))).trans
      (biasRow_apply b p d)

/-! ## Where each block sits in its array -/

variable (V : (c : Dev nD) → (b : Ref sig .tc) → Buf (Elt Ideal) ((c : Thread nD τ).loc b))

abbrev arrA (c : Dev nD) : S10240x10240.Idx → EReal := V c main_v31
abbrev arrH (c : Dev nD) : S10240x512.Idx → EReal := V c main_v34
abbrev arrS (c : Dev nD) : S10240x1.Idx → EReal := V c main_v36
abbrev arrB (c : Dev nD) : S1x512.Idx → EReal := V c main_v37

/-- The block of `A` at a point. -/
abbrev blkA (c : Dev nD) (t : Fin cfg1.N) : S1280x2560.Idx → EReal := iblk1 V c 0 t
/-- The block of `H` at a point. -/
abbrev blkH (c : Dev nD) (t : Fin cfg1.N) : S2560x512.Idx → EReal := iblk1 V c 1 t
/-- The block of `s` at a point. -/
abbrev blkS (c : Dev nD) (t : Fin cfg1.N) : S1280x1.Idx → EReal := iblk1 V c 2 t
/-- The block of `b` at a point (the whole row). -/
abbrev blkB (c : Dev nD) (t : Fin cfg1.N) : S1x512.Idx → EReal := iblk1 V c 3 t

/-- The block indices over the grid: point t is at row block t / 4 and column block t % 4. -/
theorem blockIndex : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = 0 ∧ win1_3.index t (1 : Fin 2) = 0
    ∧ win1_4.index t (0 : Fin 2) = t.val / 4 ∧ win1_4.index t (1 : Fin 2) = 0 :=
  (by decide +kernel : ∀ t : Fin grid1.N, _)

/-- Row p of the row block of point t, in the arrays. -/
def rowAt (t : Fin cfg1.N) (p : Fin 1280) : Fin 10240 :=
  ⟨1280 * (t.val / 4) + p.val, by have := t.isLt; have : cfg1.N = 32 := N_1; omega⟩
/-- Column k of the column block of point t, in the contraction. -/
def colAt (t : Fin cfg1.N) (k : Fin 2560) : Fin 10240 :=
  ⟨2560 * (t.val % 4) + k.val, by omega⟩

theorem blkA_apply (c : Dev nD) (t : Fin cfg1.N) (p : Fin 1280) (k : Fin 2560) :
    blkA V c t (ix2 p k) = arrA V c (ix2 (rowAt t p) (colAt t k)) := by
  obtain ⟨e0, e1, -⟩ := blockIndex t
  show arrA V c (((cfg1.win 0).blk t).view.emb (ix2 p k)) = _
  refine congrArg (arrA V c) (funext fun a => Fin.ext ?_)
  match a with
  | ⟨0, _⟩ => show win1_0.index t (0 : Fin 2) * 1280 + 1 * p.val = 1280 * (t.val / 4) + p.val; omega
  | ⟨1, _⟩ => show win1_0.index t (1 : Fin 2) * 2560 + 1 * k.val = 2560 * (t.val % 4) + k.val; omega

theorem blkH_apply (c : Dev nD) (t : Fin cfg1.N) (k : Fin 2560) (d : Fin 512) :
    blkH V c t (ix2 k d) = arrH V c (ix2 (colAt t k) d) := by
  obtain ⟨-, -, e0, e1, -⟩ := blockIndex t
  show arrH V c (((cfg1.win 1).blk t).view.emb (ix2 k d)) = _
  refine congrArg (arrH V c) (funext fun a => Fin.ext ?_)
  match a with
  | ⟨0, _⟩ => show win1_1.index t (0 : Fin 2) * 2560 + 1 * k.val = 2560 * (t.val % 4) + k.val; omega
  | ⟨1, _⟩ => show win1_1.index t (1 : Fin 2) * 512 + 1 * d.val = d.val; omega

theorem blkS_apply (c : Dev nD) (t : Fin cfg1.N) (p : Fin 1280) :
    blkS V c t (ix2 p (0 : Fin 1)) = arrS V c (ix2 (rowAt t p) (0 : Fin 1)) := by
  obtain ⟨-, -, -, -, e0, e1, -⟩ := blockIndex t
  show arrS V c (((cfg1.win 2).blk t).view.emb (ix2 p (0 : Fin 1))) = _
  refine congrArg (arrS V c) (funext fun a => Fin.ext ?_)
  match a with
  | ⟨0, _⟩ => show win1_2.index t (0 : Fin 2) * 1280 + 1 * p.val = 1280 * (t.val / 4) + p.val; omega
  | ⟨1, _⟩ => show win1_2.index t (1 : Fin 2) * 1 + 1 * 0 = 0; omega

theorem blkB_apply (c : Dev nD) (t : Fin cfg1.N) (d : Fin 512) :
    blkB V c t (ix2 (0 : Fin 1) d) = arrB V c (ix2 (0 : Fin 1) d) := by
  obtain ⟨-, -, -, -, -, -, e0, e1, -⟩ := blockIndex t
  show arrB V c (((cfg1.win 3).blk t).view.emb (ix2 (0 : Fin 1) d)) = _
  refine congrArg (arrB V c) (funext fun a => Fin.ext ?_)
  match a with
  | ⟨0, _⟩ => show win1_3.index t (0 : Fin 2) * 1 + 1 * 0 = 0; omega
  | ⟨1, _⟩ => show win1_3.index t (1 : Fin 2) * 512 + 1 * d.val = d.val; omega

/-! ## The running sum -/

/-- Entry j of row r of `A` times entry j of column d of `H`; zero past the last column. -/
def term (c : Dev nD) (r : Fin 10240) (d : Fin 512) (j : ℕ) : EReal :=
  if h : j < 10240 then arrA V c (ix2 r ⟨j, h⟩) * arrH V c (ix2 ⟨j, h⟩ d) else 0

/-- Row p of a block of `A` against column d of the block of `H` it meets: the terms of that column block. -/
theorem blockSum (c : Dev nD) (t : Fin cfg1.N) (p : Fin 1280) (d : Fin 512) :
    ∑ k : Fin 2560, blkA V c t (ix2 p k) * blkH V c t (ix2 k d)
      = ∑ k ∈ Finset.range 2560, term V c (rowAt t p) d (2560 * (t.val % 4) + k) := by
  rw [Finset.sum_range]
  refine Finset.sum_congr rfl fun k _ => ?_
  rw [blkA_apply, blkH_apply]
  unfold term
  rw [dif_pos (show 2560 * (t.val % 4) + k.val < 10240 by omega)]
  rfl

/-- At the first point of a row block the sum restarts: it is the first column block's terms. -/
theorem acc_restart (c : Dev nD) (t : Fin cfg1.N) (h : t.val % 4 = 0) (p : Fin 1280) (d : Fin 512) :
    (accAt1 V c t.val t.isLt (ix2 p d) : EReal)
      = ∑ j ∈ Finset.range (2560 * (t.val % 4 + 1)), term V c (rowAt t p) d j := by
  refine (congrFun (accAt1_reset V c t h) (ix2 p d)).trans ?_
  refine (update_apply (k1_pay1 (F := Ideal)) (blkA V c t) (blkH V c t) p d).trans ?_
  rw [reset_apply, zero_add, blockSum, show 2560 * (t.val % 4 + 1) = 2560 by omega]
  refine Finset.sum_congr rfl fun k _ => ?_
  exact congrArg (term V c (rowAt t p) d) (by omega)

/-- After point n = 4 i + k the sum at (p, d) is row 1280 i + p of `A` against column d of `H` over the
    first 2560 (k + 1) columns. -/
theorem acc_apply (c : Dev nD) : ∀ (n : ℕ) (hn : n < cfg1.N) (p : Fin 1280) (d : Fin 512),
    (accAt1 V c n hn (ix2 p d) : EReal)
      = ∑ j ∈ Finset.range (2560 * (n % 4 + 1)), term V c (rowAt ⟨n, hn⟩ p) d j := by
  intro n
  induction n with
  | zero => intro hn p d; exact acc_restart V c ⟨0, hn⟩ rfl p d
  | succ n ih =>
    intro hn p d
    by_cases h : (n + 1) % 4 = 0
    · exact acc_restart V c ⟨n + 1, hn⟩ h p d
    · refine (congrFun (accAt1_step V c ⟨n + 1, hn⟩ h) (ix2 p d)).trans ?_
      refine (update_apply (accAt1 V c n (Nat.lt_of_succ_lt hn)) (blkA V c ⟨n + 1, hn⟩) (blkH V c ⟨n + 1, hn⟩) p d).trans ?_
      have hr : rowAt ⟨n, Nat.lt_of_succ_lt hn⟩ p = rowAt ⟨n + 1, hn⟩ p :=
        Fin.ext (by show 1280 * (n / 4) + p.val = 1280 * ((n + 1) / 4) + p.val; omega)
      rw [ih (Nat.lt_of_succ_lt hn) p d, blockSum, hr,
        show 2560 * ((n + 1) % 4 + 1) = 2560 * (n % 4 + 1) + 2560 by omega, Finset.sum_range_add]
      refine congrArg (_ + ·) (Finset.sum_congr rfl fun k _ => ?_)
      exact congrArg (term V c (rowAt ⟨n + 1, hn⟩ p) d) (by show 2560 * ((n + 1) % 4) + k = 2560 * (n % 4 + 1) + k; omega)

/-- After the last point of a row block the sum runs over all 10240 columns. -/
theorem acc_full (c : Dev nD) (t : Fin cfg1.N) (h : t.val % 4 = 3) (p : Fin 1280) (d : Fin 512) :
    (accAt1 V c t.val t.isLt (ix2 p d) : EReal)
      = ∑ j : Fin 10240, arrA V c (ix2 (rowAt t p) j) * arrH V c (ix2 j d) := by
  refine (acc_apply V c t.val t.isLt p d).trans ?_
  rw [show 2560 * (t.val % 4 + 1) = 10240 by omega, Finset.sum_range]
  refine Finset.sum_congr rfl fun j _ => ?_
  unfold term
  rw [dif_pos j.isLt]

/-! ## The output array -/

/-- What the output array ends holding: at (r, d), row r of `A` against column d of `H`, times the scale of row r,
    plus the bias of column d. -/
def result (c : Dev nD) : S10240x512.Idx → EReal := fun i =>
  (∑ j : Fin 10240, arrA V c (ix2 (i 0) j) * arrH V c (ix2 j (i 1))) * arrS V c (ix2 (i 0) (0 : Fin 1))
    + arrB V c (ix2 (0 : Fin 1) (i 1))

/-- Entry (p, d) of the output block of point t is entry (1280 (t / 4) + p, d) of the output array. -/
theorem outBlock_emb (t : Fin cfg1.N) (p : Fin 1280) (d : Fin 512) :
    (((cfg1.win 4).blk t).view.emb (ix2 p d) : S10240x512.Idx) = ix2 (rowAt t p) d := by
  obtain ⟨-, -, -, -, -, -, -, -, e0, e1⟩ := blockIndex t
  refine funext fun a => Fin.ext ?_
  match a with
  | ⟨0, _⟩ => show win1_4.index t (0 : Fin 2) * 1280 + 1 * p.val = 1280 * (t.val / 4) + p.val; omega
  | ⟨1, _⟩ => show win1_4.index t (1 : Fin 2) * 512 + 1 * d.val = d.val; omega

/-- What a point that ends a row block writes back is its block of `result`. -/
theorem flushed_eq (c : Dev nD) (t : Fin cfg1.N) (hf : (cfg1.win 4).flush t = true) :
    (dat1 (F := Ideal) V c).flushed 4 t = ((cfg1.win 4).blk t).view.read (Elt Ideal) (result V c) := by
  have h3 : t.val % 4 = 3 := (flush1_4 t).mp hf
  show (cfg1.win 4).cut (grid1.coords t) ((dat1 (F := Ideal) V c).after 4 t) = _
  rw [after1_4 V c t h3]
  funext y
  obtain ⟨p, d, rfl⟩ : ∃ (p : Fin 1280) (d : Fin 512), y = ix2 p d := ⟨y 0, y 1, eq_ix2 y⟩
  show k1_pay3 (blkB V c t) (accAt1 V c t.val t.isLt) (blkS V c t) (ix2 p d)
    = result V c (((cfg1.win 4).blk t).view.emb (ix2 p d))
  rw [outBlock_emb]
  refine (scaleBias_apply (blkB V c t) (accAt1 V c t.val t.isLt) (blkS V c t) p d).trans ?_
  rw [acc_full V c t h3, blkS_apply, blkB_apply]
  rfl

/-- An index of the output array is in the block of point t iff each coordinate is in the block's range. -/
theorem mem_outBlock (t : Fin cfg1.N) (i : S10240x512.Idx) :
    i ∈ ((cfg1.win 4).blk t).view.set ↔ ∀ a : Fin 2, win1_4.index t a * S1280x512.size a ≤ (i a).val ∧ (i a).val < win1_4.index t a * S1280x512.size a + S1280x512.size a := by
  show i ∈ ((View.whole main_v38).slice (win1_4.rect t)).set ↔ _
  rw [View.set_slice_whole, Rect.mem_set_unit]
  exact Iff.rfl

/-- Every row is in the block written back by the last point of its row block. -/
theorem covered (i : S10240x512.Idx) :
    ∃ t : Fin cfg1.N, (cfg1.win 4).flush t = true ∧ i ∈ ((cfg1.win 4).blk t).view.set := by
  have hi0 : (i 0).val < 10240 := (i 0).isLt
  have hi1 : (i 1).val < 512 := (i 1).isLt
  have hN : cfg1.N = 32 := N_1
  obtain ⟨t, ht⟩ : ∃ t : Fin cfg1.N, t.val = 4 * ((i 0).val / 1280) + 3 := ⟨⟨4 * ((i 0).val / 1280) + 3, by omega⟩, rfl⟩
  obtain ⟨-, -, -, -, -, -, -, -, e0, e1⟩ := blockIndex t
  refine ⟨t, (flush1_4 t).mpr (by omega), ?_⟩
  rw [mem_outBlock]
  intro a
  match a with
  | ⟨0, _⟩ => show win1_4.index t (0 : Fin 2) * 1280 ≤ (i 0).val ∧ (i 0).val < win1_4.index t (0 : Fin 2) * 1280 + 1280; omega
  | ⟨1, _⟩ => show win1_4.index t (1 : Fin 2) * 512 ≤ (i 1).val ∧ (i 1).val < win1_4.index t (1 : Fin 2) * 512 + 512; omega

/-- After the region the output array holds `result`. -/
theorem arr1_eq (c : Dev nD) : (dat1 (F := Ideal) V c).arrAt 4 cfg1.N = result V c :=
  (dat1 (F := Ideal) V c).arrAt_eq_of_cover 4 (result V c) (fun t hf => flushed_eq V c t hf) covered

/-- After the region, entry (r, d) of the output array is row r of A against column d of H (all 10240 columns,
    the four column blocks summed), times s r, plus b d: over the arrays the region is entered with. -/
theorem arr1_apply (c : Dev nD) (r : Fin 10240) (d : Fin 512) :
    (dat1 (F := Ideal) V c).arrAt 4 cfg1.N (ValueIdx.ix2 r d)
      = (∑ j : Fin 10240, arrA V c (ValueIdx.ix2 r j) * arrH V c (ValueIdx.ix2 j d)) * arrS V c (ValueIdx.ix2 r (0 : Fin 1))
        + arrB V c (ValueIdx.ix2 (0 : Fin 1) d) :=
  congrFun (arr1_eq V c) (ix2 r d)

/-- The same with the four arrays named: whatever the proof knows them to be. -/
theorem arr1_apply_of_eq (c : Dev nD) (r : Fin 10240) (d : Fin 512)
    (A : S10240x10240.Idx → EReal) (H : S10240x512.Idx → EReal) (s : S10240x1.Idx → EReal) (b : S1x512.Idx → EReal)
    (hA : V c main_v31 = A) (hH : V c main_v34 = H) (hs : V c main_v36 = s) (hb : V c main_v37 = b) :
    (dat1 (F := Ideal) V c).arrAt 4 cfg1.N (ValueIdx.ix2 r d)
      = (∑ j : Fin 10240, A (ValueIdx.ix2 r j) * H (ValueIdx.ix2 j d)) * s (ValueIdx.ix2 r (0 : Fin 1)) + b (ValueIdx.ix2 (0 : Fin 1) d) := by
  subst hA hH hs hb
  exact arr1_apply V c r d

end Cert.KernelIdeal.Val1

end
-- ==== Proof.PreFacts.lean ====
/-
  What the printed precondition says, decoded.

  The precondition is a conjunction of four all-reductions: every entry of x, of W and of b has absolute value
  below +∞, and every word of the edge table, read signed, is at least 0 and below 10000. Where the printed
  function is all ones at the ideal instance, the float entries are therefore real numbers, and (at any float
  instance) every word of the edge table is a node number.

  The second half reads the message words: under the range fact a word of the table is its own node number, and a
  self loop's word k - 160000 is below 10000 outright, so the signed reading of a message's source (target) word is
  the number of its source (target) node.
-/
import proofs.«418382_j13529146982751_3_alg».proof.Pre_finite_inputs
import proofs.«418382_j13529146982751_3_alg».proof.Proof.Spec
import Idealize.ShloMosaic.PureOps.Ideal
import Idealize.ShloMosaic.Lib.ReduceAll
import Idealize.ShloMosaic.Lib.StableHlo.Predicate
import Idealize.ShloMosaic.Lib.ValueIdx

noncomputable section

open Idealize.ShloMosaic Idealize.ShloMosaic.ValueIdx

namespace Cert.PreFacts

open Cert.Pre_finite_inputs

/-- The rank-0 shape has one index. -/
instance : Subsingleton S_.Idx := ⟨fun a b => funext fun d => d.elim0⟩

/-! ## One element of each compared array -/

/-- A word at least 0 and below 10000, both compared signed, lies in [0, 10000) read signed. -/
theorem word_inRange (w : BitVec 32) (h0 : IntOp.cmpi .sge w 0#32 = 1#1) (h1 : IntOp.cmpi .slt w 10000#32 = 1#1) :
    0 ≤ w.toInt ∧ w.toInt < 10000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (10000#32 : BitVec 32).toInt = 10000 := by decide
  rw [e0] at h0
  rw [e1] at h1
  exact ⟨h0, h1⟩

/-- The pattern 0x7F800000 (exponent all ones, fraction zero, sign clear) denotes +∞. -/
theorem inf_pattern : Ideal.ofBits .f32 0x7F800000#32 = (⊤ : EReal) := by
  simp [Ideal.ofBits, Ideal.ieee]

/-- An extended real whose absolute value max v (-v) is strictly below +∞ is a real number: at ⊥ and at ⊤ the
    absolute value is ⊤. -/
theorem real_of_abs_lt (v : EReal)
    (h : FloatOps.cmpf (F := Ideal) (φ := .f32) CmpFPredicate.olt (FloatOps.absf (F := Ideal) (φ := .f32) v)
      (FloatOps.ofBits (F := Ideal) .f32 0x7F800000#32) = 1#1) :
    ∃ r : ℝ, v = (r : EReal) := by
  change Ideal.cmp .olt (max v (-v)) (Ideal.ofBits .f32 0x7F800000#32) = 1#1 at h
  rw [inf_pattern] at h
  unfold Ideal.cmp at h
  rw [StableHlo.Predicate.ofBool_eq_one_iff, decide_eq_true_eq] at h
  induction v using EReal.rec with
  | bot => simp at h
  | coe r => exact ⟨r, rfl⟩
  | top => simp at h

/-! ## The four all-reductions -/

/-- Where the all-reduction of "|v| < +∞" over an array is 1, every entry of the array is a real number. -/
theorem all_real {s : Shape} {axes : List (Fin s.rank)} (v : FVec Ideal s .f32)
    (hb : S_.BroadcastsInDim s (![] : Fin 0 → Fin s.rank)) (hr : s.ReducesTo axes S_) (h0 : 0 < S_.numel)
    (h : Host.reduce IntOp.andi
          (cmpf CmpFPredicate.olt (Host.absf v) (broadcastInDim s ![] hb (constant (F := Ideal) S_ FTy.f32 0x7F800000#32)))
          (constantI S_ 1 1#1) hr h0 ix0 = 1#1) (j : s.Idx) : ∃ r : ℝ, v j = (r : EReal) :=
  real_of_abs_lt (v j) (Host.reduce_andi_all _ _ hr h0 ix0 h j)

/-- Where the all-reduction of "0 ≤ w and w < 10000" over the edge table is 1, every word is a node number. -/
theorem all_inRange (e : IVec S2x160000 32)
    (hb : S_.BroadcastsInDim S2x160000 (![] : Fin 0 → Fin S2x160000.rank)) (hr : S2x160000.ReducesTo [0, 1] S_)
    (h0 : 0 < S_.numel)
    (h : Host.reduce IntOp.andi
          (andi (cmpi .sge e (broadcastInDim S2x160000 ![] hb (constantI S_ 32 0#32)))
            (cmpi .slt e (broadcastInDim S2x160000 ![] hb (constantI S_ 32 10000#32))))
          (constantI S_ 1 1#1) hr h0 ix0 = 1#1) : Cert.Spec.InRange e := by
  intro j
  have hj := Host.reduce_andi_all _ _ hr h0 ix0 h j
  change IntOp.andi (IntOp.cmpi .sge (e j) 0#32) (IntOp.cmpi .slt (e j) 10000#32) = 1#1 at hj
  obtain ⟨h1, h2⟩ := IntOp.andi_eq_one.1 hj
  exact word_inRange (e j) h1 h2

/-! ## The printed function, split at its conjunctions -/

/-- The same index-range fact at ANY float instance (the word-level program needs it too): the integer part of the
    precondition does not depend on the floats. -/
theorem inRange_of_pre {F : FTy → Type} [FloatOps F] [Cert.Pre_finite_inputs.Facts]
    (x : FVec F Cert.Pre_finite_inputs.S10000x512 .f32) (e : IVec Cert.Pre_finite_inputs.S2x160000 32)
    (W : FVec F Cert.Pre_finite_inputs.S512x512 .f32) (b : FVec F Cert.Pre_finite_inputs.S512 .f32)
    (h : Cert.Pre_finite_inputs.fn (F := F) x e W b = fun _ => 1#1) : Cert.Spec.InRange e := by
  have h0 := congrFun h ValueIdx.ix0
  dsimp only [Cert.Pre_finite_inputs.fn, Cert.Pre_finite_inputs.fn_part1] at h0
  change IntOp.andi _ _ = 1#1 at h0
  exact all_inRange e _ _ _ (IntOp.andi_eq_one.1 h0).2

/-- Where the printed precondition is all ones at the ideal instance, every entry of x and W is a real number and
    every word of the edge table is a node number. -/
theorem of_pre [Cert.Pre_finite_inputs.Facts]
    (x : FVec Ideal Cert.Pre_finite_inputs.S10000x512 .f32) (e : IVec Cert.Pre_finite_inputs.S2x160000 32)
    (W : FVec Ideal Cert.Pre_finite_inputs.S512x512 .f32) (b : FVec Ideal Cert.Pre_finite_inputs.S512 .f32)
    (h : Cert.Pre_finite_inputs.fn (F := Ideal) x e W b = fun _ => 1#1) :
    (∀ j, ∃ r : ℝ, x j = (r : EReal)) ∧ (∀ j, ∃ r : ℝ, W j = (r : EReal)) ∧ Cert.Spec.InRange e := by
  have h0 := congrFun h ValueIdx.ix0
  dsimp only [Cert.Pre_finite_inputs.fn, Cert.Pre_finite_inputs.fn_part1] at h0
  change IntOp.andi (IntOp.andi (IntOp.andi _ _) _) _ = 1#1 at h0
  obtain ⟨h123, -⟩ := IntOp.andi_eq_one.1 h0
  obtain ⟨h12, -⟩ := IntOp.andi_eq_one.1 h123
  obtain ⟨h1, h2⟩ := IntOp.andi_eq_one.1 h12
  exact ⟨all_real x _ _ _ h1, all_real W _ _ _ h2, inRange_of_pre x e W b h⟩

end Cert.PreFacts

namespace Cert.Spec

/-- A word in [0, 10000) read signed is its own residue modulo 10000 read unsigned. -/
theorem toInt_eq_mod (w : BitVec 32) (h0 : 0 ≤ w.toInt) (h1 : w.toInt < 10000) : w.toInt = ((w.toNat % 10000 : ℕ) : ℤ) := by
  rw [BitVec.toInt_eq_toNat_cond] at h0 h1 ⊢
  have := w.isLt
  split at h0 <;> omega

/-- The word of a self loop: a number below 10000 is its own signed reading and its own residue. -/
theorem toInt_ofNat_eq_mod (n : ℕ) (hn : n < 10000) :
    (BitVec.ofNat 32 n).toInt = (((BitVec.ofNat 32 n).toNat % 10000 : ℕ) : ℤ) := by
  rw [StableHlo.Predicate.toInt_ofNat_small _ (by omega)]
  simp only [BitVec.toNat_ofNat]
  omega

/-- Under `InRange` the source word, read signed, IS the source node's number (for an edge by the range fact; for
    a self loop k - 160000 < 10000 directly). -/
theorem srcW_toInt {e : EdgeTab} (h : InRange e) (k : Fin 170000) : (srcW e k).toInt = ((srcF e k).val : ℤ) := by
  show (srcW e k).toInt = (((srcW e k).toNat % 10000 : ℕ) : ℤ)
  unfold srcW
  split
  · rename_i hk
    exact toInt_eq_mod _ (h _).1 (h _).2
  · rename_i hk
    have hk2 := k.isLt
    exact toInt_ofNat_eq_mod _ (by omega)

/-- Likewise the target word is the target node's number. -/
theorem dstW_toInt {e : EdgeTab} (h : InRange e) (k : Fin 170000) : (dstW e k).toInt = ((dstF e k).val : ℤ) := by
  show (dstW e k).toInt = (((dstW e k).toNat % 10000 : ℕ) : ℤ)
  unfold dstW
  split
  · rename_i hk
    exact toInt_eq_mod _ (h _).1 (h _).2
  · rename_i hk
    have hk2 := k.isLt
    exact toInt_ofNat_eq_mod _ (by omega)

end Cert.Spec

end
-- ==== Proof.IndexOps.lean ====
/-
  The host's accumulating scatters and its gathers of this certificate, read at one index at the ideal
  instance.

  All five operations work "along axis 0 by one index column": message k (k = 0 … 169999) carries a node number
  in column 0 of an index array (and, for the scatter by pairs, a second one in column 1). Read at an index,

    • an accumulating scatter is the operand's entry plus the sum of the updates of the messages whose index
      word, read signed, names that entry (a message whose word names no entry contributes nothing);
    • a gather at a message whose index word is in range is the operand's entry (or row) the word names.

  Each statement is about an arbitrary record of dimension numbers whose fields are the stated lists.

  The road for a scatter: an update lands at entry i exactly when on every axis its window's start plus its
  window coordinate is i's coordinate; on the axis the index column names the start is the index word and the
  window coordinate is 0, on a window axis the start is 0 and the window coordinate is the update's own; so the
  set of updates landing at i is cut out by "the index word is i" (and "the column is c"), and the sum over it
  is re-indexed by the message number.
-/
import Idealize.ShloMosaic.PureOps.Ideal
import Idealize.ShloMosaic.Lib.ValueIdx

noncomputable section

open scoped BigOperators

namespace Cert.IndexOps

open Idealize.ShloMosaic Idealize.ShloMosaic.ValueIdx

abbrev V10000 : Shape := ⟨1, ![10000]⟩
abbrev V170000 : Shape := ⟨1, ![170000]⟩
abbrev M170000x1 : Shape := ⟨2, ![170000, 1]⟩
abbrev M170000x2 : Shape := ⟨2, ![170000, 2]⟩
abbrev M10000x512 : Shape := ⟨2, ![10000, 512]⟩
abbrev M170000x512 : Shape := ⟨2, ![170000, 512]⟩
abbrev M10240x10240 : Shape := ⟨2, ![10240, 10240]⟩

/-! ## Where an update lands, and sums over a rank-1 index set -/

/-- An update lands at entry i exactly when, on every axis, its window's start plus its window coordinate is i's
    coordinate: a landing point outside the operand is no entry's. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq, funext_iff]
    refine forall_congr' fun a => ?_
    rw [Fin.ext_iff]
    have := (h a).1
    show (d.start j idx a + (d.window j a : ℤ)).toNat = (i a).val ↔ _
    omega
  · rename_i h
    refine ⟨fun hn => (by cases hn), fun hall => absurd (fun a => ?_) h⟩
    have := (i a).isLt
    rw [hall a]
    omega

/-- A rank-1 index set is its one coordinate's range … -/
def idxEquiv1 {n : Nat} : (⟨1, ![n]⟩ : Shape).Idx ≃ Fin n where
  toFun j := j 0
  invFun k := ix1 k
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ k : Fin n, f (ix1 k) := by
  rw [← Equiv.sum_comp (idxEquiv1 (n := n)).symm f]
  rfl

/-! ## The scatter of rows: starts and window coordinates, axis by axis -/

section Rows
variable (d : ScatterDims M10000x512 M170000x1 M170000x512) (h1 : d.updateWindowDims = [1]) (h2 : d.insertedWindowDims = [0])
    (h3 : d.scatterDimsToOperandDims = [0]) (h4 : d.indexVectorDim = 1)
include h1 h2 h3 h4

/-- On the row axis the window of update (k, c) starts at message k's index word. -/
theorem rowScatter_start_row (idx : IVec M170000x1 32) (k : Fin 170000) (c : Fin 512) :
    d.start (ix2 k c) idx 0 = (idx (ix2 k (0 : Fin 1))).toInt := by
  obtain ⟨uw, iw, sd, iv, wf⟩ := d
  obtain rfl : uw = [1] := h1
  obtain rfl : iw = [0] := h2
  obtain rfl : sd = [0] := h3
  obtain rfl : iv = 1 := h4
  unfold ScatterDims.start
  rw [dif_pos (show (0 : Fin 2) ∈ [(0 : Fin 2)] from List.mem_singleton.mpr rfl)]
  congr 2
  funext b
  refine Fin.ext ?_
  match b with
  | ⟨0, _⟩ => rfl
  | ⟨1, _⟩ => rfl

/-- On the column axis, which the index column does not name, it starts at 0. -/
theorem rowScatter_start_col (idx : IVec M170000x1 32) (k : Fin 170000) (c : Fin 512) :
    d.start (ix2 k c) idx 1 = 0 := by
  obtain ⟨uw, iw, sd, iv, wf⟩ := d
  obtain rfl : uw = [1] := h1
  obtain rfl : iw = [0] := h2
  obtain rfl : sd = [0] := h3
  obtain rfl : iv = 1 := h4
  unfold ScatterDims.start
  rw [dif_neg (show (1 : Fin 2) ∉ [(0 : Fin 2)] by decide)]

/-- The row axis is inserted: no window coordinate. -/
theorem rowScatter_window_row (k : Fin 170000) (c : Fin 512) : d.window (ix2 k c) 0 = 0 := by
  obtain ⟨uw, iw, sd, iv, wf⟩ := d
  obtain rfl : uw = [1] := h1
  obtain rfl : iw = [0] := h2
  obtain rfl : sd = [0] := h3
  obtain rfl : iv = 1 := h4
  unfold ScatterDims.window
  rw [dif_neg (show (0 : Fin 2) ∉ Shape.kept M10000x512 [(0 : Fin 2)] by decide)]

/-- The column axis is the window: its coordinate is the update's column. -/
theorem rowScatter_window_col (k : Fin 170000) (c : Fin 512) : d.window (ix2 k c) 1 = c.val := by
  obtain ⟨uw, iw, sd, iv, wf⟩ := d
  obtain rfl : uw = [1] := h1
  obtain rfl : iw = [0] := h2
  obtain rfl : sd = [0] := h3
  obtain rfl : iv = 1 := h4
  unfold ScatterDims.window
  rw [dif_pos (show (1 : Fin 2) ∈ Shape.kept M10000x512 [(0 : Fin 2)] by decide)]
  rfl

end Rows

/-! ## The scatter into a vector -/

section Vec
variable (d : ScatterDims V10000 M170000x1 V170000) (h1 : d.updateWindowDims = []) (h2 : d.insertedWindowDims = [0])
    (h3 : d.scatterDimsToOperandDims = [0]) (h4 : d.indexVectorDim = 1)
include h1 h2 h3 h4

/-- The window of update k starts at message k's index word. -/
theorem vecScatter_start (idx : IVec M170000x1 32) (k : Fin 170000) :
    d.start (ix1 k) idx 0 = (idx (ix2 k (0 : Fin 1))).toInt := by
  obtain ⟨uw, iw, sd, iv, wf⟩ := d
  obtain rfl : uw = [] := h1
  obtain rfl : iw = [0] := h2
  obtain rfl : sd = [0] := h3
  obtain rfl : iv = 1 := h4
  unfold ScatterDims.start
  rw [dif_pos (show (0 : Fin 1) ∈ [(0 : Fin 1)] from List.mem_singleton.mpr rfl)]
  congr 2
  funext b
  refine Fin.ext ?_
  match b with
  | ⟨0, _⟩ => rfl
  | ⟨1, _⟩ => rfl

/-- The one axis is inserted: no window coordinate. -/
theorem vecScatter_window (k : Fin 170000) : d.window (ix1 k) 0 = 0 := by
  obtain ⟨uw, iw, sd, iv, wf⟩ := d
  obtain rfl : uw = [] := h1
  obtain rfl : iw = [0] := h2
  obtain rfl : sd = [0] := h3
  obtain rfl : iv = 1 := h4
  unfold ScatterDims.window
  rw [dif_neg (show (0 : Fin 1) ∉ Shape.kept V10000 [(0 : Fin 1)] by decide)]

end Vec

/-! ## The scatter by pairs -/

section Pairs
variable (d : ScatterDims M10240x10240 M170000x2 V170000) (h1 : d.updateWindowDims = []) (h2 : d.insertedWindowDims = [0, 1])
    (h3 : d.scatterDimsToOperandDims = [0, 1]) (h4 : d.indexVectorDim = 1)
include h1 h2 h3 h4

/-- On the row axis the window of update k starts at message k's first index word. -/
theorem pairScatter_start_row (idx : IVec M170000x2 32) (k : Fin 170000) :
    d.start (ix1 k) idx 0 = (idx (ix2 k (0 : Fin 2))).toInt := by
  obtain ⟨uw, iw, sd, iv, wf⟩ := d
  obtain rfl : uw = [] := h1
  obtain rfl : iw = [0, 1] := h2
  obtain rfl : sd = [0, 1] := h3
  obtain rfl : iv = 1 := h4
  unfold ScatterDims.start
  rw [dif_pos (show (0 : Fin 2) ∈ [(0 : Fin 2), 1] by decide)]
  congr 2
  funext b
  refine Fin.ext ?_
  match b with
  | ⟨0, _⟩ => rfl
  | ⟨1, _⟩ => rfl

/-- On the column axis it starts at message k's second index word. -/
theorem pairScatter_start_col (idx : IVec M170000x2 32) (k : Fin 170000) :
    d.start (ix1 k) idx 1 = (idx (ix2 k (1 : Fin 2))).toInt := by
  obtain ⟨uw, iw, sd, iv, wf⟩ := d
  obtain rfl : uw = [] := h1
  obtain rfl : iw = [0, 1] := h2
  obtain rfl : sd = [0, 1] := h3
  obtain rfl : iv = 1 := h4
  unfold ScatterDims.start
  rw [dif_pos (show (1 : Fin 2) ∈ [(0 : Fin 2), 1] by decide)]
  congr 2
  funext b
  refine Fin.ext ?_
  match b with
  | ⟨0, _⟩ => rfl
  | ⟨1, _⟩ => rfl

/-- Both axes are inserted: no window coordinate. -/
theorem pairScatter_window (k : Fin 170000) (a : Fin 2) : d.window (ix1 k) a = 0 := by
  obtain ⟨uw, iw, sd, iv, wf⟩ := d
  obtain rfl : uw = [] := h1
  obtain rfl : iw = [0, 1] := h2
  obtain rfl : sd = [0, 1] := h3
  obtain rfl : iv = 1 := h4
  unfold ScatterDims.window
  rw [dif_neg (show a ∉ Shape.kept M10240x10240 [(0 : Fin 2), 1] by revert a; decide)]

end Pairs

/-! ## The three scatters read at an entry -/

/-- An accumulating scatter into a vector: entry i receives the updates of the messages whose index word, read signed, is i. -/
theorem scatterAdd_vec (d : ScatterDims V10000 M170000x1 V170000) (h1 : d.updateWindowDims = []) (h2 : d.insertedWindowDims = [0])
    (h3 : d.scatterDimsToOperandDims = [0]) (h4 : d.indexVectorDim = 1)
    (x : V10000.Idx → EReal) (idx : IVec M170000x1 32) (upd : V170000.Idx → EReal) (i : Fin 10000) :
    Ideal.hostScatterAdd d x idx upd (ix1 i)
      = x (ix1 i) + ∑ k ∈ Finset.univ.filter (fun k : Fin 170000 => (idx (ix2 k (0 : Fin 1))).toInt = (i.val : ℤ)), upd (ix1 k) := by
  -- update k lands at entry i exactly when its index word is i
  have key : ∀ k : Fin 170000,
      d.resultIdx? (ix1 k) idx = some (ix1 i) ↔ (idx (ix2 k (0 : Fin 1))).toInt = (i.val : ℤ) := by
    intro k
    rw [resultIdx?_eq_some_iff, Fin.forall_fin_one, vecScatter_start d h1 h2 h3 h4, vecScatter_window d h1 h2 h3 h4]
    show _ + ((0 : ℕ) : ℤ) = (i.val : ℤ) ↔ _
    omega
  unfold Ideal.hostScatterAdd
  refine congrArg (x (ix1 i) + ·) ?_
  rw [Finset.sum_filter, Finset.sum_filter, sum_idx1]
  exact Finset.sum_congr rfl fun k _ => if_congr (key k) rfl rfl

/-- An accumulating scatter of rows: row i, column c receives column c of the update rows of the messages whose index word is i. -/
theorem scatterAdd_rows (d : ScatterDims M10000x512 M170000x1 M170000x512) (h1 : d.updateWindowDims = [1]) (h2 : d.insertedWindowDims = [0])
    (h3 : d.scatterDimsToOperandDims = [0]) (h4 : d.indexVectorDim = 1)
    (x : M10000x512.Idx → EReal) (idx : IVec M170000x1 32) (upd : M170000x512.Idx → EReal) (i : Fin 10000) (c : Fin 512) :
    Ideal.hostScatterAdd d x idx upd (ix2 i c)
      = x (ix2 i c) + ∑ k ∈ Finset.univ.filter (fun k : Fin 170000 => (idx (ix2 k (0 : Fin 1))).toInt = (i.val : ℤ)), upd (ix2 k c) := by
  -- update (k, c') lands at entry (i, c) exactly when message k's index word is i and c' is c
  have key : ∀ (k : Fin 170000) (c' : Fin 512),
      d.resultIdx? (ix2 k c') idx = some (ix2 i c) ↔ (idx (ix2 k (0 : Fin 1))).toInt = (i.val : ℤ) ∧ c' = c := by
    intro k c'
    rw [resultIdx?_eq_some_iff, Fin.forall_fin_two, rowScatter_start_row d h1 h2 h3 h4, rowScatter_start_col d h1 h2 h3 h4,
      rowScatter_window_row d h1 h2 h3 h4, rowScatter_window_col d h1 h2 h3 h4]
    show _ + ((0 : ℕ) : ℤ) = (i.val : ℤ) ∧ (0 : ℤ) + (c'.val : ℤ) = (c.val : ℤ) ↔ _
    rw [Fin.ext_iff]; omega
  unfold Ideal.hostScatterAdd
  refine congrArg (x (ix2 i c) + ·) ?_
  -- the sum over the pairs (k, c') as a double sum; in the inner one only c' = c contributes
  rw [Finset.sum_filter, Finset.sum_filter, sum_idx2]
  refine Finset.sum_congr rfl fun k _ => ?_
  rw [Finset.sum_eq_single c]
  · exact if_congr ((key k c).trans (and_iff_left rfl)) rfl rfl
  · intro c' _ hne
    exact if_neg fun h => hne ((key k c').1 h).2
  · intro h; exact absurd (Finset.mem_univ c) h

/-- An accumulating scatter of scalars into a matrix by a pair of index words (row, column). -/
theorem scatterAdd_pairs (d : ScatterDims M10240x10240 M170000x2 V170000) (h1 : d.updateWindowDims = []) (h2 : d.insertedWindowDims = [0, 1])
    (h3 : d.scatterDimsToOperandDims = [0, 1]) (h4 : d.indexVectorDim = 1)
    (x : M10240x10240.Idx → EReal) (idx : IVec M170000x2 32) (upd : V170000.Idx → EReal) (i j : Fin 10240) :
    Ideal.hostScatterAdd d x idx upd (ix2 i j)
      = x (ix2 i j) + ∑ k ∈ Finset.univ.filter (fun k : Fin 170000 =>
          (idx (ix2 k (0 : Fin 2))).toInt = (i.val : ℤ) ∧ (idx (ix2 k (1 : Fin 2))).toInt = (j.val : ℤ)), upd (ix1 k) := by
  -- update k lands at entry (i, j) exactly when its two index words are i and j
  have key : ∀ k : Fin 170000,
      d.resultIdx? (ix1 k) idx = some (ix2 i j)
        ↔ (idx (ix2 k (0 : Fin 2))).toInt = (i.val : ℤ) ∧ (idx (ix2 k (1 : Fin 2))).toInt = (j.val : ℤ) := by
    intro k
    rw [resultIdx?_eq_some_iff, Fin.forall_fin_two, pairScatter_start_row d h1 h2 h3 h4, pairScatter_start_col d h1 h2 h3 h4,
      pairScatter_window d h1 h2 h3 h4, pairScatter_window d h1 h2 h3 h4]
    show _ + ((0 : ℕ) : ℤ) = (i.val : ℤ) ∧ _ + ((0 : ℕ) : ℤ) = (j.val : ℤ) ↔ _
    omega
  unfold Ideal.hostScatterAdd
  refine congrArg (x (ix2 i j) + ·) ?_
  rw [Finset.sum_filter, Finset.sum_filter, sum_idx1]
  exact Finset.sum_congr rfl fun k _ => if_congr (key k) rfl rfl

/-! ## The two gathers read at a message -/

/-- A gather from a vector at an in-range index word reads that entry. -/
theorem gather_vec {α : Type} (d : GatherDims V10000 M170000x1 V170000) (h1 : d.offsetDims = []) (h2 : d.collapsedSliceDims = [0])
    (h3 : d.operandBatchingDims = []) (h4 : d.startIndicesBatchingDims = []) (h5 : d.startIndexMap = [0]) (h6 : d.indexVectorDim = 1)
    (h7 : d.sliceSizes = ![1]) (x : V10000.Idx → α) (idx : IVec M170000x1 32) (k : Fin 170000) (j : Fin 10000)
    (hj : (idx (ix2 k (0 : Fin 1))).toInt = (j.val : ℤ)) : Host.gather d x idx (ix1 k) = x (ix1 j) := by
  obtain ⟨od, cd, ob, sb, sm, iv, ss, wf⟩ := d
  obtain rfl : od = [] := h1
  obtain rfl : cd = [0] := h2
  obtain rfl : ob = [] := h3
  obtain rfl : sb = [] := h4
  obtain rfl : sm = [0] := h5
  obtain rfl : iv = 1 := h6
  obtain rfl : ss = ![1] := h7
  unfold Host.gather
  refine congrArg x ?_
  funext a
  obtain rfl : a = 0 := Subsingleton.elim _ _
  refine Fin.ext ?_
  -- the operand coordinate: the clamped start, no batching coordinate, no offset coordinate (the axis is collapsed)
  show GatherDims.start _ (ix1 k) idx 0 + GatherDims.batchCoord _ (ix1 k) 0 + GatherDims.offCoord _ (ix1 k) 0 = j.val
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ [(0 : Fin 1)] from List.mem_singleton.mpr rfl)]
  have hsi : ∀ p, GatherDims.siIdx (⟨[], [0], [], [], [0], 1, ![1], wf⟩ : GatherDims V10000 M170000x1 V170000) (ix1 k)
      ⟨List.idxOf (0 : Fin 1) [(0 : Fin 1)], p⟩ = ix2 k (0 : Fin 1) := by
    intro p
    funext b; refine Fin.ext ?_
    match b with
    | ⟨0, _⟩ => rfl
    | ⟨1, _⟩ => rfl
  rw [hsi, hj]
  -- the word is j, below 10000: the clamp into [0, 9999] keeps it
  show min (j.val : ℤ).toNat (10000 - 1) + 0 + 0 = j.val
  have := j.isLt
  rw [Int.toNat_natCast]
  omega

/-- A gather of whole rows at an in-range index word reads that row. -/
theorem gather_rows {α : Type} (d : GatherDims M10000x512 M170000x1 M170000x512) (h1 : d.offsetDims = [1]) (h2 : d.collapsedSliceDims = [0])
    (h3 : d.operandBatchingDims = []) (h4 : d.startIndicesBatchingDims = []) (h5 : d.startIndexMap = [0]) (h6 : d.indexVectorDim = 1)
    (h7 : d.sliceSizes = ![1, 512]) (x : M10000x512.Idx → α) (idx : IVec M170000x1 32) (k : Fin 170000) (c : Fin 512) (j : Fin 10000)
    (hj : (idx (ix2 k (0 : Fin 1))).toInt = (j.val : ℤ)) : Host.gather d x idx (ix2 k c) = x (ix2 j c) := by
  obtain ⟨od, cd, ob, sb, sm, iv, ss, wf⟩ := d
  obtain rfl : od = [1] := h1
  obtain rfl : cd = [0] := h2
  obtain rfl : ob = [] := h3
  obtain rfl : sb = [] := h4
  obtain rfl : sm = [0] := h5
  obtain rfl : iv = 1 := h6
  obtain rfl : ss = ![1, 512] := h7
  unfold Host.gather
  refine congrArg x ?_
  funext a
  refine Fin.ext ?_
  match a with
  | ⟨0, _⟩ =>
    -- the row coordinate: the clamped start, no batching coordinate, no offset coordinate (the axis is collapsed)
    show GatherDims.start _ (ix2 k c) idx 0 + GatherDims.batchCoord _ (ix2 k c) 0 + GatherDims.offCoord _ (ix2 k c) 0 = j.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ [(0 : Fin 2)] from List.mem_singleton.mpr rfl)]
    have hsi : ∀ p, GatherDims.siIdx (⟨[1], [0], [], [], [0], 1, ![1, 512], wf⟩ : GatherDims M10000x512 M170000x1 M170000x512) (ix2 k c)
        ⟨List.idxOf (0 : Fin 2) [(0 : Fin 2)], p⟩ = ix2 k (0 : Fin 1) := by
      intro p
      funext b; refine Fin.ext ?_
      match b with
      | ⟨0, _⟩ => rfl
      | ⟨1, _⟩ => rfl
    rw [hsi, hj]
    show min (j.val : ℤ).toNat (10000 - 1) + 0 + 0 = j.val
    have := j.isLt
    rw [Int.toNat_natCast]
    omega
  | ⟨1, _⟩ =>
    -- the column coordinate: start 0 (the index column does not name this axis), no batching coordinate, the
    -- result's own column as offset
    show GatherDims.start _ (ix2 k c) idx 1 + GatherDims.batchCoord _ (ix2 k c) 1 + GatherDims.offCoord _ (ix2 k c) 1 = c.val
    rw [GatherDims.batchCoord_eq_zero _ _ _ List.not_mem_nil]
    unfold GatherDims.start GatherDims.offCoord
    rw [dif_neg (show (1 : Fin 2) ∉ [(0 : Fin 2)] by decide),
      dif_pos (show (1 : Fin 2) ∈ Shape.kept M10000x512 ([(0 : Fin 2)] ++ []) by decide)]
    show 0 + 0 + c.val = c.val
    omega

/-! ## Two float words -/

/-- The float words 0.0 and 1.0 denote the extended reals 0 and 1. -/
theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

end Cert.IndexOps

end
-- ==== Proof.HostChain.lean ====
/-
  The host stretch both programs begin with, read at one index: the message tables built from the edge table
  (the edges' words followed by the self loops `0, 1, …, 9999`), an index vector kept as a column, the
  normalisation of a non-negative index word (the identity), and the degree factor
  `deg^(-1/2)` (0 where the degree is not positive), where the degree is the accumulating scatter of ones along
  the target words.

  Every statement takes the side conditions of the layout operations (a slice, a shape cast, a concatenation, a
  broadcast) as arbitrary hypotheses and the scatter's dimension numbers as an arbitrary record with the stated
  fields, so that it rewrites either program's text.
-/
import proofs.«418382_j13529146982751_3_alg».proof.Proof.Spec
import proofs.«418382_j13529146982751_3_alg».proof.Proof.IndexOps
import proofs.«418382_j13529146982751_3_alg».proof.Proof.PreFacts
import Idealize.ShloMosaic.Lib.Pipeline.Value
import Idealize.ShloMosaic.Lib.StableHlo.Predicate

noncomputable section

open scoped BigOperators

namespace Cert.HostChain

open Idealize.ShloMosaic Idealize.ShloMosaic.ValueIdx

abbrev S_ : Shape := ⟨0, ![]⟩
abbrev S10000 : Shape := ⟨1, ![10000]⟩
abbrev S160000 : Shape := ⟨1, ![160000]⟩
abbrev S170000 : Shape := ⟨1, ![170000]⟩
abbrev S1x160000 : Shape := ⟨2, ![1, 160000]⟩
abbrev S2x160000 : Shape := ⟨2, ![2, 160000]⟩
abbrev S170000x1 : Shape := ⟨2, ![170000, 1]⟩

/-- The two message tables' common form: row `r` of the edge table laid out as a vector, followed by the self loops.
    Below 160000 the concatenation reads its first piece, whose shape cast and slice read the edge table at
    `(r, k)`; from 160000 on it reads the second piece, the position counted from its start. -/
theorem row_then_loops (e : Cert.Spec.EdgeTab) (r : Fin 2) (off : Fin S2x160000.rank → Nat) (h0 : off 0 = r.val) (h1 : off 1 = 0)
    (hs : S2x160000.Slices off S1x160000) (hc : S1x160000.ShapeCasts S160000)
    (hcat : Shape.Concatenates [S160000, S10000] S170000 0) (k : Fin 170000) :
    concatenate S170000 0 [⟨S160000, shapeCast S160000 (extractStridedSlice S1x160000 off e hs) hc⟩,
      ⟨S10000, iotaInDim S10000 32 0⟩] hcat (ix1 k)
      = if h : k.val < 160000 then e (ix2 r ⟨k.val, h⟩) else BitVec.ofNat 32 (k.val - 160000) := by
  by_cases hk : k.val < 160000
  · rw [dif_pos hk]
    refine (concatenate_pair_apply_left (0 : Fin S170000.rank) _ _ hcat (ix1 k) rfl (ix1 ⟨k.val, hk⟩) ?_).trans ?_
    · intro b; match b with | ⟨0, _⟩ => rfl
    refine (shapeCast_apply _ hc (ix1 ⟨k.val, hk⟩) (ix2 (0 : Fin 1) ⟨k.val, hk⟩) ?_).trans ?_
    · rw [Shape.rowMajor_val_two, Shape.rowMajor_val_one]
      show 0 * 160000 + k.val = k.val
      omega
    refine extractStridedSlice_apply off e hs _ (ix2 r ⟨k.val, hk⟩) ?_
    intro a
    match a with
    | ⟨0, _⟩ => show r.val = off 0 + 0; omega
    | ⟨1, _⟩ => show k.val = off 1 + k.val; omega
  · rw [dif_neg hk]
    have hk' : k.val - 160000 < 10000 := by have := k.isLt; omega
    refine (concatenate_pair_apply_right (0 : Fin S170000.rank) _ _ hcat (ix1 k) rfl rfl (ix1 ⟨k.val - 160000, hk'⟩) ?_ ?_).trans ?_
    · intro b hb
      exact absurd (Subsingleton.elim (α := Fin 1) _ _) hb
    · show (k.val - 160000) + 160000 = k.val
      omega
    · rfl

/-- The source words: row 0 of the edge table, then the self loops. -/
theorem src_words (e : Cert.Spec.EdgeTab) (hs : S2x160000.Slices ![0, 0] S1x160000) (hc : S1x160000.ShapeCasts S160000)
    (hcat : Shape.Concatenates [S160000, S10000] S170000 0) (k : Fin 170000) :
    concatenate S170000 0 [⟨S160000, shapeCast S160000 (extractStridedSlice S1x160000 ![0, 0] e hs) hc⟩,
      ⟨S10000, iotaInDim S10000 32 0⟩] hcat (ix1 k) = Cert.Spec.srcW e k := by
  exact row_then_loops e 0 ![0, 0] rfl rfl hs hc hcat k

/-- The target words: row 1 of the edge table, then the self loops. -/
theorem dst_words (e : Cert.Spec.EdgeTab) (hs : S2x160000.Slices ![1, 0] S1x160000) (hc : S1x160000.ShapeCasts S160000)
    (hcat : Shape.Concatenates [S160000, S10000] S170000 0) (k : Fin 170000) :
    concatenate S170000 0 [⟨S160000, shapeCast S160000 (extractStridedSlice S1x160000 ![1, 0] e hs) hc⟩,
      ⟨S10000, iotaInDim S10000 32 0⟩] hcat (ix1 k) = Cert.Spec.dstW e k := by
  exact row_then_loops e 1 ![1, 0] rfl rfl hs hc hcat k

/-- A vector kept as a one-column matrix reads, at row `k`, the vector at `k`. -/
theorem index_col {α : Type} (hb : S170000.BroadcastsInDim S170000x1 (![0] : Fin 1 → Fin S170000x1.rank))
    (v : S170000.Idx → α) (k : Fin 170000) :
    broadcastInDim S170000x1 ![0] hb v (ix2 k (0 : Fin 1)) = v (ix1 k) := by
  have hrow : (StableHlo.Predicate.ixP k : S170000x1.Idx) = ix2 k (0 : Fin 1) := by
    funext a; match a with | ⟨0, _⟩ => rfl | ⟨1, _⟩ => rfl
  have hvec : (Shape.Idx.ofFin k : S170000.Idx) = ix1 k := by
    funext a; match a with | ⟨0, _⟩ => rfl
  have := StableHlo.Predicate.bcast_col1 hb v k
  rw [hrow, hvec] at this
  exact this

/-- Normalising an index word that is non-negative read signed leaves it as it is. -/
theorem wrap_id (hb0 : S_.BroadcastsInDim S170000 (![] : Fin 0 → Fin S170000.rank)) (N : BitVec 32) (v : IVec S170000 32)
    (k : Fin 170000) (h : 0 ≤ (v (ix1 k)).toInt) :
    select (cmpi .slt v (broadcastInDim S170000 ![] hb0 (constantI S_ 32 0#32)))
      (addi v (broadcastInDim S170000 ![] hb0 (constantI S_ 32 N))) v (ix1 k) = v (ix1 k) := by
  have hlt : (v (ix1 k)).slt 0#32 = false := by
    have h0 : (0#32 : BitVec 32).toInt = 0 := by decide
    rw [BitVec.slt, h0]
    exact decide_eq_false (by omega)
  have hcmp : cmpi .slt v (broadcastInDim S170000 ![] hb0 (constantI S_ 32 0#32)) (ix1 k) = 0#1 := by
    show BitVec.ofBool ((v (ix1 k)).slt 0#32) = 0#1
    rw [hlt]
    rfl
  rw [select_apply, hcmp, select_zero]

/-- The degree factor the host computes at node `i` is `dis`: the scatter of ones along the target words is the degree,
    and the guarded inverse square root is taken of it. -/
theorem dis_apply (d : ScatterDims S10000 S170000x1 S170000) (h1 : d.updateWindowDims = []) (h2 : d.insertedWindowDims = [0])
    (h3 : d.scatterDimsToOperandDims = [0]) (h4 : d.indexVectorDim = 1)
    (e : Cert.Spec.EdgeTab) (he : Cert.Spec.InRange e) (idx : IVec S170000x1 32)
    (hidx : ∀ k : Fin 170000, idx (ix2 k (0 : Fin 1)) = Cert.Spec.dstW e k)
    (zeros zeros' zeros'' : FVec Ideal S10000 .f32) (hz : ∀ i, zeros i = 0) (hz' : ∀ i, zeros' i = 0) (hz'' : ∀ i, zeros'' i = 0)
    (ones : FVec Ideal S170000 .f32) (hone : ∀ k, ones k = 1) (i : Fin 10000) :
    select (cmpf (F := Ideal) .ogt (Host.scatterAdd d zeros idx ones) zeros') (Host.rsqrt (Host.scatterAdd d zeros idx ones)) zeros'' (ix1 i)
      = Cert.Spec.dis 1 (Cert.Spec.dstF e) i := by
  have hdeg : Host.scatterAdd d zeros idx ones (ix1 i) = Cert.Spec.deg 1 (Cert.Spec.dstF e) i := by
    show Ideal.hostScatterAdd d zeros idx ones (ix1 i) = _
    have hfilter : Finset.univ.filter (fun k : Fin 170000 => (idx (ix2 k (0 : Fin 1))).toInt = (i.val : ℤ))
        = Finset.univ.filter (fun k : Fin 170000 => Cert.Spec.dstF e k = i) := by
      refine Finset.filter_congr (fun k _ => ?_)
      rw [hidx k, Cert.Spec.dstW_toInt he k, Int.natCast_inj, ← Fin.ext_iff]
    rw [Cert.IndexOps.scatterAdd_vec d h1 h2 h3 h4, hz, zero_add, hfilter]
    unfold Cert.Spec.deg
    exact Finset.sum_congr rfl (fun k _ => hone _)
  rw [select_apply]
  show Scalar.select (Ideal.cmp .ogt (Host.scatterAdd d zeros idx ones (ix1 i)) (zeros' (ix1 i)))
      (Ideal.rsqrt (Host.scatterAdd d zeros idx ones (ix1 i))) (zeros'' (ix1 i)) = _
  rw [hdeg, hz', hz'']
  unfold Cert.Spec.dis
  by_cases hp : 0 < Cert.Spec.deg 1 (Cert.Spec.dstF e) i
  · have hc : Ideal.cmp .ogt (Cert.Spec.deg 1 (Cert.Spec.dstF e) i) 0 = 1#1 := by
      show BitVec.ofBool (decide (0 < Cert.Spec.deg 1 (Cert.Spec.dstF e) i)) = 1#1
      rw [decide_eq_true hp]
      rfl
    rw [hc, select_one, if_pos hp]
  · have hc : Ideal.cmp .ogt (Cert.Spec.deg 1 (Cert.Spec.dstF e) i) 0 = 0#1 := by
      show BitVec.ofBool (decide (0 < Cert.Spec.deg 1 (Cert.Spec.dstF e) i)) = 0#1
      rw [decide_eq_false hp]
      rfl
    rw [hc, select_zero, if_neg hp]

/-- The float word 1.0 broadcast to any shape reads 1 everywhere. -/
theorem ones_apply {t : Shape} (hb : S_.BroadcastsInDim t (![] : Fin 0 → Fin t.rank)) (j : t.Idx) :
    broadcastInDim t ![] hb (constant (F := Ideal) S_ .f32 0x3F800000#32) j = 1 := by
  show Ideal.ofBits .f32 0x3F800000#32 = 1
  exact Cert.IndexOps.ofBits_one

/-- The float word 0.0 broadcast to any shape reads 0 everywhere. -/
theorem zeros_apply {t : Shape} (hb : S_.BroadcastsInDim t (![] : Fin 0 → Fin t.rank)) (j : t.Idx) :
    broadcastInDim t ![] hb (constant (F := Ideal) S_ .f32 0x00000000#32) j = 0 := by
  show Ideal.ofBits .f32 0x00000000#32 = 0
  exact Cert.IndexOps.ofBits_zero

end Cert.HostChain

end
-- ==== Proof.KI.KHost.lean ====
/-
  The values of the kernel program's host operations at the ideal instance, read at an index.

  Around its two kernel regions the program computes on the host. Before region 0: the message words (a row of the
  edge table followed by the self loops), the degree (ones scattered along the target words) and the degree factor
  deg^(-1/2) (0 where the degree is not positive), the dense count matrix (one unit per message, scattered at the pair
  (normalised target word, normalised source word)) and the degree factor as a column. Between the regions: region 0's
  result and the degree column, each padded below with 240 zero rows, and the bias as a row. After region 1: the first
  10000 rows of its result.

  Each host stretch is first read over ARBITRARY contents of the buffers it reads and does not write, as the composition
  of its operations; the contents the program really has there are then supplied stretch by stretch ("an item leaves a
  buffer it does not write unchanged"). Under the range fact the normalisation of an index word is the identity and a
  message word read signed is its node's number, so the scattered count matrix is `adj` and the degree chain is `dis`.
-/
import proofs.«418382_j13529146982751_3_alg».proof.Proof.Gen.KernelIdeal.Regions
import proofs.«418382_j13529146982751_3_alg».proof.Proof.Spec
import proofs.«418382_j13529146982751_3_alg».proof.Proof.PreFacts
import proofs.«418382_j13529146982751_3_alg».proof.Proof.IndexOps
import proofs.«418382_j13529146982751_3_alg».proof.Proof.HostChain
import Idealize.ShloMosaic.PureOps.Ideal
import Idealize.ShloMosaic.Lib.ValueIdx
import Idealize.ShloMosaic.Lib.ValueLayout
import Idealize.ShloMosaic.Lib.KernelVsHost
import Idealize.ShloMosaic.Lib.Pipeline.Value
import Idealize.ShloMosaic.Lib.StableHlo.Run

noncomputable section

namespace Cert.KernelIdeal.KHost

open Cert.KernelIdeal Cert.KernelIdeal.Gen
open Idealize.ShloMosaic Idealize.ShloMosaic.TcCoe Idealize.SL.Sem
open Idealize.ShloMosaic.ValueIdx

/-! ## The host stretches before region 0, over any contents of the buffers they read

  Each statement reads one buffer a stretch writes, as the composition of the stretch's operations applied to the
  contents `V` holds at the buffers the stretch reads and does not write. -/

section Stretches

variable (V : Valuation τ sig (Elt Ideal))

/-- Row `r` of the edge table followed by the self loops `0, 1, …, 9999`: the message words. -/
abbrev rowLoops (r : ℕ) (hs : S2x160000.Slices ![r, 0] S1x160000) (t : S2x160000.Idx → BitVec 32) : S170000.Idx → BitVec 32 :=
  concatenate S170000 0 [⟨S160000, shapeCast S160000 (extractStridedSlice S1x160000 ![r, 0] t hs) shapeCasts_S1x160000_S160000⟩,
    ⟨S10000, iotaInDim S10000 32 0⟩] concatenates_S160000_S10000_S170000_d0

/-- The normalisation of an index word: a negative word is moved up by 10240. -/
abbrev wrap (v : S170000.Idx → BitVec 32) : S170000.Idx → BitVec 32 :=
  select (cmpi .slt v (broadcastInDim S170000 ![] bcast_S_S170000 (constantI S_ 32 0#32)))
    (addi v (broadcastInDim S170000 ![] bcast_S_S170000 (constantI S_ 32 10240#32))) v

/-- The degree: ones scattered along the target words into a vector of zeros. -/
abbrev degv (t : S2x160000.Idx → BitVec 32) : S10000.Idx → EReal :=
  Host.scatterAdd (F := Ideal) scatter_S10000_S170000x1_S170000_n_0_0_1
    (broadcastInDim S10000 ![] bcast_S_S10000 (constant (F := Ideal) S_ .f32 0x00000000#32))
    (broadcastInDim S170000x1 ![0] bcast_S170000_S170000x1_0 (rowLoops 1 slices_S2x160000_S1x160000_1_0 t))
    (broadcastInDim S170000 ![] bcast_S_S170000 (constant (F := Ideal) S_ .f32 0x3F800000#32))

set_option maxHeartbeats 4000000 in
theorem s0_v3 : (StableHlo.after hostOps0 V (Proc.devRef .tc main_v3) : S170000.Idx → BitVec 32)
    = rowLoops 0 slices_S2x160000_S1x160000_0_0 (V (Proc.devRef .tc main_arg1)) := by
  after_results
  rfl

set_option maxHeartbeats 4000000 in
theorem s0_v6 : (StableHlo.after hostOps0 V (Proc.devRef .tc main_v6) : S170000.Idx → BitVec 32)
    = rowLoops 1 slices_S2x160000_S1x160000_1_0 (V (Proc.devRef .tc main_arg1)) := by
  after_results
  rfl

set_option maxHeartbeats 4000000 in
theorem s0_v12 : (StableHlo.after hostOps0 V (Proc.devRef .tc main_v12) : S10000.Idx → BitVec 1)
    = cmpf (F := Ideal) .ogt (degv (V (Proc.devRef .tc main_arg1)))
        (broadcastInDim S10000 ![] bcast_S_S10000 (constant (F := Ideal) S_ .f32 0x00000000#32)) := by
  after_results
  rfl

set_option maxHeartbeats 4000000 in
theorem s0_v13 : (StableHlo.after hostOps0 V (Proc.devRef .tc main_v13) : S10000.Idx → EReal)
    = Host.rsqrt (F := Ideal) (φ := .f32) (degv (V (Proc.devRef .tc main_arg1))) := by
  after_results
  rfl

set_option maxHeartbeats 4000000 in
theorem s0_cst2 : (StableHlo.after hostOps0 V (Proc.devRef .tc main_cst_2) : S_.Idx → EReal)
    = constant (F := Ideal) S_ .f32 0x00000000#32 := by
  after_results

set_option maxHeartbeats 4000000 in
theorem s1_v14 : (StableHlo.after hostOps0_1 V (Proc.devRef .tc main_v14) : S10000.Idx → EReal)
    = select (V (Proc.devRef .tc main_v12) : S10000.Idx → BitVec 1) (V (Proc.devRef .tc main_v13) : S10000.Idx → EReal)
        (broadcastInDim S10000 ![] bcast_S_S10000 (V (Proc.devRef .tc main_cst_2) : S_.Idx → EReal)) := by
  after_results
  simp only [StableHlo.TRef.ofBuf, StableHlo.TRef.toBuf, cast_eq, id]

set_option maxHeartbeats 4000000 in
theorem s2_v31 : (StableHlo.after hostOps0_2 V (Proc.devRef .tc main_v31) : S10240x10240.Idx → EReal)
    = truncf (F := Ideal) .bf16
        (Host.scatterAdd (F := Ideal) scatter_S10240x10240_S170000x2_S170000_n_01_01_1
          (broadcastInDim S10240x10240 ![] bcast_S_S10240x10240 (constant (F := Ideal) S_ .f32 0x00000000#32))
          (concatenate S170000x2 1
            [⟨S170000x1, broadcastInDim S170000x1 ![0] bcast_S170000_S170000x1_0 (wrap (V (Proc.devRef .tc main_v6)))⟩,
             ⟨S170000x1, broadcastInDim S170000x1 ![0] bcast_S170000_S170000x1_0 (wrap (V (Proc.devRef .tc main_v3)))⟩]
            concatenates_S170000x1_S170000x1_S170000x2_d1)
          (broadcastInDim S170000 ![] bcast_S_S170000 (constant (F := Ideal) S_ .f32 0x3F800000#32)))
        bitsLt_bf16_f32 := by
  after_results

theorem s2_v32 : (StableHlo.after hostOps0_2 V (Proc.devRef .tc main_v32) : S10000x1.Idx → EReal)
    = shapeCast S10000x1 (V (Proc.devRef .tc main_v14) : S10000.Idx → EReal) shapeCasts_S10000_S10000x1 := by
  after_results_simp
  rfl

end Stretches

section Stretches2

variable (V : Valuation τ sig (Elt Ideal))

theorem s12_v35 : (StableHlo.after hostOps1_2 V (Proc.devRef .tc main_v35) : S10000x1.Idx → EReal)
    = shapeCast S10000x1 (V (Proc.devRef .tc main_v14) : S10000.Idx → EReal) shapeCasts_S10000_S10000x1 := by
  after_results
  rfl

theorem s12_c9 : (StableHlo.after hostOps1_2 V (Proc.devRef .tc main_c_9) : S_.Idx → BitVec 32) = constantI S_ 32 0#32 := by
  after_results

theorem s13_v36 : (StableHlo.after hostOps1_3 V (Proc.devRef .tc main_v36) : S10240x1.Idx → EReal)
    = pad S10240x1 ![0, 0] ![240, 0] ![0, 0] (V (Proc.devRef .tc main_v35) : S10000x1.Idx → EReal)
        (sitofp (F := Ideal) .f32 (V (Proc.devRef .tc main_c_9) : S_.Idx → BitVec 32)) pads_S10000x1_S10240x1_02400_000 h_S_ := by
  after_results
  simp only [StableHlo.TRef.ofBuf, StableHlo.TRef.toBuf, cast_eq]

end Stretches2

variable (m : (ℓ : Loc nD τ sig) → Buf (Elt Ideal) ℓ) (outs : Outs (F := Ideal)) (c : Dev nD)

set_option quotPrecheck false in
/-- The edge table core `c` was launched with. -/
local notation "e" => (m ((c.tc : Thread nD τ).loc main_arg1) : Cert.Spec.EdgeTab)

/-! ## Buffers no item writes -/

/-- No host operation before region 0 writes x. -/
theorem arg0_V3 : V3 m c main_arg0 = m ((c.tc : Thread nD τ).loc main_arg0) :=
  (V3_of m c main_arg0 (by decide)).trans <| (V2_of m c main_arg0 (by decide)).trans <| (V1_of m c main_arg0 (by decide)).trans rfl

/-- No host operation before region 0 writes W. -/
theorem arg2_V3 : V3 m c main_arg2 = m ((c.tc : Thread nD τ).loc main_arg2) :=
  (V3_of m c main_arg2 (by decide)).trans <| (V2_of m c main_arg2 (by decide)).trans <| (V1_of m c main_arg2 (by decide)).trans rfl

/-- No item after the third host stretch writes the count matrix. -/
theorem v31_V9 : V9 m outs c main_v31 = V3 m c main_v31 :=
  (V9_of m outs c main_v31 (by decide)).trans <| (V8_of m outs c main_v31 (by decide)).trans <|
    (V7_of m outs c main_v31 (by decide)).trans <| (V6_of m outs c main_v31 (by decide)).trans <|
    (V5_of m outs c main_v31 (by decide)).trans <| V4_of m outs c main_v31 (by decide)

/-- The bias reaches the last host stretch before region 1 as launched. -/
theorem arg3_V8 : V8 m outs c main_arg3 = m ((c.tc : Thread nD τ).loc main_arg3) :=
  (V8_of m outs c main_arg3 (by decide)).trans <| (V7_of m outs c main_arg3 (by decide)).trans <|
    (V6_of m outs c main_arg3 (by decide)).trans <| (V5_of m outs c main_arg3 (by decide)).trans <|
    (V4_of m outs c main_arg3 (by decide)).trans <| (V3_of m c main_arg3 (by decide)).trans <|
    (V2_of m c main_arg3 (by decide)).trans <| (V1_of m c main_arg3 (by decide)).trans rfl

/-- After region 0 its output array holds what the region left. -/
theorem v33_V4 : V4 m outs c main_v33 = outs 4 main_v33 c := by
  show Function.update (V3 m c) (Proc.devRef .tc main_v33) (outs 4 main_v33 c) (Proc.devRef .tc main_v33) = _
  rw [Function.update_self]

/-- After region 1 its output array holds what the region left. -/
theorem v38_V10 : V10 m outs c main_v38 = outs 10 main_v38 c := by
  show Function.update (V9 m outs c) (Proc.devRef .tc main_v38) (outs 10 main_v38 c) (Proc.devRef .tc main_v38) = _
  rw [Function.update_self]

/-! ## The padding value -/

/-- The integer word 0 converted to a float is 0, at either format. -/
theorem pad_value (φ : FTy) (i : S_.Idx) : (sitofp (F := Ideal) φ (constantI S_ 32 0#32) : FVec Ideal S_ φ) i = (0 : EReal) := by
  show (((0#32 : BitVec 32).toInt : ℝ) : EReal) = 0
  rw [show (0#32 : BitVec 32).toInt = 0 from by decide]
  simp

/-! ## The result: the first 10000 rows of region 1's output -/

theorem v39_eq : (V11 m outs c main_v39 : S10000x512.Idx → EReal)
    = extractStridedSlice S10000x512 ![0, 0] (outs 10 main_v38 c : S10240x512.Idx → EReal) slices_S10240x512_S10000x512_0_0 := by
  show StableHlo.after hostOps2 _ (Proc.devRef .tc main_v39) = _
  after_results
  exact congrArg (fun x => extractStridedSlice S10000x512 ![0, 0] x slices_S10240x512_S10000x512_0_0) (v38_V10 m outs c)

/-- The program's result: the first 10000 rows of region 1's result. -/
theorem v39_apply (r : Fin 10000) (d : Fin 512) :
    (V11 m outs c main_v39 : S10000x512.Idx → EReal) (ix2 r d)
      = (outs 10 main_v38 c : S10240x512.Idx → EReal) (ix2 (⟨r.val, by omega⟩ : Fin 10240) d) := by
  rw [v39_eq]
  exact slice2_axis0_apply 0 _ _ r d ⟨r.val, by omega⟩ (by simp)

/-! ## Region 0's output padded with 240 zero rows -/

theorem v34_V6 : (V6 m outs c main_v34 : S10240x512.Idx → EReal)
    = pad S10240x512 ![0, 0] ![240, 0] ![0, 0] (outs 4 main_v33 c : S10000x512.Idx → EReal)
        (sitofp (F := Ideal) .bf16 (constantI S_ 32 0#32)) pads_S10000x512_S10240x512_02400_000 h_S_ := by
  show StableHlo.after hostOps1_1 _ (Proc.devRef .tc main_v34) = _
  after_results
  simp only [StableHlo.TRef.ofBuf, StableHlo.TRef.toBuf, cast_eq]
  exact congrArg (fun x => pad S10240x512 ![0, 0] ![240, 0] ![0, 0] x (sitofp (F := Ideal) .bf16 (constantI S_ 32 0#32))
    pads_S10000x512_S10240x512_02400_000 h_S_) (v33_V4 m outs c)

/-- A matrix padded below with rows of the value `v`: above the cut it is the matrix, below it the value. -/
theorem pad_rows_apply {n N w : Nat} (hi : Nat) (x : (⟨2, ![n, w]⟩ : Shape).Idx → EReal) (v : S_.Idx → EReal)
    (h : (⟨2, ![n, w]⟩ : Shape).Pads ![0, 0] ![hi, 0] ![0, 0] ⟨2, ![N, w]⟩) (hu : 0 < S_.numel) (hv : ∀ i, v i = 0)
    (j : Fin N) (d : Fin w) :
    pad ⟨2, ![N, w]⟩ ![0, 0] ![hi, 0] ![0, 0] x v h hu (ix2 j d)
      = (if hj : j.val < n then x (ix2 (⟨j.val, hj⟩ : Fin n) d) else 0 : EReal) := by
  by_cases hj : j.val < n
  · rw [dif_pos hj]
    refine pad_apply_of_inside _ _ _ x v h hu _ (ix2 (⟨j.val, hj⟩ : Fin n) d) (fun a => ?_)
    match a with
    | ⟨0, _⟩ => show j.val = 0 + j.val * (0 + 1); omega
    | ⟨1, _⟩ => show d.val = 0 + d.val * (0 + 1); omega
  · rw [dif_neg hj, pad_apply_of_not_inside _ _ _ x v h hu _ (⟨0, by decide⟩ : Fin 2) (fun hc => hj ?_), hv]
    have h3 := hc.2.2
    change (j.val - 0) / (0 + 1) < n at h3
    simpa using h3

/-- Region 0's result padded with 240 zero rows. -/
theorem v34_apply (j : Fin 10240) (d : Fin 512) :
    (V9 m outs c main_v34 : S10240x512.Idx → EReal) (ix2 j d)
      = (if h : j.val < 10000 then (outs 4 main_v33 c : S10000x512.Idx → EReal) (ix2 (⟨j.val, h⟩ : Fin 10000) d) else 0 : EReal) := by
  have e9 : V9 m outs c main_v34 = V6 m outs c main_v34 :=
    (V9_of m outs c main_v34 (by decide)).trans <| (V8_of m outs c main_v34 (by decide)).trans <| V7_of m outs c main_v34 (by decide)
  rw [e9, v34_V6]
  exact pad_rows_apply 240 _ _ _ _ (pad_value .bf16) j d

/-! ## The bias as a row -/

theorem v37_eq : (V9 m outs c main_v37 : S1x512.Idx → EReal)
    = shapeCast S1x512 (m ((c.tc : Thread nD τ).loc main_arg3) : S512.Idx → EReal) shapeCasts_S512_S1x512 := by
  show StableHlo.after hostOps1_4 _ (Proc.devRef .tc main_v37) = _
  after_results
  exact congrArg (fun x => shapeCast S1x512 x shapeCasts_S512_S1x512) (arg3_V8 m outs c)

/-- The bias as a row. -/
theorem v37_apply (d : Fin 512) :
    (V9 m outs c main_v37 : S1x512.Idx → EReal) (ix2 (0 : Fin 1) d)
      = (m ((c.tc : Thread nD τ).loc main_arg3) : S512.Idx → EReal) (ix1 d) := by
  rw [v37_eq]
  exact shapeCast_a_1a_apply _ _ 0 d

/-! ## Two one-column arrays side by side -/

/-- Column 0 of two one-column arrays laid side by side is the first array. -/
theorem cols_left {α : Type} (h : Shape.Concatenates [S170000x1, S170000x1] S170000x2 (1 : Fin 2)) (a b : S170000x1.Idx → α) (k : Fin 170000) :
    concatenate S170000x2 (1 : Fin 2) [⟨S170000x1, a⟩, ⟨S170000x1, b⟩] h (ix2 k (0 : Fin 2)) = a (ix2 k (0 : Fin 1)) :=
  concatenate_pair_apply_left (1 : Fin 2) a b h (ix2 k (0 : Fin 2)) rfl (ix2 k (0 : Fin 1)) (fun bb => by
    match bb with
    | ⟨0, _⟩ => rfl
    | ⟨1, _⟩ => rfl)

/-- Column 1 is the second array. -/
theorem cols_right {α : Type} (h : Shape.Concatenates [S170000x1, S170000x1] S170000x2 (1 : Fin 2)) (a b : S170000x1.Idx → α) (k : Fin 170000) :
    concatenate S170000x2 (1 : Fin 2) [⟨S170000x1, a⟩, ⟨S170000x1, b⟩] h (ix2 k (1 : Fin 2)) = b (ix2 k (0 : Fin 1)) :=
  concatenate_pair_apply_right (1 : Fin 2) a b h (ix2 k (1 : Fin 2)) rfl rfl (ix2 k (0 : Fin 1)) (fun bb hb => by
    match bb, hb with
    | ⟨0, _⟩, _ => rfl
    | ⟨1, _⟩, hb => exact absurd rfl hb) rfl

/-! ## The message words the kernel's host code builds -/

/-- The edge table core `c` was launched with is what the first valuation holds at the table's buffer. -/
theorem arg1_V0 : (V0 m c (Proc.devRef .tc main_arg1) : S2x160000.Idx → BitVec 32) = e := rfl

/-- The normalised target word of message `k` is the target word: under the range fact it is not negative. -/
theorem wrap_dst (he : Cert.Spec.InRange e) (k : Fin 170000) :
    wrap (rowLoops 1 slices_S2x160000_S1x160000_1_0 e) (ix1 k) = Cert.Spec.dstW e k := by
  have hw : rowLoops 1 slices_S2x160000_S1x160000_1_0 e (ix1 k) = Cert.Spec.dstW e k := Cert.HostChain.dst_words e _ _ _ k
  rw [wrap, Cert.HostChain.wrap_id bcast_S_S170000 10240#32 _ k (by rw [hw, Cert.Spec.dstW_toInt he]; exact Int.natCast_nonneg _), hw]

/-- Likewise the normalised source word is the source word. -/
theorem wrap_src (he : Cert.Spec.InRange e) (k : Fin 170000) :
    wrap (rowLoops 0 slices_S2x160000_S1x160000_0_0 e) (ix1 k) = Cert.Spec.srcW e k := by
  have hw : rowLoops 0 slices_S2x160000_S1x160000_0_0 e (ix1 k) = Cert.Spec.srcW e k := Cert.HostChain.src_words e _ _ _ k
  rw [wrap, Cert.HostChain.wrap_id bcast_S_S170000 10240#32 _ k (by rw [hw, Cert.Spec.srcW_toInt he]; exact Int.natCast_nonneg _), hw]

/-- What the third stretch reads at the target words' buffer: row 1 of the table, then the self loops. -/
theorem v6_V2 : (V2 m c (Proc.devRef .tc main_v6) : S170000.Idx → BitVec 32) = rowLoops 1 slices_S2x160000_S1x160000_1_0 e :=
  (V2_of m c main_v6 (by decide)).trans (s0_v6 (V0 m c))

/-- At the source words' buffer: row 0 of the table, then the self loops. -/
theorem v3_V2 : (V2 m c (Proc.devRef .tc main_v3) : S170000.Idx → BitVec 32) = rowLoops 0 slices_S2x160000_S1x160000_0_0 e :=
  (V2_of m c main_v3 (by decide)).trans (s0_v3 (V0 m c))

/-! ## The count matrix -/

/-- At the ideal instance the host's accumulating scatter is the exact sum. -/
theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

/-- The host's count matrix read at (i, j): zeros plus one per message whose normalised target word is i and whose
    normalised source word is j, which under the range fact are the target and source nodes. -/
theorem count_apply (he : Cert.Spec.InRange e) (i j : Fin 10240) :
    (truncf (F := Ideal) .bf16
        (Host.scatterAdd (F := Ideal) scatter_S10240x10240_S170000x2_S170000_n_01_01_1
          (broadcastInDim S10240x10240 ![] bcast_S_S10240x10240 (constant (F := Ideal) S_ .f32 0x00000000#32))
          (concatenate S170000x2 1
            [⟨S170000x1, broadcastInDim S170000x1 ![0] bcast_S170000_S170000x1_0 (wrap (rowLoops 1 slices_S2x160000_S1x160000_1_0 e))⟩,
             ⟨S170000x1, broadcastInDim S170000x1 ![0] bcast_S170000_S170000x1_0 (wrap (rowLoops 0 slices_S2x160000_S1x160000_0_0 e))⟩]
            concatenates_S170000x1_S170000x1_S170000x2_d1)
          (broadcastInDim S170000 ![] bcast_S_S170000 (constant (F := Ideal) S_ .f32 0x3F800000#32)))
        bitsLt_bf16_f32 : S10240x10240.Idx → EReal) (ix2 i j)
      = Cert.Spec.adj 1 (Cert.Spec.srcF e) (Cert.Spec.dstF e) i j := by
  rw [truncf_apply, scatterAdd_ideal, Cert.IndexOps.scatterAdd_pairs _ rfl rfl rfl rfl, Cert.HostChain.zeros_apply, zero_add]
  unfold Cert.Spec.adj
  refine Finset.sum_congr (Finset.filter_congr fun k _ => ?_) (fun k _ => Cert.HostChain.ones_apply _ _)
  rw [cols_left, cols_right, Cert.HostChain.index_col, Cert.HostChain.index_col, wrap_dst m c he, wrap_src m c he,
    Cert.Spec.dstW_toInt he, Cert.Spec.srcW_toInt he, Nat.cast_inj, Nat.cast_inj]

/-- The count matrix: zeros plus one per message with (target, source) = (i, j); narrowing the format is the identity
    on extended reals. -/
theorem v31_apply (he : Cert.Spec.InRange e) (i j : Fin 10240) :
    (V3 m c main_v31 : S10240x10240.Idx → EReal) (ix2 i j) = Cert.Spec.adj 1 (Cert.Spec.srcF e) (Cert.Spec.dstF e) i j := by
  have e3 := s2_v31 (V2 m c)
  rw [v6_V2, v3_V2] at e3
  rw [show (V3 m c main_v31 : S10240x10240.Idx → EReal) = _ from e3]
  exact count_apply m c he i j

/-! ## The degree factor -/

/-- What the second stretch leaves at the degree factor's buffer: the inverse square root of the degree where the
    degree is positive, zero elsewhere. -/
theorem v14_V2 : (V2 m c (Proc.devRef .tc main_v14) : S10000.Idx → EReal)
    = select (cmpf (F := Ideal) .ogt (degv e) (broadcastInDim S10000 ![] bcast_S_S10000 (constant (F := Ideal) S_ .f32 0x00000000#32)))
        (Host.rsqrt (F := Ideal) (φ := .f32) (degv e))
        (broadcastInDim S10000 ![] bcast_S_S10000 (constant (F := Ideal) S_ .f32 0x00000000#32)) := by
  have h := s1_v14 (V1 m c)
  rw [show (V1 m c (Proc.devRef .tc main_v12) : S10000.Idx → BitVec 1) = _ from s0_v12 (V0 m c),
    show (V1 m c (Proc.devRef .tc main_v13) : S10000.Idx → EReal) = _ from s0_v13 (V0 m c),
    show (V1 m c (Proc.devRef .tc main_cst_2) : S_.Idx → EReal) = _ from s0_cst2 (V0 m c)] at h
  exact h

/-- The degree factor read at node `r`. -/
theorem dis_read (he : Cert.Spec.InRange e) (r : Fin 10000) :
    (V2 m c (Proc.devRef .tc main_v14) : S10000.Idx → EReal) (ix1 r) = Cert.Spec.dis 1 (Cert.Spec.dstF e) r := by
  rw [v14_V2]
  exact Cert.HostChain.dis_apply scatter_S10000_S170000x1_S170000_n_0_0_1 rfl rfl rfl rfl e he _
    (fun k => (Cert.HostChain.index_col _ _ k).trans (Cert.HostChain.dst_words e _ _ _ k))
    _ _ _ (fun i => Cert.HostChain.zeros_apply _ i) (fun i => Cert.HostChain.zeros_apply _ i)
    (fun i => Cert.HostChain.zeros_apply _ i) _ (fun k => Cert.HostChain.ones_apply _ k) r

/-- A vector kept as a one-column matrix by a shape cast reads, at row `r`, the vector at `r`. -/
theorem col_apply {α : Type} {n : ℕ} (x : (⟨1, ![n]⟩ : Shape).Idx → α) (h : (⟨1, ![n]⟩ : Shape).ShapeCasts ⟨2, ![n, 1]⟩) (r : Fin n) :
    shapeCast ⟨2, ![n, 1]⟩ x h (ix2 r (0 : Fin 1)) = x (ix1 r) :=
  shapeCast_apply x h _ _ (by
    rw [Shape.rowMajor_val_two, Shape.rowMajor_val_one]
    show r.val = r.val * 1 + 0
    omega)

/-- The degree factor as a column. -/
theorem v32_apply (he : Cert.Spec.InRange e) (r : Fin 10000) :
    (V3 m c main_v32 : S10000x1.Idx → EReal) (ix2 r (0 : Fin 1)) = Cert.Spec.dis 1 (Cert.Spec.dstF e) r := by
  rw [show (V3 m c main_v32 : S10000x1.Idx → EReal) = _ from s2_v32 (V2 m c), col_apply]
  exact dis_read m c he r

/-- No item between the second stretch and the sixth writes the degree factor. -/
theorem v14_V6 : V6 m outs c main_v14 = V2 m c main_v14 :=
  (V6_of m outs c main_v14 (by decide)).trans <| (V5_of m outs c main_v14 (by decide)).trans <|
    (V4_of m outs c main_v14 (by decide)).trans <| V3_of m c main_v14 (by decide)

/-- The degree column padded with 240 zero rows. -/
theorem v36_apply (he : Cert.Spec.InRange e) (j : Fin 10240) :
    (V9 m outs c main_v36 : S10240x1.Idx → EReal) (ix2 j (0 : Fin 1))
      = (if h : j.val < 10000 then Cert.Spec.dis 1 (Cert.Spec.dstF e) ⟨j.val, h⟩ else 0 : EReal) := by
  have e9 : V9 m outs c main_v36 = V8 m outs c main_v36 := V9_of m outs c main_v36 (by decide)
  have h8 := s13_v36 (V7 m outs c)
  rw [show (V7 m outs c (Proc.devRef .tc main_v35) : S10000x1.Idx → EReal) = _ from s12_v35 (V6 m outs c),
    show (V7 m outs c (Proc.devRef .tc main_c_9) : S_.Idx → BitVec 32) = _ from s12_c9 (V6 m outs c),
    show V6 m outs c (Proc.devRef .tc main_v14) = V2 m c (Proc.devRef .tc main_v14) from v14_V6 m outs c] at h8
  rw [e9, show (V8 m outs c main_v36 : S10240x1.Idx → EReal) = _ from h8,
    pad_rows_apply 240 _ _ _ _ (pad_value .f32) j (0 : Fin 1)]
  by_cases hj : j.val < 10000
  · rw [dif_pos hj, dif_pos hj, col_apply]
    exact dis_read m c he ⟨j.val, hj⟩
  · rw [dif_neg hj, dif_neg hj]

end Cert.KernelIdeal.KHost

end
-- ==== Proof.KI.KVal.lean ====
/- The kernel program's result as one function of the argument arrays, at the ideal instance: the slice of region 1's
   output that the program returns is `kerOut` of the arguments, wherever the edge table holds node numbers. The
   two regions' outputs and the host stretches' arrays are read entry by entry; what remains is arithmetic. -/
import proofs.«418382_j13529146982751_3_alg».proof.Proof.Spec
import proofs.«418382_j13529146982751_3_alg».proof.Proof.KI.Run
import proofs.«418382_j13529146982751_3_alg».proof.Proof.KI.Val0
import proofs.«418382_j13529146982751_3_alg».proof.Proof.KI.Val1
import proofs.«418382_j13529146982751_3_alg».proof.Proof.KI.KHost
import Idealize.ShloMosaic.Lib.ValueIdx

noncomputable section

namespace Cert.KernelIdeal.KVal

open Cert.KernelIdeal Cert.KernelIdeal.Gen Idealize.ShloMosaic ValueIdx
open Idealize.ShloMosaic.TcCoe Idealize.SL.Sem

/-- The arithmetic of the assembly, with no program in it. Let `A` be the count matrix on the padded node range,
    `P` the scaled transformed rows `(x · W)(r, d) · s r` on the real rows, `H` those rows padded with zero rows
    up to 10240, `D` the degree factors padded with zeros likewise, `B` the bias read as a row. Then at a real
    node `r` the number `(∑_j A r j · H j d) · D r + B d` is `kerOut` there: the padded rows are `hpad` term by
    term (a real row is its scaled transformed row, a padding row is zero), and row `r` of `D` is `s r`. -/
theorem kerOut_of_parts
    (x : (⟨2, ![10000, 512]⟩ : Shape).Idx → EReal) (W : (⟨2, ![512, 512]⟩ : Shape).Idx → EReal)
    (b : (⟨1, ![512]⟩ : Shape).Idx → EReal) (s : Fin 10000 → EReal) (src dst : Fin 170000 → Fin 10000)
    (A : Fin 10240 → Fin 10240 → EReal) (P : Fin 10000 → Fin 512 → EReal) (H : Fin 10240 → Fin 512 → EReal)
    (D : Fin 10240 → EReal) (B : Fin 512 → EReal)
    (hA : ∀ i j, A i j = Cert.Spec.adj 1 src dst i j)
    (hP : ∀ r d, P r d = (∑ q : Fin 512, x (ix2 r q) * W (ix2 q d)) * s r)
    (hH : ∀ j d, H j d = if h : j.val < 10000 then P ⟨j.val, h⟩ d else 0)
    (hD : ∀ j, D j = if h : j.val < 10000 then s ⟨j.val, h⟩ else 0)
    (hB : ∀ d, B d = b (ix1 d)) (r : Fin 10000) (d : Fin 512) :
    (∑ j : Fin 10240, A ⟨r.val, by omega⟩ j * H j d) * D ⟨r.val, by omega⟩ + B d
      = Cert.Spec.kerOut 1 x W b s src dst r d := by
  have hrow : ∑ j : Fin 10240, A ⟨r.val, by omega⟩ j * H j d
      = ∑ j : Fin 10240, Cert.Spec.adj 1 src dst ⟨r.val, by omega⟩ j * Cert.Spec.hpad x W s j d :=
    Finset.sum_congr rfl fun j _ => by
      rw [hA, hH]
      unfold Cert.Spec.hpad Cert.Spec.hlin
      by_cases h : j.val < 10000
      · rw [dif_pos h, dif_pos h, hP]
      · rw [dif_neg h, dif_neg h]
  have hfac : D ⟨r.val, by omega⟩ = s r := by
    rw [hD, dif_pos (show (⟨r.val, by omega⟩ : Fin 10240).val < 10000 from r.isLt)]
  unfold Cert.Spec.kerOut
  rw [hrow, hfac, hB]

/-- The result over ANY contents `outs` the two regions may leave, given what they do leave entry by entry. The arrays
    that enter the arithmetic are named as functions into the extended reals (`x3`, `w3`, `s3`: x, W and the degree
    column as region 0 is entered; `A`, `H`, `S`, `B`: the count matrix, the padded rows, the padded degree column and
    the bias row as region 1 is entered). Region 0 leaves in its output array, at (r, d), row r of x against column d
    of W times the degree column's entry r (`h4`); region 1 leaves in its output array, at (r, d), row r of the count
    matrix against column d of the padded rows, times the padded degree column's entry r, plus the bias row's entry
    d (`h10`). The host stretches supply the rest: the count matrix is `adj`, the degree column is `dis`, x and W
    are the arguments, the padded arrays are region 0's output and the degree column each followed by 240 zero rows,
    the bias row is the bias argument, and the program's result is the first 10000 rows of region 1's output. These
    are the hypotheses of `kerOut_of_parts`. -/
theorem kernel_value_of (m : (ℓ : Loc nD τ sig) → Buf (Elt Ideal) ℓ) (outs : Outs (F := Ideal)) (c : Dev nD)
    (he : Cert.Spec.InRange (m ((c.tc : Thread nD τ).loc main_arg1)))
    (x3 : S10000x512.Idx → EReal) (w3 : S512x512.Idx → EReal) (s3 : S10000x1.Idx → EReal)
    (hx3 : V3 m c main_arg0 = x3) (hw3 : V3 m c main_arg2 = w3) (hs3 : V3 m c main_v32 = s3)
    (A : S10240x10240.Idx → EReal) (H : S10240x512.Idx → EReal) (S : S10240x1.Idx → EReal) (B : S1x512.Idx → EReal)
    (hA : V9 m outs c main_v31 = A) (hH : V9 m outs c main_v34 = H) (hS : V9 m outs c main_v36 = S) (hB : V9 m outs c main_v37 = B)
    (h4 : ∀ (r : Fin 10000) (d : Fin 512), (outs 4 main_v33 c : S10000x512.Idx → EReal) (ix2 r d)
      = (∑ q : Fin 512, x3 (ix2 r q) * w3 (ix2 q d)) * s3 (ix2 r (0 : Fin 1)))
    (h10 : ∀ (r : Fin 10240) (d : Fin 512), (outs 10 main_v38 c : S10240x512.Idx → EReal) (ix2 r d)
      = (∑ j : Fin 10240, A (ix2 r j) * H (ix2 j d)) * S (ix2 r (0 : Fin 1)) + B (ix2 (0 : Fin 1) d)) :
    V11 (F := Ideal) m outs c main_v39
      = (fun j => Cert.Spec.kerOut 1 (m ((c.tc : Thread nD τ).loc main_arg0)) (m ((c.tc : Thread nD τ).loc main_arg2)) (m ((c.tc : Thread nD τ).loc main_arg3))
            (Cert.Spec.dis 1 (Cert.Spec.dstF (m ((c.tc : Thread nD τ).loc main_arg1)))) (Cert.Spec.srcF (m ((c.tc : Thread nD τ).loc main_arg1))) (Cert.Spec.dstF (m ((c.tc : Thread nD τ).loc main_arg1))) (j 0) (j 1)
          : S10000x512.Idx → EReal) := by
  subst hx3 hw3 hs3 hA hH hS hB
  funext j
  obtain ⟨r, d, rfl⟩ : ∃ (r : Fin 10000) (d : Fin 512), j = ix2 r d := ⟨j 0, j 1, eq_ix2 j⟩
  show (V11 m outs c main_v39 : S10000x512.Idx → EReal) (ix2 r d) = Cert.Spec.kerOut 1 _ _ _ _ _ _ r d
  rw [KHost.v39_apply m outs c r d, h10]
  exact kerOut_of_parts _ _ _ _ _ _
    (fun i j => (V9 m outs c main_v31 : S10240x10240.Idx → EReal) (ix2 i j))
    (fun r d => (outs 4 main_v33 c : S10000x512.Idx → EReal) (ix2 r d))
    (fun j d => (V9 m outs c main_v34 : S10240x512.Idx → EReal) (ix2 j d))
    (fun j => (V9 m outs c main_v36 : S10240x1.Idx → EReal) (ix2 j (0 : Fin 1)))
    (fun d => (V9 m outs c main_v37 : S1x512.Idx → EReal) (ix2 (0 : Fin 1) d))
    (fun i j => by rw [KHost.v31_V9]; exact KHost.v31_apply (m := m) (c := c) he i j)
    (fun r d => by rw [h4, KHost.arg0_V3, KHost.arg2_V3, KHost.v32_apply (m := m) (c := c) he r])
    (fun j d => KHost.v34_apply m outs c j d)
    (fun j => KHost.v36_apply (m := m) (outs := outs) (c := c) he j)
    (fun d => KHost.v37_apply m outs c d) r d

/-- Where every word of the edge table is a node number, the kernel program's result buffer after the run is `kerOut` of the arguments. -/
theorem kernel_value (m : (ℓ : Loc nD τ sig) → Buf (Elt Ideal) ℓ) (c : Dev nD) (he : Cert.Spec.InRange (m ((c.tc : Thread nD τ).loc main_arg1))) :
    V11 (F := Ideal) m (outsK m) c main_v39
      = (fun j => Cert.Spec.kerOut 1 (m ((c.tc : Thread nD τ).loc main_arg0)) (m ((c.tc : Thread nD τ).loc main_arg2)) (m ((c.tc : Thread nD τ).loc main_arg3))
            (Cert.Spec.dis 1 (Cert.Spec.dstF (m ((c.tc : Thread nD τ).loc main_arg1)))) (Cert.Spec.srcF (m ((c.tc : Thread nD τ).loc main_arg1))) (Cert.Spec.dstF (m ((c.tc : Thread nD τ).loc main_arg1))) (j 0) (j 1)
          : S10000x512.Idx → EReal) :=
  kernel_value_of m (outsK m) c he _ _ _ rfl rfl rfl _ _ _ _ rfl rfl rfl rfl
    (fun r d => by rw [outs4_eq]; exact Val0.arr0_apply (V3' m) c r d _ _ _ rfl rfl rfl)
    (fun r d => by rw [outs10_eq]; exact Val1.arr1_apply_of_eq (V9' m) c r d _ _ _ _ rfl rfl rfl rfl)

end Cert.KernelIdeal.KVal

end
-- ==== Proof.RefValue.lean ====
/-
  The reference program's result as one function of the argument arrays, index by index.

  The reference builds, from the edge table, the 170000 message words (the edges' sources and targets followed by
  the self loops), counts the messages arriving at each node by an accumulating scatter of ones, takes the guarded
  inverse square root s of the counts, and forms for each message k the row

      h(src k, ·) · (s(src k) · s(dst k)),        h = x · W,

  by a gather of rows of h and two gathers of s. These rows are accumulated by target node into an array of zeros,
  and the bias is added to every row. Read at (i, d), under the hypothesis that every word of the edge table is a
  node number, this is

      ∑_{k : dst k = i}  h(src k, d) · (s(src k) · s(dst k))  +  b d ,

  the function `refOut` of the vocabulary. The lemmas below read the stages one at a time, outermost last: the
  stages that do not look at the edge table, the index columns, the message words and their normalisation (the
  identity on a node number), the degree factor, one message's row, and the accumulation.
-/
import proofs.«418382_j13529146982751_3_alg».proof.Proof.RefRead
import proofs.«418382_j13529146982751_3_alg».proof.Proof.Spec
import proofs.«418382_j13529146982751_3_alg».proof.Proof.IndexOps
import proofs.«418382_j13529146982751_3_alg».proof.Proof.PreFacts
import proofs.«418382_j13529146982751_3_alg».proof.Proof.HostChain

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.Read Cert.Spec

/-! ## The stages that are read at an index without looking at the edge table -/

/-- The bias, broadcast first to a row and then down the rows, read at (i, d) is the bias at d. -/
theorem bias_apply (x3 : (⟨S512, .f32⟩ : BufTy).Contents (Elt Ideal)) (i : Fin 10000) (d : Fin 512) :
    val_main_v45 (F := Ideal) x3 (ix2 i d) = x3 (ix1 d) := by
  rw [val_main_v45_apply, val_main_v44_apply]
  exact congrArg x3 (funext fun a => Fin.ext (by match a with | ⟨0, _⟩ => rfl))

/-- The contraction of x with W at (j, d) is the linear transform `hlin`. -/
theorem dot_apply (x0 : (⟨S10000x512, .f32⟩ : BufTy).Contents (Elt Ideal)) (x2 : (⟨S512x512, .f32⟩ : BufTy).Contents (Elt Ideal))
    (j : Fin 10000) (d : Fin 512) :
    val_main_v30 (F := Ideal) x0 x2 (ix2 j d) = hlin x0 x2 j d := by
  rw [val_main_v30_apply]
  unfold hlin
  refine Finset.sum_congr rfl fun q _ => ?_
  have el : lidx_main_v30 (ix2 j d) q = ix2 j q :=
    funext fun a => Fin.ext (by match a with | ⟨0, _⟩ => rfl | ⟨1, _⟩ => rfl)
  have er : ridx_main_v30 (ix2 j d) q = ix2 q d :=
    funext fun a => Fin.ext (by match a with | ⟨0, _⟩ => rfl | ⟨1, _⟩ => rfl)
  rw [el, er]

/-- The array the messages are accumulated into starts at zero everywhere. -/
theorem zeros_apply (i : S10000x512.Idx) : val_main_v41 (F := Ideal) i = 0 := by
  rw [val_main_v41_apply, val_main_cst_8_apply]
  exact Cert.IndexOps.ofBits_zero

/-- The per-message factor, broadcast to a column and then along the features, read at (k, d) is the factor of message k. -/
theorem norm_col_apply (e : (⟨S2x160000, .i32⟩ : BufTy).Contents (Elt Ideal)) (k : Fin 170000) (d : Fin 512) :
    val_main_v39 (F := Ideal) e (ix2 k d) = val_main_v29 (F := Ideal) e (ix1 k) := by
  rw [val_main_v39_apply, val_main_v38_apply]
  exact congrArg _ (funext fun a => Fin.ext (by match a with | ⟨0, _⟩ => rfl))

/-! ## The index columns -/

/-- The index column the messages are accumulated by is the column of target words. -/
theorem acc_col_apply (e : (⟨S2x160000, .i32⟩ : BufTy).Contents (Elt Ideal)) (k : Fin 170000) :
    val_main_v42 (F := Ideal) e (ix2 k (0 : Fin 1)) = val_main_v6 (F := Ideal) e (ix1 k) := by
  rw [val_main_v42_apply]
  exact congrArg _ (funext fun a => Fin.ext (by match a with | ⟨0, _⟩ => rfl))

/-- The index column the degrees are counted by is the column of target words. -/
theorem deg_col_apply (e : (⟨S2x160000, .i32⟩ : BufTy).Contents (Elt Ideal)) (k : Fin 170000) :
    val_main_v9 (F := Ideal) e (ix2 k (0 : Fin 1)) = val_main_v6 (F := Ideal) e (ix1 k) := by
  rw [val_main_v9_apply]
  exact congrArg _ (funext fun a => Fin.ext (by match a with | ⟨0, _⟩ => rfl))

/-- The index column of the row gather holds the normalised source words. -/
theorem row_col_apply (e : (⟨S2x160000, .i32⟩ : BufTy).Contents (Elt Ideal)) (k : Fin 170000) :
    val_main_v36 (F := Ideal) e (ix2 k (0 : Fin 1)) = val_main_v35 (F := Ideal) e (ix1 k) := by
  rw [val_main_v36_apply]
  exact congrArg _ (funext fun a => Fin.ext (by match a with | ⟨0, _⟩ => rfl))

/-- The index column of the source's degree factor holds the normalised source words. -/
theorem src_col_apply (e : (⟨S2x160000, .i32⟩ : BufTy).Contents (Elt Ideal)) (k : Fin 170000) :
    val_main_v20 (F := Ideal) e (ix2 k (0 : Fin 1)) = val_main_v19 (F := Ideal) e (ix1 k) := by
  rw [val_main_v20_apply]
  exact congrArg _ (funext fun a => Fin.ext (by match a with | ⟨0, _⟩ => rfl))

/-- The index column of the target's degree factor holds the normalised target words. -/
theorem dst_col_apply (e : (⟨S2x160000, .i32⟩ : BufTy).Contents (Elt Ideal)) (k : Fin 170000) :
    val_main_v27 (F := Ideal) e (ix2 k (0 : Fin 1)) = val_main_v26 (F := Ideal) e (ix1 k) := by
  rw [val_main_v27_apply]
  exact congrArg _ (funext fun a => Fin.ext (by match a with | ⟨0, _⟩ => rfl))

/-! ## The message words -/

/-- The concatenation of row 0 of the edge table with the node numbers is the table of source words. -/
theorem src_word_apply (e : (⟨S2x160000, .i32⟩ : BufTy).Contents (Elt Ideal)) (k : Fin 170000) :
    val_main_v3 (F := Ideal) e (ix1 k) = srcW e k :=
  Cert.HostChain.src_words e _ _ _ k

/-- The concatenation of row 1 of the edge table with the node numbers is the table of target words. -/
theorem dst_word_apply (e : (⟨S2x160000, .i32⟩ : BufTy).Contents (Elt Ideal)) (k : Fin 170000) :
    val_main_v6 (F := Ideal) e (ix1 k) = dstW e k :=
  Cert.HostChain.dst_words e _ _ _ k

/-- A source word is a node number, so each of its two normalisations leaves it as it is. -/
theorem row_norm_apply (e : (⟨S2x160000, .i32⟩ : BufTy).Contents (Elt Ideal)) (he : InRange e) (k : Fin 170000) :
    val_main_v35 (F := Ideal) e (ix1 k) = srcW e k := by
  have h0 : 0 ≤ (val_main_v3 (F := Ideal) e (ix1 k)).toInt := by
    rw [src_word_apply, Cert.Spec.srcW_toInt he k]; exact Int.natCast_nonneg _
  exact (Cert.HostChain.wrap_id bcast_S_S170000 10000#32 (val_main_v3 (F := Ideal) e) k h0).trans (src_word_apply e k)

theorem src_norm_apply (e : (⟨S2x160000, .i32⟩ : BufTy).Contents (Elt Ideal)) (he : InRange e) (k : Fin 170000) :
    val_main_v19 (F := Ideal) e (ix1 k) = srcW e k := by
  have h0 : 0 ≤ (val_main_v3 (F := Ideal) e (ix1 k)).toInt := by
    rw [src_word_apply, Cert.Spec.srcW_toInt he k]; exact Int.natCast_nonneg _
  exact (Cert.HostChain.wrap_id bcast_S_S170000 10000#32 (val_main_v3 (F := Ideal) e) k h0).trans (src_word_apply e k)

/-- A target word is a node number, so its normalisation leaves it as it is. -/
theorem dst_norm_apply (e : (⟨S2x160000, .i32⟩ : BufTy).Contents (Elt Ideal)) (he : InRange e) (k : Fin 170000) :
    val_main_v26 (F := Ideal) e (ix1 k) = dstW e k := by
  have h0 : 0 ≤ (val_main_v6 (F := Ideal) e (ix1 k)).toInt := by
    rw [dst_word_apply, Cert.Spec.dstW_toInt he k]; exact Int.natCast_nonneg _
  exact (Cert.HostChain.wrap_id bcast_S_S170000 10000#32 (val_main_v6 (F := Ideal) e) k h0).trans (dst_word_apply e k)

/-! ## The degree factor -/

/-- The guarded inverse square root of the scatter of ones along the target words, read at node i, is `dis`. -/
theorem factor_apply (e : (⟨S2x160000, .i32⟩ : BufTy).Contents (Elt Ideal)) (he : InRange e) (i : Fin 10000) :
    val_main_v14 (F := Ideal) e (ix1 i) = dis 1 (dstF e) i :=
  Cert.HostChain.dis_apply scatter_S10000_S170000x1_S170000_n_0_0_1 rfl rfl rfl rfl e he (val_main_v9 (F := Ideal) e)
    (fun k => (deg_col_apply e k).trans (dst_word_apply e k))
    (val_main_v8 (F := Ideal)) (val_main_v11 (F := Ideal)) (val_main_call0_v1 (F := Ideal))
    (fun j => Cert.HostChain.zeros_apply bcast_S_S10000 j) (fun j => Cert.HostChain.zeros_apply bcast_S_S10000 j)
    (fun j => Cert.HostChain.zeros_apply bcast_S_S10000 j)
    (val_main_v7 (F := Ideal)) (fun k => Cert.HostChain.ones_apply bcast_S_S170000 k) i

/-! ## One message, and the accumulation -/

/-- Message k's row at feature d, where the three index columns name nodes a (twice) and b: node a's transformed row
    times the product of the degree-factor stage at a and at b. -/
theorem message_at (x0 : (⟨S10000x512, .f32⟩ : BufTy).Contents (Elt Ideal)) (e : (⟨S2x160000, .i32⟩ : BufTy).Contents (Elt Ideal))
    (x2 : (⟨S512x512, .f32⟩ : BufTy).Contents (Elt Ideal)) (k : Fin 170000) (d : Fin 512) (a b : Fin 10000)
    (hrow : (val_main_v36 (F := Ideal) e (ix2 k (0 : Fin 1))).toInt = (a.val : ℤ))
    (hsrc : (val_main_v20 (F := Ideal) e (ix2 k (0 : Fin 1))).toInt = (a.val : ℤ))
    (hdst : (val_main_v27 (F := Ideal) e (ix2 k (0 : Fin 1))).toInt = (b.val : ℤ)) :
    val_main_v40 (F := Ideal) x0 e x2 (ix2 k d)
      = hlin x0 x2 a d * (val_main_v14 (F := Ideal) e (ix1 a) * val_main_v14 (F := Ideal) e (ix1 b)) := by
  rw [val_main_v40_apply, norm_col_apply, val_main_v29_apply]
  have e37 : val_main_v37 (F := Ideal) x0 e x2 (ix2 k d) = val_main_v30 (F := Ideal) x0 x2 (ix2 a d) := by
    unfold val_main_v37
    exact Cert.IndexOps.gather_rows _ rfl rfl rfl rfl rfl rfl rfl _ _ k d a hrow
  have e21 : val_main_v21 (F := Ideal) e (ix1 k) = val_main_v14 (F := Ideal) e (ix1 a) := by
    unfold val_main_v21
    exact Cert.IndexOps.gather_vec _ rfl rfl rfl rfl rfl rfl rfl _ _ k a hsrc
  have e28 : val_main_v28 (F := Ideal) e (ix1 k) = val_main_v14 (F := Ideal) e (ix1 b) := by
    unfold val_main_v28
    exact Cert.IndexOps.gather_vec _ rfl rfl rfl rfl rfl rfl rfl _ _ k b hdst
  rw [e37, e21, e28, dot_apply]
  rfl

/-- Message k's row at feature d: its source's transformed row times the degree factors of its source and its target. -/
theorem message_apply (x0 : (⟨S10000x512, .f32⟩ : BufTy).Contents (Elt Ideal)) (e : (⟨S2x160000, .i32⟩ : BufTy).Contents (Elt Ideal))
    (x2 : (⟨S512x512, .f32⟩ : BufTy).Contents (Elt Ideal)) (he : InRange e) (k : Fin 170000) (d : Fin 512) :
    val_main_v40 (F := Ideal) x0 e x2 (ix2 k d)
      = hlin x0 x2 (srcF e k) d * (dis 1 (dstF e) (srcF e k) * dis 1 (dstF e) (dstF e k)) := by
  rw [message_at x0 e x2 k d (srcF e k) (dstF e k)
      (by rw [row_col_apply, row_norm_apply e he]; exact Cert.Spec.srcW_toInt he k)
      (by rw [src_col_apply, src_norm_apply e he]; exact Cert.Spec.srcW_toInt he k)
      (by rw [dst_col_apply, dst_norm_apply e he]; exact Cert.Spec.dstW_toInt he k),
    factor_apply e he, factor_apply e he]

/-- The reference's last stage at (i, d): the rows of the messages whose target word names i, accumulated from zero,
    plus the bias; a target word names i exactly when the message's target node is i. -/
theorem stage_apply (x0 : (⟨S10000x512, .f32⟩ : BufTy).Contents (Elt Ideal)) (e : (⟨S2x160000, .i32⟩ : BufTy).Contents (Elt Ideal))
    (x2 : (⟨S512x512, .f32⟩ : BufTy).Contents (Elt Ideal)) (x3 : (⟨S512, .f32⟩ : BufTy).Contents (Elt Ideal))
    (he : InRange e) (i : Fin 10000) (d : Fin 512) :
    val_main_v46 (F := Ideal) x0 e x2 x3 (ix2 i d) = refOut x0 x2 x3 (dis 1 (dstF e)) (srcF e) (dstF e) i d := by
  rw [val_main_v46_apply, bias_apply]
  unfold val_main_v43
  have hacc := Cert.IndexOps.scatterAdd_rows scatter_S10000x512_S170000x1_S170000x512_1_0_0_1 rfl rfl rfl rfl
    (val_main_v41 (F := Ideal)) (val_main_v42 (F := Ideal) e) (val_main_v40 (F := Ideal) x0 e x2) i d
  rw [zeros_apply, zero_add] at hacc
  unfold refOut
  refine congrArg (· + x3 (ix1 d)) (hacc.trans ?_)
  refine Finset.sum_congr (Finset.filter_congr fun k _ => ?_) fun k _ => message_apply x0 e x2 he k d
  rw [acc_col_apply, dst_word_apply, Cert.Spec.dstW_toInt he k]
  exact ⟨fun h => Fin.ext (by exact_mod_cast h), fun h => by rw [h]⟩

/-! ## The result buffer -/

/-- Where every word of the edge table is a node number, the reference's result buffer is `refOut` of the
    arguments: at (i, d) the messages arriving at i, each its source's transformed row scaled by the two degree
    factors, plus the bias. -/
theorem ref_value (m : (ℓ : Loc nD τ sig) → Buf (Elt Ideal) ℓ) (c : Dev nD)
    (he : Cert.Spec.InRange (m ((c.tc : Thread nD τ).loc main_arg1))) :
    Cert.ReferenceIdeal.Value.res_main_v46 (F := Ideal) m c
      = fun j => Cert.Spec.refOut (m ((c.tc : Thread nD τ).loc main_arg0)) (m ((c.tc : Thread nD τ).loc main_arg2)) (m ((c.tc : Thread nD τ).loc main_arg3))
          (Cert.Spec.dis 1 (Cert.Spec.dstF (m ((c.tc : Thread nD τ).loc main_arg1)))) (Cert.Spec.srcF (m ((c.tc : Thread nD τ).loc main_arg1))) (Cert.Spec.dstF (m ((c.tc : Thread nD τ).loc main_arg1))) (j 0) (j 1) := by
  rw [val_main_v46_eq]
  refine funext fun (j : S10000x512.Idx) => ?_
  obtain ⟨i, d, rfl⟩ : ∃ (i : Fin 10000) (d : Fin 512), j = ix2 i d := ⟨j 0, j 1, eq_ix2 j⟩
  exact stage_apply _ _ _ _ he i d

end Cert.ReferenceIdeal.RefValue

end
-- ==== Proof.Algebra.lean ====
/-
  The one algebraic law of this certificate, over the extended reals: a node's result written as a sum over
  the messages arriving at it equals the same result written through the dense count matrix on the padded
  node range.

  The extended reals are not a ring (addition and multiplication fail to distribute at the infinities), so
  the law is proved where every entry is a real number: the embedding of the reals commutes with products and
  finite sums, which carries both sides down to one identity between real sums, and that identity is an
  exchange of the order of summation.
-/
import proofs.«418382_j13529146982751_3_alg».proof.Proof.Spec

noncomputable section

namespace Cert.Spec

open Idealize.ShloMosaic Idealize.ShloMosaic.ValueIdx

/-! ### The embedding of the reals commutes with finite sums -/

/-- A finite sum of embedded reals is the embedded sum: the embedding is additive and sends 0 to 0. -/
theorem coe_real_sum {ι : Type*} (S : Finset ι) (f : ι → ℝ) :
    (∑ k ∈ S, ((f k : ℝ) : EReal)) = ((∑ k ∈ S, f k : ℝ) : EReal) := by
  classical
  induction S using Finset.induction_on with
  | empty => simp
  | insert a S ha ih => rw [Finset.sum_insert ha, Finset.sum_insert ha, ih, EReal.coe_add]

/-- A finite sum of ones is the embedded count. -/
theorem sum_one_eq_coe {ι : Type*} (S : Finset ι) :
    (∑ _k ∈ S, (1 : EReal)) = ((∑ _k ∈ S, (1 : ℝ) : ℝ) : EReal) := by
  rw [← coe_real_sum]
  rfl

/-! ### The degree factor -/

/-- The inverse square root of an embedded real, guarded by positivity, is an embedded real: on a positive real
    it is the real `(√r)⁻¹`, and elsewhere the guard selects 0. -/
theorem guarded_rsqrt_real (r : ℝ) :
    ∃ t : ℝ, (if (0 : EReal) < (r : EReal) then Ideal.rsqrt (r : EReal) else 0) = (t : EReal) := by
  by_cases hr : (0 : EReal) < (r : EReal)
  · have hpos : 0 < r := EReal.coe_pos.mp hr
    refine ⟨(Real.sqrt r)⁻¹, ?_⟩
    rw [if_pos hr, Ideal.rsqrt_coe, if_neg (not_lt.mpr hpos.le), if_neg hpos.ne']
  · exact ⟨0, by rw [if_neg hr, EReal.coe_zero]⟩

/-- The degree factor is a real number: the degree is a finite count, so its inverse square root (or the 0 the guard selects) is finite. -/
theorem dis_real (dst : Fin 170000 → Fin 10000) (i : Fin 10000) : ∃ r : ℝ, dis 1 dst i = (r : EReal) := by
  unfold dis deg
  rw [sum_one_eq_coe]
  exact guarded_rsqrt_real _

/-! ### The exchange of summation, over the reals -/

section Count

variable {K : Type*} [Fintype K] {N M : ℕ}

/-- One message's contribution to the padded row sum: among the padded nodes `j`, only `j = src k` matches, and
    there the padded row is the true row. -/
theorem sum_over_padded_of_message (hNM : N ≤ M) (g : Fin N → ℝ) (a : Fin N) :
    (∑ j : Fin M, if a.val = j.val then (if h : j.val < N then g ⟨j.val, h⟩ else 0) else 0) = g a := by
  have key : ∀ j : Fin M, (if a.val = j.val then (if h : j.val < N then g ⟨j.val, h⟩ else 0) else 0)
      = if (⟨a.val, lt_of_lt_of_le a.isLt hNM⟩ : Fin M) = j then g a else 0 := by
    intro j
    by_cases hj : a.val = j.val
    · have hj' : (⟨a.val, lt_of_lt_of_le a.isLt hNM⟩ : Fin M) = j := Fin.ext hj
      have hlt : j.val < N := hj ▸ a.isLt
      have hg : g ⟨j.val, hlt⟩ = g a := congrArg g (Fin.ext hj.symm)
      rw [if_pos hj, if_pos hj', dif_pos hlt, hg]
    · have hj' : ¬ (⟨a.val, lt_of_lt_of_le a.isLt hNM⟩ : Fin M) = j := fun e => hj (congrArg Fin.val e)
      rw [if_neg hj, if_neg hj']
  rw [Finset.sum_congr rfl (fun j _ => key j), Finset.sum_ite_eq]
  simp

/-- The row of the count matrix against the padded rows is the sum over the arriving messages: write each count
    as a sum of ones over messages, exchange the two sums, and for each message only its own source survives.
    Padded nodes contribute nothing, no message starting there. -/
theorem count_row_sum (hNM : N ≤ M) (src dst : K → Fin N) (g : Fin N → ℝ) (i : Fin N) :
    (∑ j : Fin M, (∑ _k ∈ Finset.univ.filter (fun k : K => (dst k).val = i.val ∧ (src k).val = j.val), (1 : ℝ))
        * (if h : j.val < N then g ⟨j.val, h⟩ else 0))
      = ∑ k ∈ Finset.univ.filter (fun k : K => dst k = i), g (src k) := by
  have step1 : ∀ j : Fin M,
      (∑ _k ∈ Finset.univ.filter (fun k : K => (dst k).val = i.val ∧ (src k).val = j.val), (1 : ℝ))
        * (if h : j.val < N then g ⟨j.val, h⟩ else 0)
      = ∑ k : K, if dst k = i then
          (if (src k).val = j.val then (if h : j.val < N then g ⟨j.val, h⟩ else 0) else 0) else 0 := by
    intro j
    rw [Finset.sum_mul, Finset.sum_filter]
    refine Finset.sum_congr rfl (fun k _ => ?_)
    by_cases hd : dst k = i
    · have hdv : (dst k).val = i.val := congrArg Fin.val hd
      by_cases hsv : (src k).val = j.val
      · rw [if_pos ⟨hdv, hsv⟩, if_pos hd, if_pos hsv, one_mul]
      · rw [if_neg (fun e => hsv e.2), if_pos hd, if_neg hsv]
    · have hdv : ¬ (dst k).val = i.val := fun e => hd (Fin.ext e)
      rw [if_neg (fun e => hdv e.1), if_neg hd]
  rw [Finset.sum_congr rfl (fun j _ => step1 j), Finset.sum_comm, Finset.sum_filter]
  refine Finset.sum_congr rfl (fun k _ => ?_)
  by_cases hd : dst k = i
  · simp only [if_pos hd]
    exact sum_over_padded_of_message hNM g (src k)
  · simp only [if_neg hd, Finset.sum_const_zero]

end Count

/-! ### Both sides as embedded reals -/

/-- An entry of the count matrix in row `i` is the embedded count of the messages from `j` to `i`. -/
theorem adj_coe (src dst : Fin 170000 → Fin 10000) (i : Fin 10000) (hi : i.val < 10240) (j : Fin 10240) :
    adj 1 src dst ⟨i.val, hi⟩ j
      = ((∑ _k ∈ Finset.univ.filter (fun k : Fin 170000 => (dst k).val = i.val ∧ (src k).val = j.val), (1 : ℝ) : ℝ) : EReal) := by
  unfold adj
  exact sum_one_eq_coe _

/-- A padded scaled row is an embedded real where the transformed rows `g` and the degree factors `sr` are:
    the product `g j · sr j` on a true node, 0 on a padded one. -/
theorem hpad_coe (x : (⟨2, ![10000, 512]⟩ : Shape).Idx → EReal) (W : (⟨2, ![512, 512]⟩ : Shape).Idx → EReal)
    (s : Fin 10000 → EReal) (d : Fin 512) (g sr : Fin 10000 → ℝ)
    (hg : ∀ j, hlin x W j d = (g j : EReal)) (hsr : ∀ j, s j = (sr j : EReal)) (j : Fin 10240) :
    hpad x W s j d = ((if h : j.val < 10000 then g ⟨j.val, h⟩ * sr ⟨j.val, h⟩ else 0 : ℝ) : EReal) := by
  unfold hpad
  by_cases h : j.val < 10000
  · rw [dif_pos h, dif_pos h, hg, hsr, EReal.coe_mul]
  · rw [dif_neg h, dif_neg h, EReal.coe_zero]

/-- A transformed row of real entries is the embedded real matrix product. -/
theorem hlin_coe (x : (⟨2, ![10000, 512]⟩ : Shape).Idx → EReal) (W : (⟨2, ![512, 512]⟩ : Shape).Idx → EReal)
    (xr : (⟨2, ![10000, 512]⟩ : Shape).Idx → ℝ) (Wr : (⟨2, ![512, 512]⟩ : Shape).Idx → ℝ)
    (hxr : ∀ a, x a = (xr a : EReal)) (hWr : ∀ a, W a = (Wr a : EReal)) (j : Fin 10000) (d : Fin 512) :
    hlin x W j d = ((∑ q : Fin 512, xr (ix2 j q) * Wr (ix2 q d) : ℝ) : EReal) := by
  unfold hlin
  rw [← coe_real_sum]
  refine Finset.sum_congr rfl (fun q _ => ?_)
  rw [hxr, hWr, EReal.coe_mul]

/-! ### The law -/

/-- The law where the transformed rows `g` and the degree factors `sr` are given as reals: both sides are the
    embedding of one real sum over the arriving messages plus the bias, the kernel's after the exchange of
    summation and distributing the target's factor over the sum, the reference's after naming the target `i`;
    associativity of the real product joins the two. -/
theorem kerOut_eq_refOut_of_real (x : (⟨2, ![10000, 512]⟩ : Shape).Idx → EReal) (W : (⟨2, ![512, 512]⟩ : Shape).Idx → EReal)
    (b : (⟨1, ![512]⟩ : Shape).Idx → EReal) (s : Fin 10000 → EReal) (src dst : Fin 170000 → Fin 10000)
    (i : Fin 10000) (d : Fin 512) (g sr : Fin 10000 → ℝ)
    (hg : ∀ j, hlin x W j d = (g j : EReal)) (hsr : ∀ j, s j = (sr j : EReal)) :
    kerOut 1 x W b s src dst i d = refOut x W b s src dst i d := by
  have hL : (∑ j : Fin 10240, adj 1 src dst ⟨i.val, by omega⟩ j * hpad x W s j d)
      = ((∑ k ∈ Finset.univ.filter (fun k : Fin 170000 => dst k = i), g (src k) * sr (src k) : ℝ) : EReal) := by
    rw [← count_row_sum (M := 10240) (by norm_num) src dst (fun j => g j * sr j) i, ← coe_real_sum]
    refine Finset.sum_congr rfl (fun j _ => ?_)
    rw [adj_coe, hpad_coe x W s d g sr hg hsr, EReal.coe_mul]
  have hR : (∑ k ∈ Finset.univ.filter (fun k : Fin 170000 => dst k = i), hlin x W (src k) d * (s (src k) * s (dst k)))
      = ((∑ k ∈ Finset.univ.filter (fun k : Fin 170000 => dst k = i), g (src k) * (sr (src k) * sr (dst k)) : ℝ) : EReal) := by
    rw [← coe_real_sum]
    refine Finset.sum_congr rfl (fun k _ => ?_)
    rw [hg, hsr, hsr, EReal.coe_mul, EReal.coe_mul]
  have hreal : (∑ k ∈ Finset.univ.filter (fun k : Fin 170000 => dst k = i), g (src k) * sr (src k)) * sr i
      = ∑ k ∈ Finset.univ.filter (fun k : Fin 170000 => dst k = i), g (src k) * (sr (src k) * sr (dst k)) := by
    rw [Finset.sum_mul]
    refine Finset.sum_congr rfl (fun k hk => ?_)
    rw [(Finset.mem_filter.mp hk).2, mul_assoc]
  unfold kerOut refOut
  rw [hL, hR, hsr i, ← EReal.coe_mul, hreal]

/-- The two ways of writing the layer agree, where every entry of x and W and every degree factor is a real number. -/
theorem kerOut_eq_refOut (x : (⟨2, ![10000, 512]⟩ : Shape).Idx → EReal) (W : (⟨2, ![512, 512]⟩ : Shape).Idx → EReal)
    (b : (⟨1, ![512]⟩ : Shape).Idx → EReal) (s : Fin 10000 → EReal) (src dst : Fin 170000 → Fin 10000)
    (hx : ∀ j, ∃ r : ℝ, x j = (r : EReal)) (hW : ∀ j, ∃ r : ℝ, W j = (r : EReal)) (hs : ∀ i, ∃ r : ℝ, s i = (r : EReal))
    (i : Fin 10000) (d : Fin 512) :
    kerOut 1 x W b s src dst i d = refOut x W b s src dst i d := by
  choose xr hxr using hx
  choose Wr hWr using hW
  choose sr hsr using hs
  exact kerOut_eq_refOut_of_real x W b s src dst i d
    (fun j => ∑ q : Fin 512, xr (ix2 j q) * Wr (ix2 q d)) sr
    (fun j => hlin_coe x W xr Wr hxr hWr j d) hsr

end Cert.Spec

end
-- ==== Proof.lean ====
/-
  The certificate of a graph-convolution layer: a Pallas kernel pair (a row-scaled linear transform, then a dense
  aggregation against the message-count matrix, accumulated over column blocks) against the jnp reference (gather the
  transformed rows along the messages, scale, scatter-add by target), over the extended reals.

  With N = 10000 nodes, messages k (160000 edges and one self loop per node) from src k to dst k, deg i the number of
  messages arriving at i and s i = deg(i)^(-1/2), both programs compute at node i, feature d

      ∑_{k : dst k = i} (x·W)(src k, d) · s(src k) · s(i)  +  b d :

  the reference message by message, the kernel as (∑_j adj i j · ((x·W)(j, d) · s j)) · s i + b d with
  adj i j = #{k : dst k = i ∧ src k = j} on a node range padded to 10240 (zero rows below row 10000). The two agree
  where x and W are finite (the exchange of the two summations and the distribution of s i over the sum are laws of
  the reals, not of ±∞) and every word of the edge table is a node number in [0, 10000): outside that range the
  reference indexes out of range (it wraps or clamps by N, the kernel's padded matrix by 10240), so the precondition
  states it.

  The frames: each program runs to the end, faults nowhere and leaves its arguments as launched — the kernel programs
  through the two regions' proof data (region 1 carries its accumulator between grid points), the reference through
  its run. `preserves` is trivial: the idealization rewrote nothing.
-/
import proofs.«418382_j13529146982751_3_alg».proof.Defs
import proofs.«418382_j13529146982751_3_alg».proof.Proof.Gen.Kernel
import proofs.«418382_j13529146982751_3_alg».proof.Proof.Gen.KernelIdeal
import proofs.«418382_j13529146982751_3_alg».proof.Proof.Gen.ReferenceIdeal
import proofs.«418382_j13529146982751_3_alg».proof.Proof.Gen.Pre_finite_inputs
import proofs.«418382_j13529146982751_3_alg».proof.Proof.K.Run
import proofs.«418382_j13529146982751_3_alg».proof.Proof.KI.Run
import proofs.«418382_j13529146982751_3_alg».proof.Proof.KI.KVal
import proofs.«418382_j13529146982751_3_alg».proof.Proof.RefRun
import proofs.«418382_j13529146982751_3_alg».proof.Proof.RefValue
import proofs.«418382_j13529146982751_3_alg».proof.Proof.PreFacts
import proofs.«418382_j13529146982751_3_alg».proof.Proof.Algebra

noncomputable section

namespace Cert.Proof

open Idealize.ShloMosaic Idealize.ShloMosaic.TcCoe Idealize.SL.Sem

/-- The word-level program runs and keeps its arguments. -/
theorem frame_k : Cert.frame_Kernel (hKernel := Cert.Kernel.Gen.facts) (hPre_finite_inputs := Cert.Pre_finite_inputs.Gen.facts) :=
  fun m ρ _ => Cert.Kernel.Gen.frame (F := Bits) m ρ

/-- The idealized program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame (F := Ideal) m ρ

/-- The reference runs and keeps its arguments: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments, under the precondition, both idealized programs end with the same
    result: the kernel's is `kerOut`, the reference's `refOut`, of the same arrays, and the two are one function
    where x, W and the degree factors are real and the edge words are node numbers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.V11 (F := Ideal) m (Cert.KernelIdeal.Gen.outsK m) c Cert.KernelIdeal.main_v39,
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hW, he⟩ := Cert.PreFacts.of_pre _ _ _ _ (hpre c)
  have he' : Cert.Spec.InRange (m' ((c.tc : Thread Cert.ReferenceIdeal.nD Cert.ReferenceIdeal.τ).loc Cert.ReferenceIdeal.main_arg1)) := by
    rw [(hagree c).2.1]; exact he
  have hr := Cert.ReferenceIdeal.RefValue.ref_value m' c he'
  rw [(hagree c).1, (hagree c).2.1, (hagree c).2.2.1, (hagree c).2.2.2] at hr
  have hk := Cert.KernelIdeal.KVal.kernel_value m c he
  refine hr.trans (Eq.trans ?_ hk.symm)
  funext j
  exact (Cert.Spec.kerOut_eq_refOut _ _ _ _ _ _ hx hW (fun i => Cert.Spec.dis_real _ i) (j 0) (j 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
